-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg3 : IVec S100000 32) (main_v32 : IVec S_ 1) (main_c_12 : IVec S_ 32) : IVec S_ 1 :=
  let main_v33 : IVec S100000 32 := broadcastInDim S100000 ![] bcast_S_S100000 main_c_12
  let main_v34 : IVec S100000 1 := cmpi .slt main_arg3 main_v33
  let main_c_13 : IVec S_ 1 := constantI S_ 1 1#1
  let main_v35 : IVec S_ 1 := (fun x v => Host.reduce IntOp.andi x v reducesTo_S100000_S_d0 h_S_) main_v34 main_c_13
  let main_v36 : IVec S_ 1 := andi main_v32 main_v35
  main_v36

def fn_part1 {F : FTy → Type} [FloatOps F] (main_arg3 : IVec S100000 32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S100000 32 := broadcastInDim S100000 ![] bcast_S_S100000 main_c_10
  let main_v30 : IVec S100000 1 := cmpi .sge main_arg3 main_v29
  let main_c_11 : IVec S_ 1 := constantI S_ 1 1#1
  let main_v31 : IVec S_ 1 := (fun x v => Host.reduce IntOp.andi x v reducesTo_S100000_S_d0 h_S_) main_v30 main_c_11
  let main_v32 : IVec S_ 1 := andi main_v28 main_v31
  let main_c_12 : IVec S_ 32 := constantI S_ 32 256#32
  fn_part2 (F := F) main_arg3 main_v32 main_c_12

def fn {F : FTy → Type} [FloatOps F] (main_arg0 : FVec F S100000x128 .f32) (main_arg1 : IVec S2x1600000 32) (main_arg2 : FVec F S1600000x128 .f32) (main_arg3 : IVec S100000 32) (main_arg4 : IVec S100000 32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg7 main_arg8 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100352x128 : Shape := ⟨2, ![100352, 128]⟩
abbrev S100352 : Shape := ⟨1, ![100352]⟩
abbrev S1x100352 : Shape := ⟨2, ![1, 100352]⟩
abbrev S1x128 : Shape := ⟨2, ![1, 128]⟩
abbrev S12544x128 : Shape := ⟨2, ![12544, 128]⟩
abbrev S12544x1 : Shape := ⟨2, ![12544, 1]⟩
abbrev S2048x128 : Shape := ⟨2, ![2048, 128]⟩
abbrev S1x2048 : Shape := ⟨2, ![1, 2048]⟩
abbrev S256x128 : Shape := ⟨2, ![256, 128]⟩
abbrev S256x1 : Shape := ⟨2, ![256, 1]⟩
abbrev S256x2048 : Shape := ⟨2, ![256, 2048]⟩
abbrev S256 : Shape := ⟨1, ![256]⟩
abbrev S49x256x128 : Shape := ⟨3, ![49, 256, 128]⟩
abbrev S49x256x1 : Shape := ⟨3, ![49, 256, 1]⟩
abbrev S100000x1 : Shape := ⟨2, ![100000, 1]⟩
abbrev S100352x1 : Shape := ⟨2, ![100352, 1]⟩
abbrev S100352x256 : Shape := ⟨2, ![100352, 256]⟩
abbrev S2048x1 : Shape := ⟨2, ![2048, 1]⟩
abbrev S2048x256 : Shape := ⟨2, ![2048, 256]⟩
abbrev S100000x256 : Shape := ⟨2, ![100000, 256]⟩

abbrev nBuf : Space → Nat
  | .hbm => 117
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S100000, .i32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .i32⟩
  | .hbm, ⟨28, _⟩ => ⟨S_, .f32⟩
  | .hbm, ⟨29, _⟩ => ⟨S100352x128, .f32⟩
  | .hbm, ⟨30, _⟩ => ⟨S_, .i32⟩
  | .hbm, ⟨31, _⟩ => ⟨S_, .f32⟩
  | .hbm, ⟨32, _⟩ => ⟨S100352x128, .f32⟩
  | .hbm, ⟨33, _⟩ => ⟨S_, .i32⟩
  | .hbm, ⟨34, _⟩ => ⟨S_, .i32⟩
  | .hbm, ⟨35, _⟩ => ⟨S100352, .i32⟩
  | .hbm, ⟨36, _⟩ => ⟨S1x100352, .i32⟩
  | .hbm, ⟨37, _⟩ => ⟨S_, .i32⟩
  | .hbm, ⟨38, _⟩ => ⟨S_, .i32⟩
  | .hbm, ⟨39, _⟩ => ⟨S100352, .i32⟩
  | .hbm, ⟨40, _⟩ => ⟨S1x100352, .i32⟩
  | .hbm, ⟨41, _⟩ => ⟨S1x128, .f32⟩
  | .hbm, ⟨42, _⟩ => ⟨S1x128, .f32⟩
  | .hbm, ⟨43, _⟩ => ⟨S100352x128, .f32⟩
  | .hbm, ⟨44, _⟩ => ⟨S12544x128, .f32⟩
  | .hbm, ⟨45, _⟩ => ⟨S12544x1, .f32⟩
  | .hbm, ⟨46, _⟩ => ⟨S49x256x128, .f32⟩
  | .hbm, ⟨47, _⟩ => ⟨S_, .f32⟩
  | .hbm, ⟨48, _⟩ => ⟨S256x128, .f32⟩
  | .hbm, ⟨49, _⟩ => ⟨S49x256x1, .f32⟩
  | .hbm, ⟨50, _⟩ => ⟨S_, .f32⟩
  | .hbm, ⟨51, _⟩ => ⟨S256x1, .f32⟩
  | .hbm, ⟨52, _⟩ => ⟨S_, .f32⟩
  | .hbm, ⟨53, _⟩ => ⟨S256x1, .f32⟩
  | .hbm, ⟨54, _⟩ => ⟨S256x1, .i1⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S256x128, .f32⟩
  | .hbm, ⟨59, _⟩ => ⟨S256x128, .f32⟩
  | .hbm, ⟨60, _⟩ => ⟨S_, .f32⟩
  | .hbm, ⟨61, _⟩ => ⟨S_, .f32⟩
  | .hbm, ⟨62, _⟩ => ⟨S256x128, .i1⟩
  | .hbm, ⟨63, _⟩ => ⟨S256x128, .f32⟩
  | .hbm, ⟨64, _⟩ => ⟨S256x128, .f32⟩
  | .hbm, ⟨65, _⟩ => ⟨S100000x128, .f32⟩
  | .hbm, ⟨66, _⟩ => ⟨S_, .i32⟩
  | .hbm, ⟨67, _⟩ => ⟨S100000, .i32⟩
  | .hbm, ⟨68, _⟩ => ⟨S100000, .i1⟩
  | .hbm, ⟨69, _⟩ => ⟨S_, .i32⟩
  | .hbm, ⟨70, _⟩ => ⟨S100000, .i32⟩
  | .hbm, ⟨71, _⟩ => ⟨S100000, .i32⟩
  | .hbm, ⟨72, _⟩ => ⟨S100000, .i32⟩
  | .hbm, ⟨73, _⟩ => ⟨S100000, .i32⟩
  | .hbm, ⟨74, _⟩ => ⟨S100000, .i32⟩
  | .hbm, ⟨75, _⟩ => ⟨S100000, .i32⟩
  | .hbm, ⟨76, _⟩ => ⟨S100000, .i32⟩
  | .hbm, ⟨77, _⟩ => ⟨S_, .i32⟩
  | .hbm, ⟨78, _⟩ => ⟨S100000, .i32⟩
  | .hbm, ⟨79, _⟩ => ⟨S100000, .i1⟩
  | .hbm, ⟨80, _⟩ => ⟨S_, .i32⟩
  | .hbm, ⟨81, _⟩ => ⟨S100000, .i32⟩
  | .hbm, ⟨82, _⟩ => ⟨S100000, .i32⟩
  | .hbm, ⟨83, _⟩ => ⟨S100000, .i32⟩
  | .hbm, ⟨84, _⟩ => ⟨S100000x1, .i32⟩
  | .hbm, ⟨85, _⟩ => ⟨S100000x128, .f32⟩
  | .hbm, ⟨86, _⟩ => ⟨S_, .i32⟩
  | .hbm, ⟨87, _⟩ => ⟨S100000, .i32⟩
  | .hbm, ⟨88, _⟩ => ⟨S100000, .i1⟩
  | .hbm, ⟨89, _⟩ => ⟨S_, .i32⟩
  | .hbm, ⟨90, _⟩ => ⟨S100000, .i32⟩
  | .hbm, ⟨91, _⟩ => ⟨S100000, .i32⟩
  | .hbm, ⟨92, _⟩ => ⟨S100000, .i32⟩
  | .hbm, ⟨93, _⟩ => ⟨S100000x1, .i32⟩
  | .hbm, ⟨94, _⟩ => ⟨S100000, .i32⟩
  | .hbm, ⟨95, _⟩ => ⟨S_, .i32⟩
  | .hbm, ⟨96, _⟩ => ⟨S100000, .i32⟩
  | .hbm, ⟨97, _⟩ => ⟨S100000, .i1⟩
  | .hbm, ⟨98, _⟩ => ⟨S_, .i32⟩
  | .hbm, ⟨99, _⟩ => ⟨S100000, .i32⟩
  | .hbm, ⟨100, _⟩ => ⟨S100000, .i32⟩
  | .hbm, ⟨101, _⟩ => ⟨S100000, .i32⟩
  | .hbm, ⟨102, _⟩ => ⟨S100000x1, .i32⟩
  | .hbm, ⟨103, _⟩ => ⟨S100000, .i32⟩
  | .hbm, ⟨104, _⟩ => ⟨S_, .i32⟩
  | .hbm, ⟨105, _⟩ => ⟨S_, .f32⟩
  | .hbm, ⟨106, _⟩ => ⟨S100352x128, .f32⟩
  | .hbm, ⟨107, _⟩ => ⟨S_, .i32⟩
  | .hbm, ⟨108, _⟩ => ⟨S_, .i32⟩
  | .hbm, ⟨109, _⟩ => ⟨S100352, .i32⟩
  | .hbm, ⟨110, _⟩ => ⟨S100352x1, .i32⟩
  | .hbm, ⟨111, _⟩ => ⟨S_, .i32⟩
  | .hbm, ⟨112, _⟩ => ⟨S_, .i32⟩
  | .hbm, ⟨113, _⟩ => ⟨S100352, .i32⟩
  | .hbm, ⟨114, _⟩ => ⟨S100352x1, .i32⟩
  | .hbm, ⟨115, _⟩ => ⟨S100352x256, .f32⟩
  | .hbm, ⟨116, _⟩ => ⟨S100000x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x2048, .i32⟩
  | .local _ .vmem, ⟨5, _⟩ => ⟨S1x2048, .i32⟩
  | .local _ .vmem, ⟨6, _⟩ => ⟨S1x2048, .i32⟩
  | .local _ .vmem, ⟨7, _⟩ => ⟨S1x2048, .i32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | .local _ .vmem, ⟨14, _⟩ => ⟨S256x128, .f32⟩
  | .local _ .vmem, ⟨15, _⟩ => ⟨S256x128, .f32⟩
  | .local _ .vmem, ⟨16, _⟩ => ⟨S256x1, .f32⟩
  | .local _ .vmem, ⟨17, _⟩ => ⟨S256x1, .f32⟩
  | .local _ .vmem, ⟨18, _⟩ => ⟨S2048x128, .f32⟩
  | .local _ .vmem, ⟨19, _⟩ => ⟨S2048x128, .f32⟩
  | .local _ .vmem, ⟨20, _⟩ => ⟨S2048x1, .i32⟩
  | .local _ .vmem, ⟨21, _⟩ => ⟨S2048x1, .i32⟩
  | .local _ .vmem, ⟨22, _⟩ => ⟨S2048x1, .i32⟩
  | .local _ .vmem, ⟨23, _⟩ => ⟨S2048x1, .i32⟩
  | .local _ .vmem, ⟨24, _⟩ => ⟨S256x128, .f32⟩
  | .local _ .vmem, ⟨25, _⟩ => ⟨S2048x256, .f32⟩
  | .local _ .vmem, ⟨26, _⟩ => ⟨S2048x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_call0_v0 : Ref sig .tc := ⟨.hbm, 28, rfl⟩
abbrev main_v15 : Ref sig .tc := ⟨.hbm, 29, rfl⟩
abbrev main_c_2 : Ref sig .tc := ⟨.hbm, 30, rfl⟩
abbrev main_call1_v0 : Ref sig .tc := ⟨.hbm, 31, rfl⟩
abbrev main_v16 : Ref sig .tc := ⟨.hbm, 32, rfl⟩
abbrev main_c_3 : Ref sig .tc := ⟨.hbm, 33, rfl⟩
abbrev main_call2_v0 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_call3_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23_0 : Ref sig .tc := ⟨.hbm, 43, rfl⟩
abbrev main_v23_1 : Ref sig .tc := ⟨.hbm, 44, rfl⟩
abbrev main_v23_2 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v34 : Ref sig .tc := ⟨.hbm, 64, rfl⟩
abbrev main_v35 : Ref sig .tc := ⟨.hbm, 65, rfl⟩
abbrev main_c_10 : Ref sig .tc := ⟨.hbm, 66, rfl⟩
abbrev main_v36 : Ref sig .tc := ⟨.hbm, 67, rfl⟩
abbrev main_v37 : Ref sig .tc := ⟨.hbm, 68, rfl⟩
abbrev main_c_11 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_call5_v0 : Ref sig .tc := ⟨.hbm, 74, rfl⟩
abbrev main_call5_v1_0 : Ref sig .tc := ⟨.hbm, 75, rfl⟩
abbrev main_v42 : Ref sig .tc := ⟨.hbm, 76, rfl⟩
abbrev main_c_12 : Ref sig .tc := ⟨.hbm, 77, rfl⟩
abbrev main_v43 : Ref sig .tc := ⟨.hbm, 78, rfl⟩
abbrev main_v44 : Ref sig .tc := ⟨.hbm, 79, rfl⟩
abbrev main_c_13 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_14 : Ref sig .tc := ⟨.hbm, 86, rfl⟩
abbrev main_v50 : Ref sig .tc := ⟨.hbm, 87, rfl⟩
abbrev main_v51 : Ref sig .tc := ⟨.hbm, 88, rfl⟩
abbrev main_c_15 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_16 : Ref sig .tc := ⟨.hbm, 95, rfl⟩
abbrev main_v57 : Ref sig .tc := ⟨.hbm, 96, rfl⟩
abbrev main_v58 : Ref sig .tc := ⟨.hbm, 97, rfl⟩
abbrev main_c_17 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_18 : Ref sig .tc := ⟨.hbm, 104, rfl⟩
abbrev main_call6_v0 : Ref sig .tc := ⟨.hbm, 105, rfl⟩
abbrev main_v64 : Ref sig .tc := ⟨.hbm, 106, rfl⟩
abbrev main_c_19 : Ref sig .tc := ⟨.hbm, 107, rfl⟩
abbrev main_call7_v0 : Ref sig .tc := ⟨.hbm, 108, rfl⟩
abbrev main_v65 : Ref sig .tc := ⟨.hbm, 109, rfl⟩
abbrev main_v66 : Ref sig .tc := ⟨.hbm, 110, rfl⟩
abbrev main_c_20 : Ref sig .tc := ⟨.hbm, 111, rfl⟩
abbrev main_call8_v0 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg4_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem4_1 : DmaSem sig := 26

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  pads_S100000x128_S100352x128_03520_000 : S100000x128.Pads (![0, 0] : Fin 2 → Nat) ![352, 0] ![0, 0] S100352x128
  h_S_ : 0 < S_.numel
  pads_S100000_S100352_03520 : S100000.Pads (![0] : Fin 1 → Nat) ![352] ![0] S100352
  shapeCasts_S100352_S1x100352 : S100352.ShapeCasts S1x100352
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S256x2048_d0_w32 : S256x2048.Iotas .tc 32 [0]
  broadcasts_S1x2048_S256x2048 : S1x2048.Broadcasts S256x2048
  natLt_1_32 : 1 < 32
  inb_S256x128_S256x128_0_0 : ∀ a, (![0, 0] : Fin 2 → Nat) a + S256x128.size a ≤ S256x128.size a
  h_S256x128 : 0 < S256x128.numel
  reduces_S256x2048_S256 : S256x2048.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S12544x128_S49x256x128 : S12544x128.ShapeCasts S49x256x128
  reducesTo_S49x256x128_S256x128_d0 : S49x256x128.ReducesTo [0] S256x128
  shapeCasts_S12544x1_S49x256x1 : S12544x1.ShapeCasts S49x256x1
  reducesTo_S49x256x1_S256x1_d0 : S49x256x1.ReducesTo [0] S256x1
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S_S256x128 : S_.BroadcastsInDim S256x128 (![] : Fin 0 → Fin S256x128.rank)
  slices_S100352x128_S100000x128_0_0 : S100352x128.Slices ![0, 0] S100000x128
  bcast_S_S100000 : S_.BroadcastsInDim S100000 (![] : Fin 0 → Fin S100000.rank)
  bcast_S100000_S100000x1_0 : S100000.BroadcastsInDim S100000x1 (![0] : Fin 1 → Fin S100000x1.rank)
  shapeCasts_S100352_S100352x1 : S100352.ShapeCasts S100352x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  iota_S2048x256_d1_w32 : S2048x256.Iotas .tc 32 [1]
  shapeCasts_S256x128_S256x128 : S256x128.ShapeCasts S256x128
  broadcasts_S2048x1_S2048x128 : S2048x1.Broadcasts S2048x128
  inb_S2048x256_S2048x128_0_0 : ∀ a, (![0, 0] : Fin 2 → Nat) a + S2048x128.size a ≤ S2048x256.size a
  inb_S2048x256_S2048x128_0_128 : ∀ a, (![0, 128] : Fin 2 → Nat) a + S2048x128.size a ≤ S2048x256.size a
  slices_S100352x256_S100000x256_0_0 : S100352x256.Slices ![0, 0] S100000x256
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2048x128_S128x128_S2048x128_1_0_0_1_n_n_wf : DotDims.WF S2048x128 S128x128 S2048x128 [1] [0] [0] [1] [] []
  dot_S256x2048_S2048x128_S256x128_1_0_0_1_n_n_wf : DotDims.WF S256x2048 S2048x128 S256x128 [1] [0] [0] [1] [] []
  gather_S100000x128_S100000x1_S100000x128_1_0_n_n_0_1_1128_wf : GatherDims.WF S100000x128 S100000x1 S100000x128 [1] [0] [] [0] [] 1 ![1, 128]
  gather_S100000_S100000x1_S100000_n_0_n_n_0_1_1_wf : GatherDims.WF S100000 S100000x1 S100000 [] [0] [] [0] [] 1 ![1]
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S100352x128.size a
  hwx0_1 : ∀ i : grid0.Coords, EltTy.bits .f32 = 32 ∨ (Rect.block (s := S100352x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x100352.size a
  hwx0_2 : ∀ i : grid0.Coords, EltTy.bits .i32 = 32 ∨ (Rect.block (s := S1x100352) S1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x100352.size a
  hwx0_3 : ∀ i : grid0.Coords, EltTy.bits .i32 = 32 ∨ (Rect.block (s := S1x100352) S1x2048.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S100352x128.size a
  hwx0_8 : ∀ i : grid0.Coords, EltTy.bits .f32 = 32 ∨ (Rect.block (s := S100352x128) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S12544x128.size a
  hwx0_9 : ∀ i : grid0.Coords, EltTy.bits .f32 = 32 ∨ (Rect.block (s := S12544x128) S256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S12544x1.size a
  hwx0_10 : ∀ i : grid0.Coords, EltTy.bits .f32 = 32 ∨ (Rect.block (s := S12544x1) S256x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S100352x128.size a
  hwx1_0 : ∀ i : grid1.Coords, EltTy.bits .f32 = 32 ∨ (Rect.block (s := S100352x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S100352x1.size a
  hwx1_1 : ∀ i : grid1.Coords, EltTy.bits .i32 = 32 ∨ (Rect.block (s := S100352x1) S2048x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S100352x1.size a
  hwx1_2 : ∀ i : grid1.Coords, EltTy.bits .i32 = 32 ∨ (Rect.block (s := S100352x1) S2048x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S100352x256.size a
  hwx1_4 : ∀ i : grid1.Coords, EltTy.bits .f32 = 32 ∨ (Rect.block (s := S100352x256) S2048x256.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def comparator_i32_i32_d0 : BitVec 32 × BitVec 32 → BitVec 32 × BitVec 32 → BitVec 1 :=
  fun l r =>
    let v2 := IntOp.cmpi .slt l.1 r.1
    v2
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_v15) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23_0) S2048x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v23_1) S256x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v23_2) S256x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v64) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v68) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩
abbrev S100000x1 : Shape := ⟨2, ![100000, 1]⟩
abbrev S256x128 : Shape := ⟨2, ![256, 128]⟩
abbrev S256x1 : Shape := ⟨2, ![256, 1]⟩
abbrev S100000x256 : Shape := ⟨2, ![100000, 256]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S100000, .i32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S100000, .i32⟩
  | .hbm, ⟨41, _⟩ => ⟨S100000, .i1⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S256x128, .f32⟩
  | .hbm, ⟨48, _⟩ => ⟨S100000x1, .i32⟩
  | .hbm, ⟨49, _⟩ => ⟨S256x128, .f32⟩
  | .hbm, ⟨50, _⟩ => ⟨S_, .f32⟩
  | .hbm, ⟨51, _⟩ => ⟨S256x1, .f32⟩
  | .hbm, ⟨52, _⟩ => ⟨S100000x1, .i32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .i1⟩
  | .hbm, ⟨57, _⟩ => ⟨S_, .f32⟩
  | .hbm, ⟨58, _⟩ => ⟨S256x1, .f32⟩
  | .hbm, ⟨59, _⟩ => ⟨S256x1, .f32⟩
  | .hbm, ⟨60, _⟩ => ⟨S256x128, .f32⟩
  | .hbm, ⟨61, _⟩ => ⟨S256x128, .f32⟩
  | .hbm, ⟨62, _⟩ => ⟨S_, .f32⟩
  | .hbm, ⟨63, _⟩ => ⟨S_, .f32⟩
  | .hbm, ⟨64, _⟩ => ⟨S256x128, .i1⟩
  | .hbm, ⟨65, _⟩ => ⟨S256x128, .f32⟩
  | .hbm, ⟨66, _⟩ => ⟨S256x128, .f32⟩
  | .hbm, ⟨67, _⟩ => ⟨S_, .i32⟩
  | .hbm, ⟨68, _⟩ => ⟨S100000, .i32⟩
  | .hbm, ⟨69, _⟩ => ⟨S100000, .i32⟩
  | .hbm, ⟨70, _⟩ => ⟨S100000, .i32⟩
  | .hbm, ⟨71, _⟩ => ⟨S100000, .i32⟩
  | .hbm, ⟨72, _⟩ => ⟨S100000, .i32⟩
  | .hbm, ⟨73, _⟩ => ⟨S100000, .i32⟩
  | .hbm, ⟨74, _⟩ => ⟨S100000, .i32⟩
  | .hbm, ⟨75, _⟩ => ⟨S_, .i32⟩
  | .hbm, ⟨76, _⟩ => ⟨S100000, .i32⟩
  | .hbm, ⟨77, _⟩ => ⟨S100000, .i1⟩
  | .hbm, ⟨78, _⟩ => ⟨S_, .i32⟩
  | .hbm, ⟨79, _⟩ => ⟨S100000, .i32⟩
  | .hbm, ⟨80, _⟩ => ⟨S100000, .i32⟩
  | .hbm, ⟨81, _⟩ => ⟨S100000, .i32⟩
  | .hbm, ⟨82, _⟩ => ⟨S100000x1, .i32⟩
  | .hbm, ⟨83, _⟩ => ⟨S100000x128, .f32⟩
  | .hbm, ⟨84, _⟩ => ⟨S_, .i32⟩
  | .hbm, ⟨85, _⟩ => ⟨S100000, .i32⟩
  | .hbm, ⟨86, _⟩ => ⟨S100000, .i1⟩
  | .hbm, ⟨87, _⟩ => ⟨S_, .i32⟩
  | .hbm, ⟨88, _⟩ => ⟨S100000, .i32⟩
  | .hbm, ⟨89, _⟩ => ⟨S100000, .i32⟩
  | .hbm, ⟨90, _⟩ => ⟨S100000, .i32⟩
  | .hbm, ⟨91, _⟩ => ⟨S100000x1, .i32⟩
  | .hbm, ⟨92, _⟩ => ⟨S100000, .i32⟩
  | .hbm, ⟨93, _⟩ => ⟨S_, .i32⟩
  | .hbm, ⟨94, _⟩ => ⟨S100000, .i32⟩
  | .hbm, ⟨95, _⟩ => ⟨S100000, .i1⟩
  | .hbm, ⟨96, _⟩ => ⟨S_, .i32⟩
  | .hbm, ⟨97, _⟩ => ⟨S100000, .i32⟩
  | .hbm, ⟨98, _⟩ => ⟨S100000, .i32⟩
  | .hbm, ⟨99, _⟩ => ⟨S100000, .i32⟩
  | .hbm, ⟨100, _⟩ => ⟨S100000x1, .i32⟩
  | .hbm, ⟨101, _⟩ => ⟨S100000x128, .f32⟩
  | .hbm, ⟨102, _⟩ => ⟨S_, .i32⟩
  | .hbm, ⟨103, _⟩ => ⟨S100000, .i32⟩
  | .hbm, ⟨104, _⟩ => ⟨S100000, .i1⟩
  | .hbm, ⟨105, _⟩ => ⟨S_, .i32⟩
  | .hbm, ⟨106, _⟩ => ⟨S100000, .i32⟩
  | .hbm, ⟨107, _⟩ => ⟨S100000, .i32⟩
  | .hbm, ⟨108, _⟩ => ⟨S100000, .i32⟩
  | .hbm, ⟨109, _⟩ => ⟨S100000x1, .i32⟩
  | .hbm, ⟨110, _⟩ => ⟨S100000, .i32⟩
  | .hbm, ⟨111, _⟩ => ⟨S_, .i32⟩
  | .hbm, ⟨112, _⟩ => ⟨S100000, .i32⟩
  | .hbm, ⟨113, _⟩ => ⟨S100000, .i1⟩
  | .hbm, ⟨114, _⟩ => ⟨S100000x1, .i1⟩
  | .hbm, ⟨115, _⟩ => ⟨S100000x256, .f32⟩
  | .hbm, ⟨116, _⟩ => ⟨S_, .f32⟩
  | .hbm, ⟨117, _⟩ => ⟨S_, .f32⟩
  | .hbm, ⟨118, _⟩ => ⟨S100000x256, .i1⟩
  | .hbm, ⟨119, _⟩ => ⟨S100000x256, .f32⟩
  | .hbm, ⟨120, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call2_v0 : Ref sig .tc := ⟨.hbm, 72, rfl⟩
abbrev main_call2_v1_0 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v81 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S256x128 : S_.BroadcastsInDim S256x128 (![] : Fin 0 → Fin S256x128.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  natLt_1_32 : 1 < 32
  concatenates_S100000x128_S100000x128_S100000x256_d1 : Shape.Concatenates [S100000x128, S100000x128] S100000x256 1
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256x1_S100000x1_S100000x1_1_0_0_1_wf : ScatterDims.WF S256x1 S100000x1 S100000x1 [1] [0] [0] 1
  gather_S100000x128_S100000x1_S100000x128_1_0_n_n_0_1_1128_wf : GatherDims.WF S100000x128 S100000x1 S100000x128 [1] [0] [] [0] [] 1 ![1, 128]
  gather_S100000_S100000x1_S100000_n_0_n_n_0_1_1_wf : GatherDims.WF S100000 S100000x1 S100000 [] [0] [] [0] [] 1 ![1]
  gather_S256x128_S100000x1_S100000x128_1_0_n_n_0_1_1128_wf : GatherDims.WF S256x128 S100000x1 S100000x128 [1] [0] [] [0] [] 1 ![1, 128]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def comparator_i32_i32_d0 : BitVec 32 × BitVec 32 → BitVec 32 × BitVec 32 → BitVec 1 :=
  fun l r =>
    let v2 := IntOp.cmpi .slt l.1 r.1
    v2
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def gather_S256x128_S100000x1_S100000x128_1_0_n_n_0_1_1128 : GatherDims S256x128 S100000x1 S100000x128 where
  offsetDims := [1]
  collapsedSliceDims := [0]
  operandBatchingDims := []
  startIndicesBatchingDims := []
  startIndexMap := [0]
  indexVectorDim := 1
  sliceSizes := ![1, 128]
  wf := gather_S256x128_S100000x1_S100000x128_1_0_n_n_0_1_1128_wf

class Facts : Prop extends Facts₀ where

variable [Facts]
-- ==== Proof.PreRange.lean ====
/-
  The label range, read out of the precondition.

  The precondition is the conjunction of six "every entry is finite" tests on the float inputs with the two tests
  "every label is at least 0" and "every label is below 256" on the integer label input, each an and-reduction of a
  pointwise comparison.  When the conjunction is 1, each conjunct is 1, and the last two say that every label word,
  read as a signed integer, lies in [0, 256).
-/
import proofs.«411169_j26723286516090_2_alg».proof.Proof.Gen.Pre_finite_inputs
import Idealize.ShloMosaic.Lib.ValueIdx
import Idealize.ShloMosaic.Lib.ReduceAll
import Idealize.ShloMosaic.Lib.StableHlo.Predicate

noncomputable section

namespace Cert.PreRange

open Cert.Pre_finite_inputs Idealize.ShloMosaic Idealize.ShloMosaic.ValueIdx

/-- A scalar has exactly one index. -/
private instance scalarIdx : Subsingleton S_.Idx := ⟨fun a b => funext fun d => d.elim0⟩

/-- An and-reduction, over every label, of the signed test "the label is at least the word c" that came out 1 says
    that every label is at least c as a signed integer. -/
private theorem all_sge (a3 : IVec S100000 32) (c : BitVec 32) (hb : S_.BroadcastsInDim S100000 (![] : Fin 0 → Fin S100000.rank))
    (hr : S100000.ReducesTo [0] S_) (hu : 0 < S_.numel)
    (e : Host.reduce IntOp.andi (cmpi .sge a3 (broadcastInDim S100000 ![] hb (constantI S_ 32 c))) (constantI S_ 1 1#1) hr hu ix0 = 1#1)
    (i : Fin 100000) : c.toInt ≤ (a3 (ix1 i)).toInt := by
  have g : IntOp.cmpi .sge (a3 (ix1 i)) c = 1#1 := Host.reduce_andi_all _ _ hr hu ix0 e (ix1 i)
  exact IntOp.cmpi_sge.1 g

/-- Likewise for the signed test "the label is below the word c". -/
private theorem all_slt (a3 : IVec S100000 32) (c : BitVec 32) (hb : S_.BroadcastsInDim S100000 (![] : Fin 0 → Fin S100000.rank))
    (hr : S100000.ReducesTo [0] S_) (hu : 0 < S_.numel)
    (e : Host.reduce IntOp.andi (cmpi .slt a3 (broadcastInDim S100000 ![] hb (constantI S_ 32 c))) (constantI S_ 1 1#1) hr hu ix0 = 1#1)
    (i : Fin 100000) : (a3 (ix1 i)).toInt < c.toInt := by
  have g : IntOp.cmpi .slt (a3 (ix1 i)) c = 1#1 := Host.reduce_andi_all _ _ hr hu ix0 e (ix1 i)
  exact IntOp.cmpi_slt.1 g

/-- Under the precondition every label is a graph number: as a signed integer it lies in [0, 256). -/
theorem batch_range (a0 : FVec Ideal S100000x128 .f32) (a1 : IVec S2x1600000 32) (a2 : FVec Ideal S1600000x128 .f32)
    (a3 a4 : IVec S100000 32) (a5 : FVec Ideal S128x128 .f32) (a6 : FVec Ideal S128 .f32) (a7 : FVec Ideal S128x128 .f32)
    (a8 : FVec Ideal S128 .f32)
    (h : Cert.Pre_finite_inputs.fn (F := Ideal) a0 a1 a2 a3 a4 a5 a6 a7 a8 = fun _ => 1#1) (i : Fin 100000) :
    0 ≤ (a3 (ix1 i)).toInt ∧ (a3 (ix1 i)).toInt < 256 := by
  have h0 := congrFun h ValueIdx.ix0
  dsimp only [fn, fn_part1, fn_part2, andi] at h0
  -- the conjunction is ((six finiteness tests ∧ every label ≥ 0) ∧ every label < 256)
  obtain ⟨h1, hlt⟩ := IntOp.andi_eq_one.1 h0
  obtain ⟨-, hge⟩ := IntOp.andi_eq_one.1 h1
  have z0 : (0#32 : BitVec 32).toInt = 0 := by decide
  have z256 : (256#32 : BitVec 32).toInt = 256 := by decide
  have lo := all_sge a3 0#32 _ _ _ hge i
  have hi := all_slt a3 256#32 _ _ _ hlt i
  rw [z0] at lo
  rw [z256] at hi
  exact ⟨lo, hi⟩

end Cert.PreRange

end
-- ==== Proof.Spec.lean ====
/-
  What both programs compute, written once over the extended reals and explicit coordinates.

  A node row z of 128 features goes through two affine layers with a rectifier between them:
    hid z k   = max (sum_j z j * W1 (j, k) + b1 k) 0
    mlpRow z d = sum_k hid z k * W2 (k, d) + b2 d.
  The pooled sum of graph g restricted to one tile of 2048 consecutive rows adds the rows of that tile whose
  graph label is g and whose node kind is 0 ("condition"); the count is the number of such rows.  The assembled
  output row keeps the node's features in columns 0..127 and the pooled vector of its graph in columns 128..255,
  both multiplied by the indicator that the node kind is 1 ("primary").

  Labels and kinds are 32-bit words; an indicator is the extended real 1 or 0.
-/
import Idealize.ShloMosaic.Lib.ValueIdx
import Idealize.ShloMosaic.PureOps.Ideal.Laws

noncomputable section

open scoped BigOperators

namespace Cert.Spec

open Idealize.ShloMosaic Idealize.ShloMosaic.ValueIdx

/-- A matrix of extended reals with r rows and c columns. -/
abbrev FM (r c : Nat) : Type := (⟨2, ![r, c]⟩ : Shape).Idx → EReal

/-- The indicator of a decidable statement, as an extended real. -/
def ind (p : Prop) [Decidable p] : EReal := if p then 1 else 0

theorem ind_true {p : Prop} [Decidable p] (h : p) : ind p = 1 := if_pos h
theorem ind_false {p : Prop} [Decidable p] (h : ¬ p) : ind p = 0 := if_neg h

/-- One hidden unit of the first layer, after the rectifier. -/
def hid (z : Fin 128 → EReal) (W1 : FM 128 128) (b1 : Fin 128 → EReal) (k : Fin 128) : EReal :=
  max ((∑ j : Fin 128, z j * W1 (ix2 j k)) + b1 k) 0

/-- One output feature of the two-layer network on the row z. -/
def mlpRow (z : Fin 128 → EReal) (W1 : FM 128 128) (b1 : Fin 128 → EReal) (W2 : FM 128 128) (b2 : Fin 128 → EReal)
    (d : Fin 128) : EReal :=
  (∑ k : Fin 128, hid z W1 b1 k * W2 (ix2 k d)) + b2 d

/-- The network applied to row r of x + a. -/
def mlp {n : Nat} (x a : FM n 128) (W1 : FM 128 128) (b1 : Fin 128 → EReal) (W2 : FM 128 128) (b2 : Fin 128 → EReal)
    (r : Fin n) (d : Fin 128) : EReal :=
  mlpRow (fun j => x (ix2 r j) + a (ix2 r j)) W1 b1 W2 b2 d

/-- Row j of tile t among 49 tiles of 2048 rows. -/
def tileRow (t : Fin 49) (j : Fin 2048) : Fin 100352 := ⟨t.val * 2048 + j.val, by omega⟩

/-- Row g of block t among 49 blocks of 256 rows. -/
def blockRow (t : Fin 49) (g : Fin 256) : Fin 12544 := ⟨t.val * 256 + g.val, by omega⟩

/-- "Row with label b and kind p counts for graph g": the label is g and the kind is 0. -/
def sel (g : Fin 256) (b p : BitVec 32) : EReal := ind (BitVec.ofNat 32 g.val = b ∧ p = 0#32)

/-- Tile t's share of graph g's pooled sum, feature d. -/
def csumTile (bt pm : Fin 100352 → BitVec 32) (H : Fin 100352 → Fin 128 → EReal) (t : Fin 49) (g : Fin 256)
    (d : Fin 128) : EReal :=
  ∑ j : Fin 2048, sel g (bt (tileRow t j)) (pm (tileRow t j)) * H (tileRow t j) d

/-- Tile t's share of graph g's count. -/
def ccntTile (bt pm : Fin 100352 → BitVec 32) (t : Fin 49) (g : Fin 256) : EReal :=
  ∑ j : Fin 2048, sel g (bt (tileRow t j)) (pm (tileRow t j))

/-- One entry of the assembled row: features ho, label b, kind p, pooled table pool, column cc of 256. -/
def outRow (ho : Fin 128 → EReal) (b p : BitVec 32) (pool : Fin 256 → Fin 128 → EReal) (cc : Fin 256) : EReal :=
  if h : cc.val < 128 then ho ⟨cc.val, h⟩ * ind (p = 1#32)
  else (∑ g : Fin 256, ind (BitVec.ofNat 32 g.val = b) * pool g ⟨cc.val - 128, by omega⟩) * ind (p = 1#32)

/-- With the label inside the table, the indicator sum picks the label's row. -/
theorem sum_ind_pick (b : BitVec 32) (hb : b.toNat < 256) (f : Fin 256 → EReal) :
    (∑ g : Fin 256, ind (BitVec.ofNat 32 g.val = b) * f g) = f ⟨b.toNat, hb⟩ := by
  rw [Finset.sum_eq_single (⟨b.toNat, hb⟩ : Fin 256)]
  · rw [ind_true (by simp), one_mul]
  · intro g _ hg
    rw [ind_false, zero_mul]
    intro e
    apply hg
    apply Fin.ext
    have := congrArg BitVec.toNat e
    rw [BitVec.toNat_ofNat] at this
    have hg' := g.isLt
    simp only
    omega
  · intro h; exact absurd (Finset.mem_univ _) h

end Cert.Spec

end
-- ==== Proof.R0Pay.lean ====
/-
  Region 0's stored values read at one entry.

  The tile's 2048 rows go through the two-layer network row by row (the narrowing to bf16 before each product is the
  identity on exact values, and a product into a zero accumulator is the plain sum over the contracted axis); the
  pooled block is the product of the 256 x 2048 matrix of indicators "label of column j is g and kind of column j is 0"
  with the tile's network output, and the count block is that indicator matrix summed along its columns.
-/
import proofs.«411169_j26723286516090_2_alg».proof.Proof.Gen.KernelIdeal.Skeleton
import proofs.«411169_j26723286516090_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.R0

open Cert.KernelIdeal Cert.KernelIdeal.Gen Idealize.ShloMosaic Idealize.ShloMosaic.ValueIdx

/-! ## The two products read at an entry -/

/-- Left operand of the 2048 x 128 by 128 x 128 product: its row coordinate is the output's row. -/
theorem lhsA_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
/-- Its column coordinate is the contraction step. -/
theorem lhsA_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
/-- Right operand: its row coordinate is the contraction step. -/
theorem rhsA_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
/-- Its column coordinate is the output's column. -/
theorem rhsA_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A layer's product into the zero splat, at row p and feature d: the sum over k of left (p, k) times right (k, d). -/
theorem layerDot_apply {φ₁ φ₂ : FTy} (l : FVec Ideal S2048x128 φ₁) (r : FVec Ideal S128x128 φ₂) (p : Fin 2048) (d : Fin 128) :
    matmul dot_S2048x128_S128x128_S2048x128_1_0_0_1_n_n none l r (constant (F := Ideal) S2048x128 .f32 0x00000000#32) (ix2 p d)
      = ∑ k : Fin 128, l (ix2 p k) * r (ix2 k d) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p d) ((contrEquiv1 dot_S2048x128_S128x128_S2048x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2048x128_S128x128_S2048x128_1_0_0_1_n_n.rhsIdx (ix2 p d) ((contrEquiv1 dot_S2048x128_S128x128_S2048x128_1_0_0_1_n_n 128 rfl rfl).symm k) = ix2 k d := funext fun a => Fin.ext (by
    match a with
    | ⟨0, _⟩ => exact (rhsA_0 _ _).trans hk
    | ⟨1, _⟩ => exact rhsA_1 _ _)
  rw [el, er]

/-- Left operand of the 256 x 2048 by 2048 x 128 product: its row coordinate is the output's row. -/
theorem lhsB_0 (i : S256x128.Idx) (q : dot_S256x2048_S2048x128_S256x128_1_0_0_1_n_n.contr.Idx) :
    (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
/-- Its column coordinate is the contraction step. -/
theorem lhsB_1 (i : S256x128.Idx) (q : dot_S256x2048_S2048x128_S256x128_1_0_0_1_n_n.contr.Idx) :
    (dot_S256x2048_S2048x128_S256x128_1_0_0_1_n_n.lhsIdx i q 1).val = (q ⟨0, by decide⟩).val :=
  dot_S256x2048_S2048x128_S256x128_1_0_0_1_n_n.lhsIdx_val_of_single rfl i q
/-- Right operand: its row coordinate is the contraction step. -/
theorem rhsB_0 (i : S256x128.Idx) (q : dot_S256x2048_S2048x128_S256x128_1_0_0_1_n_n.contr.Idx) :
    (dot_S256x2048_S2048x128_S256x128_1_0_0_1_n_n.rhsIdx i q 0).val = (q ⟨0, by decide⟩).val :=
  dot_S256x2048_S2048x128_S256x128_1_0_0_1_n_n.rhsIdx_val_of_single rfl i q
/-- Its column coordinate is the output's column. -/
theorem rhsB_1 (i : S256x128.Idx) (q : dot_S256x2048_S2048x128_S256x128_1_0_0_1_n_n.contr.Idx) :
    (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl

/-- The pooling product into the zero splat, at graph g and feature d: the sum over the 2048 columns j of left (g, j) times right (j, d). -/
theorem poolDot_apply {φ₁ φ₂ : FTy} (prec : Option ContractPrecision) (l : FVec Ideal S256x2048 φ₁) (r : FVec Ideal S2048x128 φ₂) (g : Fin 256) (d : Fin 128) :
    matmul dot_S256x2048_S2048x128_S256x128_1_0_0_1_n_n prec l r (constant (F := Ideal) S256x128 .f32 0x00000000#32) (ix2 g d)
      = ∑ j : Fin 2048, l (ix2 g j) * r (ix2 j d) := by
  simp only [matmul]
  rw [Ideal.matmul_constant_zero_apply, ← Equiv.sum_comp (contrEquiv1 dot_S256x2048_S2048x128_S256x128_1_0_0_1_n_n 2048 rfl rfl).symm]
  refine Finset.sum_congr rfl fun k _ => ?_
  have hk := contrEquiv1_symm_val dot_S256x2048_S2048x128_S256x128_1_0_0_1_n_n 2048 rfl rfl k
  have el : dot_S256x2048_S2048x128_S256x128_1_0_0_1_n_n.lhsIdx (ix2 g d) ((contrEquiv1 dot_S256x2048_S2048x128_S256x128_1_0_0_1_n_n 2048 rfl rfl).symm k) = ix2 g k := funext fun a => Fin.ext (by
    match a with
    | ⟨0, _⟩ => exact lhsB_0 _ _
    | ⟨1, _⟩ => exact (lhsB_1 _ _).trans hk)
  have er : dot_S256x2048_S2048x128_S256x128_1_0_0_1_n_n.rhsIdx (ix2 g d) ((contrEquiv1 dot_S256x2048_S2048x128_S256x128_1_0_0_1_n_n 2048 rfl rfl).symm k) = ix2 k d := funext fun a => Fin.ext (by
    match a with
    | ⟨0, _⟩ => exact (rhsB_0 _ _).trans hk
    | ⟨1, _⟩ => exact rhsB_1 _ _)
  rw [el, er]

/-! ## The indicator matrix read at an entry -/

/-- Two one-bit comparison words joined by "and", widened and read as a number: 1 when a = b and c is the zero word, else 0. -/
theorem selWord (a b c : BitVec 32) :
    FloatOps.sitofp (F := Ideal) .f32 ((IntOp.andi (IntOp.cmpi .eq a b) (IntOp.cmpi .eq c 0#32)).setWidth 32)
      = Cert.Spec.ind (a = b ∧ c = 0#32) := by
  show ((((IntOp.andi (IntOp.cmpi .eq a b) (IntOp.cmpi .eq c 0#32)).setWidth 32).toInt : ℝ) : EReal) = _
  by_cases h1 : a = b
  · by_cases h2 : c = 0#32
    · rw [Cert.Spec.ind_true ⟨h1, h2⟩]
      subst h1; subst h2
      simp [IntOp.cmpi, IntOp.andi]
    · rw [Cert.Spec.ind_false (fun h => h2 h.2)]
      have e : (c == 0#32) = false := beq_eq_false_iff_ne.mpr h2
      simp [IntOp.cmpi, IntOp.andi, e]
  · rw [Cert.Spec.ind_false (fun h => h1 h.1)]
    have e : (a == b) = false := beq_eq_false_iff_ne.mpr h1
    simp [IntOp.cmpi, IntOp.andi, e]

/-- The indicator matrix at graph g, column j: 1 when the label of column j is g and its kind is 0, else 0. -/
theorem pay1_apply (bt pm : Vec Ideal S1x2048 .i32) (g : Fin 256) (j : Fin 2048) :
    k0_pay1 (F := Ideal) (k0_pay5 (F := Ideal) bt) (k0_pay6 (F := Ideal) pm) (ix2 g j)
      = Cert.Spec.sel g (bt (ix2 0 j)) (pm (ix2 0 j)) := by
  unfold k0_pay1 k0_pay5 k0_pay6
  simp only [shapeCast_self]
  show FloatOps.sitofp (F := Ideal) .f32 ((IntOp.andi
      (IntOp.cmpi .eq (iota .tc S256x2048 32 [0] iota_S256x2048_d0_w32 (ix2 g j))
        (broadcastTo S256x2048 bt broadcasts_S1x2048_S256x2048 (ix2 g j)))
      (IntOp.cmpi .eq (broadcastTo S256x2048 pm broadcasts_S1x2048_S256x2048 (ix2 g j)) 0#32)).setWidth 32) = _
  rw [iota_single_apply, broadcastTo_1b_ab_apply, broadcastTo_1b_ab_apply, selWord]
  rfl

/-! ## The network's output read at an entry -/

/-- The first store's value at row p, feature d: the network on row p of the sum of the two input blocks. -/
theorem pay4_apply (v0 v2 : Vec Ideal S2048x128 .f32) (v6 : Vec Ideal S128x128 .f32) (v9 : Vec Ideal S1x128 .f32)
    (v16 : Vec Ideal S128x128 .f32) (v19 : Vec Ideal S1x128 .f32) (p : Fin 2048) (d : Fin 128) :
    k0_pay4 (F := Ideal) v0 v2 v6 v9 v16 v19 (ix2 p d)
      = Cert.Spec.mlp v0 v2 v6 (fun k => v9 (ix2 0 k)) v16 (fun k => v19 (ix2 0 k)) p d := by
  unfold k0_pay4
  simp only [shapeCast_self]
  rw [addf_apply, layerDot_apply, broadcastTo_1b_ab_apply]
  unfold Cert.Spec.mlp Cert.Spec.mlpRow
  refine congrArg₂ (· + ·) (Finset.sum_congr rfl fun k _ => ?_) rfl
  refine congrArg₂ (· * ·) ?_ rfl
  rw [truncf_apply, maximumf_apply, addf_apply, layerDot_apply, broadcastTo_1b_ab_apply, broadcast_apply]
  unfold Cert.Spec.hid
  refine congrArg₂ max ?_ Ideal.ofBits_zero_f32
  rfl

/-! ## The pooled block and the count block read at an entry -/

/-- The pooled block at graph g, feature d: the sum over the tile's columns of indicator times network output. -/
theorem pay2_apply (Hb : FVec Ideal S2048x128 .f32) (bt pm : Vec Ideal S1x2048 .i32) (g : Fin 256) (d : Fin 128) :
    k0_pay2 (F := Ideal) Hb (k0_pay5 (F := Ideal) bt) (k0_pay6 (F := Ideal) pm) (ix2 g d)
      = ∑ j : Fin 2048, Cert.Spec.sel g (bt (ix2 0 j)) (pm (ix2 0 j)) * Hb (ix2 j d) := by
  unfold k0_pay2
  refine (poolDot_apply _ _ _ g d).trans ?_
  refine Finset.sum_congr rfl fun j _ => ?_
  rw [pay1_apply]

/-- The count block at graph g: the number of the tile's columns with label g and kind 0. -/
theorem pay3_apply (bt pm : Vec Ideal S1x2048 .i32) (g : Fin 256) :
    k0_pay3 (F := Ideal) (k0_pay5 (F := Ideal) bt) (k0_pay6 (F := Ideal) pm) (ix2 g 0)
      = ∑ j : Fin 2048, Cert.Spec.sel g (bt (ix2 0 j)) (pm (ix2 0 j)) := by
  unfold k0_pay3
  refine (shapeCast_apply _ shapeCasts_S256_S256x1 (ix2 g 0) (ix1 g) ?_).trans ?_
  · rw [Shape.rowMajor_val_one, Shape.rowMajor_val_two]
    show g.val = g.val * 1 + 0
    omega
  refine (Ideal.multiReduction_add_single _ 0x00000000#32 reduces_S256x2048_S256 (.inl rfl) rfl (ix1 g)).trans ?_
  show ∑ j : Fin 2048, _ = _
  refine Finset.sum_congr rfl fun j _ => ?_
  refine Eq.trans ?_ (pay1_apply bt pm g j)
  refine congrArg _ ?_
  funext a
  match a with
  | ⟨0, _⟩ => rfl
  | ⟨1, _⟩ => rfl

end Cert.KernelIdeal.R0

end
-- ==== Proof.R0Arr.lean ====
/-
  Region 0's three output arrays after all 49 grid points, as whole-array functions of the arrays the region finds.

  Point t reads rows 2048 t .. 2048 t + 2047 of the two padded feature arrays and columns 2048 t .. of the padded label
  and kind rows, and writes rows 2048 t .. of the network output, rows 256 t .. 256 t + 255 of the pooled partial sums
  and of the partial counts.  The output blocks of different points are disjoint and together cover each array, so
  every entry of an output array is the entry its own point stored.
-/
import proofs.«411169_j26723286516090_2_alg».proof.Proof.Gen.KernelIdeal.Frame
import proofs.«411169_j26723286516090_2_alg».proof.Proof.Spec
import Idealize.ShloMosaic.Lib.ValueIdx
import Idealize.ShloMosaic.Lib.Pipeline.Value
import Idealize.ShloMosaic.PureOps.Ideal.Laws
import proofs.«411169_j26723286516090_2_alg».proof.Proof.R0Pay

set_option maxRecDepth 16384

noncomputable section

open scoped BigOperators

namespace Cert.KernelIdeal.R0

open Cert.KernelIdeal Cert.KernelIdeal.Gen Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

/-- The arrays region 0 finds, each at its literal type. -/
abbrev aX (c : Dev nD) : Vec Ideal S100352x128 .f32 := V c (Pipeline.arrRef spec0 0)
abbrev aA (c : Dev nD) : Vec Ideal S100352x128 .f32 := V c (Pipeline.arrRef spec0 1)
abbrev aBt (c : Dev nD) : Vec Ideal S1x100352 .i32 := V c (Pipeline.arrRef spec0 2)
abbrev aPm (c : Dev nD) : Vec Ideal S1x100352 .i32 := V c (Pipeline.arrRef spec0 3)
abbrev aW1 (c : Dev nD) : Vec Ideal S128x128 .f32 := V c (Pipeline.arrRef spec0 4)
abbrev aB1 (c : Dev nD) : Vec Ideal S1x128 .f32 := V c (Pipeline.arrRef spec0 5)
abbrev aW2 (c : Dev nD) : Vec Ideal S128x128 .f32 := V c (Pipeline.arrRef spec0 6)
abbrev aB2 (c : Dev nD) : Vec Ideal S1x128 .f32 := V c (Pipeline.arrRef spec0 7)

/-- The network on row r of the padded features plus the padded aggregate. -/
def netP (c : Dev nD) (r : Fin 100352) (d : Fin 128) : EReal :=
  Cert.Spec.mlp (aX V c) (aA V c) (aW1 V c) (fun k => aB1 V c (ix2 0 k)) (aW2 V c) (fun k => aB2 V c (ix2 0 k)) r d

/-- The zero offset of a whole-buffer rectangle. -/
private theorem hz2 : (![0, 0] : Fin 2 → Nat) = fun _ => 0 := funext fun a => by fin_cases a <;> rfl

/-- A grid point as its number among the 49. -/
private def pt (t : Fin cfg0.N) : Fin 49 := ⟨t.val, by have h : t.val < grid0.N := t.isLt; rw [N_0] at h; exact h⟩

/-- The windows over row blocks sit at block row t, block column 0, at point t. -/
private theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The windows over column blocks of a single row sit at block column t at point t. -/
private theorem idx_cols : ∀ t : Fin cfg0.N,
    win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The windows over a whole small array sit at block (0, 0) at every point. -/
private theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Block t of the first feature array is its rows 2048 t .. 2048 t + 2047. -/
private theorem blk0_apply (c : Dev nD) (t : Fin cfg0.N) (p : Fin 2048) (d : Fin 128) :
    (iblk0 V c 0 t : Vec Ideal S2048x128 .f32) (ix2 p d) = aX V c (ix2 (Cert.Spec.tileRow (pt t) p) d) := by
  obtain ⟨e0, e1, -⟩ := idx_rows t
  unfold iblk0
  rw [View.read_apply]
  show V c (Pipeline.arrRef spec0 0) (((cfg0.win 0).blk t).view.emb (ix2 p d)) = V c (Pipeline.arrRef spec0 0) (ix2 (Cert.Spec.tileRow (pt t) p) d)
  congr 1
  funext a; apply Fin.ext
  match a with
  | ⟨0, _⟩ => show win0_0.index t (0 : Fin 2) * 2048 + 1 * p.val = t.val * 2048 + p.val; omega
  | ⟨1, _⟩ => show win0_0.index t (1 : Fin 2) * 128 + 1 * d.val = d.val; omega

/-- Block t of the second feature array is its rows 2048 t .. 2048 t + 2047. -/
private theorem blk1_apply (c : Dev nD) (t : Fin cfg0.N) (p : Fin 2048) (d : Fin 128) :
    (iblk0 V c 1 t : Vec Ideal S2048x128 .f32) (ix2 p d) = aA V c (ix2 (Cert.Spec.tileRow (pt t) p) d) := by
  obtain ⟨-, -, e0, e1, -⟩ := idx_rows t
  unfold iblk0
  rw [View.read_apply]
  show V c (Pipeline.arrRef spec0 1) (((cfg0.win 1).blk t).view.emb (ix2 p d)) = V c (Pipeline.arrRef spec0 1) (ix2 (Cert.Spec.tileRow (pt t) p) d)
  congr 1
  funext a; apply Fin.ext
  match a with
  | ⟨0, _⟩ => show win0_1.index t (0 : Fin 2) * 2048 + 1 * p.val = t.val * 2048 + p.val; omega
  | ⟨1, _⟩ => show win0_1.index t (1 : Fin 2) * 128 + 1 * d.val = d.val; omega

/-- Block t of the label row is its columns 2048 t .. 2048 t + 2047. -/
private theorem blk2_apply (c : Dev nD) (t : Fin cfg0.N) (j : Fin 2048) :
    (iblk0 V c 2 t : Vec Ideal S1x2048 .i32) (ix2 0 j) = aBt V c (ix2 0 (Cert.Spec.tileRow (pt t) j)) := by
  obtain ⟨e0, e1, -⟩ := idx_cols t
  unfold iblk0
  rw [View.read_apply]
  show V c (Pipeline.arrRef spec0 2) (((cfg0.win 2).blk t).view.emb (ix2 0 j)) = V c (Pipeline.arrRef spec0 2) (ix2 0 (Cert.Spec.tileRow (pt t) j))
  congr 1
  funext a; apply Fin.ext
  match a with
  | ⟨0, _⟩ => show win0_2.index t (0 : Fin 2) * 1 + 1 * 0 = 0; omega
  | ⟨1, _⟩ => show win0_2.index t (1 : Fin 2) * 2048 + 1 * j.val = t.val * 2048 + j.val; omega

/-- Block t of the kind row is its columns 2048 t .. 2048 t + 2047. -/
private theorem blk3_apply (c : Dev nD) (t : Fin cfg0.N) (j : Fin 2048) :
    (iblk0 V c 3 t : Vec Ideal S1x2048 .i32) (ix2 0 j) = aPm V c (ix2 0 (Cert.Spec.tileRow (pt t) j)) := by
  obtain ⟨-, -, e0, e1⟩ := idx_cols t
  unfold iblk0
  rw [View.read_apply]
  show V c (Pipeline.arrRef spec0 3) (((cfg0.win 3).blk t).view.emb (ix2 0 j)) = V c (Pipeline.arrRef spec0 3) (ix2 0 (Cert.Spec.tileRow (pt t) j))
  congr 1
  funext a; apply Fin.ext
  match a with
  | ⟨0, _⟩ => show win0_3.index t (0 : Fin 2) * 1 + 1 * 0 = 0; omega
  | ⟨1, _⟩ => show win0_3.index t (1 : Fin 2) * 2048 + 1 * j.val = t.val * 2048 + j.val; omega

/-- The first weight matrix's block is the whole matrix at every point. -/
private theorem blk4_apply (c : Dev nD) (t : Fin cfg0.N) (j k : Fin 128) :
    (iblk0 V c 4 t : Vec Ideal S128x128 .f32) (ix2 j k) = aW1 V c (ix2 j k) := by
  obtain ⟨e0, e1, -⟩ := idx_whole t
  unfold iblk0
  rw [View.read_apply]
  show V c (Pipeline.arrRef spec0 4) (((cfg0.win 4).blk t).view.emb (ix2 j k)) = V c (Pipeline.arrRef spec0 4) (ix2 j k)
  congr 1
  funext a; apply Fin.ext
  match a with
  | ⟨0, _⟩ => show win0_4.index t (0 : Fin 2) * 128 + 1 * j.val = j.val; omega
  | ⟨1, _⟩ => show win0_4.index t (1 : Fin 2) * 128 + 1 * k.val = k.val; omega

/-- The first bias row's block is the whole row at every point. -/
private theorem blk5_apply (c : Dev nD) (t : Fin cfg0.N) (k : Fin 128) :
    (iblk0 V c 5 t : Vec Ideal S1x128 .f32) (ix2 0 k) = aB1 V c (ix2 0 k) := by
  obtain ⟨-, -, e0, e1, -⟩ := idx_whole t
  unfold iblk0
  rw [View.read_apply]
  show V c (Pipeline.arrRef spec0 5) (((cfg0.win 5).blk t).view.emb (ix2 0 k)) = V c (Pipeline.arrRef spec0 5) (ix2 0 k)
  congr 1
  funext a; apply Fin.ext
  match a with
  | ⟨0, _⟩ => show win0_5.index t (0 : Fin 2) * 1 + 1 * 0 = 0; omega
  | ⟨1, _⟩ => show win0_5.index t (1 : Fin 2) * 128 + 1 * k.val = k.val; omega

/-- The second weight matrix's block is the whole matrix at every point. -/
private theorem blk6_apply (c : Dev nD) (t : Fin cfg0.N) (j k : Fin 128) :
    (iblk0 V c 6 t : Vec Ideal S128x128 .f32) (ix2 j k) = aW2 V c (ix2 j k) := by
  obtain ⟨-, -, -, -, e0, e1, -⟩ := idx_whole t
  unfold iblk0
  rw [View.read_apply]
  show V c (Pipeline.arrRef spec0 6) (((cfg0.win 6).blk t).view.emb (ix2 j k)) = V c (Pipeline.arrRef spec0 6) (ix2 j k)
  congr 1
  funext a; apply Fin.ext
  match a with
  | ⟨0, _⟩ => show win0_6.index t (0 : Fin 2) * 128 + 1 * j.val = j.val; omega
  | ⟨1, _⟩ => show win0_6.index t (1 : Fin 2) * 128 + 1 * k.val = k.val; omega

/-- The second bias row's block is the whole row at every point. -/
private theorem blk7_apply (c : Dev nD) (t : Fin cfg0.N) (k : Fin 128) :
    (iblk0 V c 7 t : Vec Ideal S1x128 .f32) (ix2 0 k) = aB2 V c (ix2 0 k) := by
  obtain ⟨-, -, -, -, -, -, e0, e1⟩ := idx_whole t
  unfold iblk0
  rw [View.read_apply]
  show V c (Pipeline.arrRef spec0 7) (((cfg0.win 7).blk t).view.emb (ix2 0 k)) = V c (Pipeline.arrRef spec0 7) (ix2 0 k)
  congr 1
  funext a; apply Fin.ext
  match a with
  | ⟨0, _⟩ => show win0_7.index t (0 : Fin 2) * 1 + 1 * 0 = 0; omega
  | ⟨1, _⟩ => show win0_7.index t (1 : Fin 2) * 128 + 1 * k.val = k.val; omega

/-- The network's value on a row depends only on that row of the two feature arrays and on the weights' entries. -/
private theorem mlp_congr {n m : Nat} (x a : Cert.Spec.FM n 128) (x' a' : Cert.Spec.FM m 128) (W1 W1' W2 W2' : Cert.Spec.FM 128 128)
    (b1 b1' b2 b2' : Fin 128 → EReal) (r : Fin n) (r' : Fin m) (d : Fin 128)
    (hx : ∀ j, x (ix2 r j) = x' (ix2 r' j)) (ha : ∀ j, a (ix2 r j) = a' (ix2 r' j))
    (hW1 : ∀ j k, W1 (ix2 j k) = W1' (ix2 j k)) (hb1 : ∀ k, b1 k = b1' k)
    (hW2 : ∀ j k, W2 (ix2 j k) = W2' (ix2 j k)) (hb2 : ∀ k, b2 k = b2' k) :
    Cert.Spec.mlp x a W1 b1 W2 b2 r d = Cert.Spec.mlp x' a' W1' b1' W2' b2' r' d := by
  unfold Cert.Spec.mlp Cert.Spec.mlpRow Cert.Spec.hid
  rw [hb2 d]
  congr 1
  refine Finset.sum_congr rfl fun k _ => ?_
  rw [hW2 k d, hb1 k]
  congr 3
  refine Finset.sum_congr rfl fun j _ => ?_
  show (x (ix2 r j) + a (ix2 r j)) * W1 (ix2 j k) = (x' (ix2 r' j) + a' (ix2 r' j)) * W1' (ix2 j k)
  rw [hx j, ha j, hW1 j k]

/-- What point t's network payload holds at row p, feature d: the network on row 2048 t + p of the arrays. -/
private theorem net_blk (c : Dev nD) (t : Fin cfg0.N) (p : Fin 2048) (d : Fin 128) :
    k0_pay4 (F := Ideal) (iblk0 V c 0 t) (iblk0 V c 1 t) (iblk0 V c 4 t) (iblk0 V c 5 t) (iblk0 V c 6 t) (iblk0 V c 7 t) (ix2 p d)
      = netP V c (Cert.Spec.tileRow (pt t) p) d := by
  refine (pay4_apply (iblk0 V c 0 t) (iblk0 V c 1 t) (iblk0 V c 4 t) (iblk0 V c 5 t) (iblk0 V c 6 t) (iblk0 V c 7 t) p d).trans ?_
  unfold netP
  exact mlp_congr (iblk0 V c 0 t) (iblk0 V c 1 t) (aX V c) (aA V c) (iblk0 V c 4 t) (aW1 V c) (iblk0 V c 6 t) (aW2 V c)
    (fun k => (iblk0 V c 5 t : Vec Ideal S1x128 .f32) (ix2 0 k)) (fun k => aB1 V c (ix2 0 k))
    (fun k => (iblk0 V c 7 t : Vec Ideal S1x128 .f32) (ix2 0 k)) (fun k => aB2 V c (ix2 0 k))
    p (Cert.Spec.tileRow (pt t) p) d
    (fun j => blk0_apply V c t p j) (fun j => blk1_apply V c t p j)
    (fun j k => blk4_apply V c t j k) (fun k => blk5_apply V c t k)
    (fun j k => blk6_apply V c t j k) (fun k => blk7_apply V c t k)

/-! ## The network output (window 8) -/

/-- The network output as one function of the arrays the region finds. -/
private def G8 (c : Dev nD) : Vec Ideal S100352x128 .f32 := fun i => netP V c (i 0) (i 1)

/-- Entry (p, d) of point t's block of the network output sits at row 2048 t + p of the array. -/
private theorem emb8 (t : Fin cfg0.N) (p : Fin 2048) (d : Fin 128) :
    (((cfg0.win 8).blk t).view.emb (ix2 p d) : S100352x128.Idx) = ix2 (Cert.Spec.tileRow (pt t) p) d := by
  obtain ⟨-, -, -, -, e0, e1, -⟩ := idx_rows t
  funext a; apply Fin.ext
  match a with
  | ⟨0, _⟩ => show win0_8.index t (0 : Fin 2) * 2048 + 1 * p.val = t.val * 2048 + p.val; omega
  | ⟨1, _⟩ => show win0_8.index t (1 : Fin 2) * 128 + 1 * d.val = d.val; omega

/-- What point t writes back to the network output is block t of that function. -/
private theorem flushed8_eq (c : Dev nD) (t : Fin cfg0.N) :
    (dat0 (F := Ideal) V c).flushed 8 t = ((cfg0.win 8).blk t).view.read (Elt Ideal) (G8 V c) := by
  show (cfg0.win 8).cut (grid0.coords t) ((dat0 (F := Ideal) V c).after 8 t) = _
  rw [after0_8]
  unfold out0_8
  rw [View.canon_unit_zero hz2]
  simp only [View.ld_unit_zero (S := S2048x128) hz2, View.ld_unit_zero (S := S128x128) hz2, View.ld_unit_zero (S := S1x128) hz2]
  funext j
  obtain ⟨p, d, rfl⟩ : ∃ (p : Fin 2048) (d : Fin 128), j = ix2 p d := ⟨j 0, j 1, eq_ix2 j⟩
  show k0_pay4 (F := Ideal) (iblk0 V c 0 t) (iblk0 V c 1 t) (iblk0 V c 4 t) (iblk0 V c 5 t) (iblk0 V c 6 t) (iblk0 V c 7 t) (ix2 p d)
    = G8 V c (((cfg0.win 8).blk t).view.emb (ix2 p d))
  exact (net_blk V c t p d).trans (congrArg (G8 V c) (emb8 t p d)).symm

/-- An index of the network output is in point t's block iff each coordinate is in the block's range. -/
private theorem mem_blk8 (t : Fin cfg0.N) (i : S100352x128.Idx) :
    i ∈ ((cfg0.win 8).blk t).view.set ↔ ∀ a : Fin 2, win0_8.index t a * S2048x128.size a ≤ (i a).val ∧ (i a).val < win0_8.index t a * S2048x128.size a + S2048x128.size a := by
  show i ∈ ((View.whole main_v23_0).slice (win0_8.rect t)).set ↔ _
  rw [View.set_slice_whole, Rect.mem_set_unit]
  exact Iff.rfl

/-- Row r of the network output lies in the block of point r / 2048. -/
private theorem cover8 (i : S100352x128.Idx) :
    ∃ t : Fin cfg0.N, (cfg0.win 8).flush t = true ∧ i ∈ ((cfg0.win 8).blk t).view.set := by
  have hi0 : (i 0).val < 100352 := idx2_lt0 i
  have hi1 : (i 1).val < 128 := idx2_lt1 i
  have hN : (i 0).val / 2048 < cfg0.N := by show _ < grid0.N; rw [N_0]; omega
  obtain ⟨-, -, -, -, e0, e1, -⟩ := idx_rows ⟨(i 0).val / 2048, hN⟩
  have e0' : win0_8.index ⟨(i 0).val / 2048, hN⟩ (0 : Fin 2) = (i 0).val / 2048 := e0
  refine ⟨⟨(i 0).val / 2048, hN⟩, flush0_8 _, ?_⟩
  rw [mem_blk8]
  intro a
  match a with
  | ⟨0, _⟩ =>
    show win0_8.index ⟨(i 0).val / 2048, hN⟩ (0 : Fin 2) * 2048 ≤ (i 0).val ∧ (i 0).val < win0_8.index ⟨(i 0).val / 2048, hN⟩ (0 : Fin 2) * 2048 + 2048
    omega
  | ⟨1, _⟩ =>
    show win0_8.index ⟨(i 0).val / 2048, hN⟩ (1 : Fin 2) * 128 ≤ (i 1).val ∧ (i 1).val < win0_8.index ⟨(i 0).val / 2048, hN⟩ (1 : Fin 2) * 128 + 128
    omega

/-- The network output after all 49 points. -/
private theorem final8 (c : Dev nD) : (dat0 (F := Ideal) V c).arrAt 8 cfg0.N = G8 V c :=
  (dat0 (F := Ideal) V c).arrAt_eq_of_cover 8 (G8 V c) (fun t _ => flushed8_eq V c t) cover8

/-! ## The pooled partial sums (window 9) -/

/-- The pooled partial sums as one function of the arrays: row 256 t + g holds tile t's share for graph g. -/
private def G9 (c : Dev nD) : Vec Ideal S12544x128 .f32 := fun i =>
  Cert.Spec.csumTile (fun r => aBt V c (ix2 0 r)) (fun r => aPm V c (ix2 0 r)) (netP V c)
    ⟨(i 0).val / 256, by have := idx2_lt0 i; omega⟩ ⟨(i 0).val % 256, Nat.mod_lt _ (by decide)⟩ (i 1)

/-- That function read at row 256 t + g. -/
private theorem G9_block (c : Dev nD) (t : Fin 49) (g : Fin 256) (d : Fin 128) :
    G9 V c (ix2 (Cert.Spec.blockRow t g) d)
      = Cert.Spec.csumTile (fun r => aBt V c (ix2 0 r)) (fun r => aPm V c (ix2 0 r)) (netP V c) t g d := by
  have h1 : (⟨(t.val * 256 + g.val) / 256, by omega⟩ : Fin 49) = t := Fin.ext (by show (t.val * 256 + g.val) / 256 = t.val; omega)
  have h2 : (⟨(t.val * 256 + g.val) % 256, Nat.mod_lt _ (by decide)⟩ : Fin 256) = g := Fin.ext (by show (t.val * 256 + g.val) % 256 = g.val; omega)
  show Cert.Spec.csumTile (fun r => aBt V c (ix2 0 r)) (fun r => aPm V c (ix2 0 r)) (netP V c)
    ⟨(t.val * 256 + g.val) / 256, _⟩ ⟨(t.val * 256 + g.val) % 256, _⟩ d = _
  rw [h1, h2]

/-- What point t's pooling payload holds at graph g, feature d: tile t's share. -/
private theorem sum_blk (c : Dev nD) (t : Fin cfg0.N) (g : Fin 256) (d : Fin 128) :
    k0_pay2 (F := Ideal) (k0_pay4 (F := Ideal) (iblk0 V c 0 t) (iblk0 V c 1 t) (iblk0 V c 4 t) (iblk0 V c 5 t) (iblk0 V c 6 t) (iblk0 V c 7 t))
        (k0_pay5 (F := Ideal) (iblk0 V c 2 t)) (k0_pay6 (F := Ideal) (iblk0 V c 3 t)) (ix2 g d)
      = Cert.Spec.csumTile (fun r => aBt V c (ix2 0 r)) (fun r => aPm V c (ix2 0 r)) (netP V c) (pt t) g d := by
  refine (pay2_apply (k0_pay4 (F := Ideal) (iblk0 V c 0 t) (iblk0 V c 1 t) (iblk0 V c 4 t) (iblk0 V c 5 t) (iblk0 V c 6 t) (iblk0 V c 7 t))
    (iblk0 V c 2 t) (iblk0 V c 3 t) g d).trans ?_
  unfold Cert.Spec.csumTile
  refine Finset.sum_congr rfl fun j _ => ?_
  rw [net_blk V c t j d, blk2_apply V c t j, blk3_apply V c t j]

/-- Entry (g, d) of point t's block of the partial sums sits at row 256 t + g of the array. -/
private theorem emb9 (t : Fin cfg0.N) (g : Fin 256) (d : Fin 128) :
    (((cfg0.win 9).blk t).view.emb (ix2 g d) : S12544x128.Idx) = ix2 (Cert.Spec.blockRow (pt t) g) d := by
  obtain ⟨-, -, -, -, -, -, e0, e1, -⟩ := idx_rows t
  funext a; apply Fin.ext
  match a with
  | ⟨0, _⟩ => show win0_9.index t (0 : Fin 2) * 256 + 1 * g.val = t.val * 256 + g.val; omega
  | ⟨1, _⟩ => show win0_9.index t (1 : Fin 2) * 128 + 1 * d.val = d.val; omega

/-- What point t writes back to the partial sums is block t of that function. -/
private theorem flushed9_eq (c : Dev nD) (t : Fin cfg0.N) :
    (dat0 (F := Ideal) V c).flushed 9 t = ((cfg0.win 9).blk t).view.read (Elt Ideal) (G9 V c) := by
  show (cfg0.win 9).cut (grid0.coords t) ((dat0 (F := Ideal) V c).after 9 t) = _
  rw [after0_9]
  unfold out0_9
  rw [View.canon_unit_zero hz2]
  simp only [View.ld_unit_zero (S := S2048x128) hz2, View.ld_unit_zero (S := S128x128) hz2, View.ld_unit_zero (S := S1x128) hz2,
    View.ld_unit_zero (S := S1x2048) hz2]
  funext j
  obtain ⟨g, d, rfl⟩ : ∃ (g : Fin 256) (d : Fin 128), j = ix2 g d := ⟨j 0, j 1, eq_ix2 j⟩
  show k0_pay2 (F := Ideal) (k0_pay4 (F := Ideal) (iblk0 V c 0 t) (iblk0 V c 1 t) (iblk0 V c 4 t) (iblk0 V c 5 t) (iblk0 V c 6 t) (iblk0 V c 7 t))
        (k0_pay5 (F := Ideal) (iblk0 V c 2 t)) (k0_pay6 (F := Ideal) (iblk0 V c 3 t)) (ix2 g d)
    = G9 V c (((cfg0.win 9).blk t).view.emb (ix2 g d))
  exact (sum_blk V c t g d).trans ((congrArg (G9 V c) (emb9 t g d)).trans (G9_block V c (pt t) g d)).symm

/-- An index of the partial sums is in point t's block iff each coordinate is in the block's range. -/
private theorem mem_blk9 (t : Fin cfg0.N) (i : S12544x128.Idx) :
    i ∈ ((cfg0.win 9).blk t).view.set ↔ ∀ a : Fin 2, win0_9.index t a * S256x128.size a ≤ (i a).val ∧ (i a).val < win0_9.index t a * S256x128.size a + S256x128.size a := by
  show i ∈ ((View.whole main_v23_1).slice (win0_9.rect t)).set ↔ _
  rw [View.set_slice_whole, Rect.mem_set_unit]
  exact Iff.rfl

/-- Row r of the partial sums lies in the block of point r / 256. -/
private theorem cover9 (i : S12544x128.Idx) :
    ∃ t : Fin cfg0.N, (cfg0.win 9).flush t = true ∧ i ∈ ((cfg0.win 9).blk t).view.set := by
  have hi0 : (i 0).val < 12544 := idx2_lt0 i
  have hi1 : (i 1).val < 128 := idx2_lt1 i
  have hN : (i 0).val / 256 < cfg0.N := by show _ < grid0.N; rw [N_0]; omega
  obtain ⟨-, -, -, -, -, -, e0, e1, -⟩ := idx_rows ⟨(i 0).val / 256, hN⟩
  have e0' : win0_9.index ⟨(i 0).val / 256, hN⟩ (0 : Fin 2) = (i 0).val / 256 := e0
  refine ⟨⟨(i 0).val / 256, hN⟩, flush0_9 _, ?_⟩
  rw [mem_blk9]
  intro a
  match a with
  | ⟨0, _⟩ =>
    show win0_9.index ⟨(i 0).val / 256, hN⟩ (0 : Fin 2) * 256 ≤ (i 0).val ∧ (i 0).val < win0_9.index ⟨(i 0).val / 256, hN⟩ (0 : Fin 2) * 256 + 256
    omega
  | ⟨1, _⟩ =>
    show win0_9.index ⟨(i 0).val / 256, hN⟩ (1 : Fin 2) * 128 ≤ (i 1).val ∧ (i 1).val < win0_9.index ⟨(i 0).val / 256, hN⟩ (1 : Fin 2) * 128 + 128
    omega

/-- The partial sums after all 49 points. -/
private theorem final9 (c : Dev nD) : (dat0 (F := Ideal) V c).arrAt 9 cfg0.N = G9 V c :=
  (dat0 (F := Ideal) V c).arrAt_eq_of_cover 9 (G9 V c) (fun t _ => flushed9_eq V c t) cover9

/-! ## The partial counts (window 10) -/

/-- The partial counts as one function of the arrays: row 256 t + g holds tile t's count for graph g. -/
private def G10 (c : Dev nD) : Vec Ideal S12544x1 .f32 := fun i =>
  Cert.Spec.ccntTile (fun r => aBt V c (ix2 0 r)) (fun r => aPm V c (ix2 0 r))
    ⟨(i 0).val / 256, by have := idx2_lt0 i; omega⟩ ⟨(i 0).val % 256, Nat.mod_lt _ (by decide)⟩

/-- That function read at row 256 t + g. -/
private theorem G10_block (c : Dev nD) (t : Fin 49) (g : Fin 256) (z : Fin 1) :
    G10 V c (ix2 (Cert.Spec.blockRow t g) z)
      = Cert.Spec.ccntTile (fun r => aBt V c (ix2 0 r)) (fun r => aPm V c (ix2 0 r)) t g := by
  have h1 : (⟨(t.val * 256 + g.val) / 256, by omega⟩ : Fin 49) = t := Fin.ext (by show (t.val * 256 + g.val) / 256 = t.val; omega)
  have h2 : (⟨(t.val * 256 + g.val) % 256, Nat.mod_lt _ (by decide)⟩ : Fin 256) = g := Fin.ext (by show (t.val * 256 + g.val) % 256 = g.val; omega)
  show Cert.Spec.ccntTile (fun r => aBt V c (ix2 0 r)) (fun r => aPm V c (ix2 0 r))
    ⟨(t.val * 256 + g.val) / 256, _⟩ ⟨(t.val * 256 + g.val) % 256, _⟩ = _
  rw [h1, h2]

/-- What point t's counting payload holds at graph g: tile t's count. -/
private theorem cnt_blk (c : Dev nD) (t : Fin cfg0.N) (g : Fin 256) :
    k0_pay3 (F := Ideal) (k0_pay5 (F := Ideal) (iblk0 V c 2 t)) (k0_pay6 (F := Ideal) (iblk0 V c 3 t)) (ix2 g 0)
      = Cert.Spec.ccntTile (fun r => aBt V c (ix2 0 r)) (fun r => aPm V c (ix2 0 r)) (pt t) g := by
  refine (pay3_apply (iblk0 V c 2 t) (iblk0 V c 3 t) g).trans ?_
  unfold Cert.Spec.ccntTile
  refine Finset.sum_congr rfl fun j _ => ?_
  rw [blk2_apply V c t j, blk3_apply V c t j]

/-- Entry (g, 0) of point t's block of the partial counts sits at row 256 t + g of the array. -/
private theorem emb10 (t : Fin cfg0.N) (g : Fin 256) :
    (((cfg0.win 10).blk t).view.emb (ix2 g 0) : S12544x1.Idx) = ix2 (Cert.Spec.blockRow (pt t) g) 0 := by
  obtain ⟨-, -, -, -, -, -, -, -, e0, e1⟩ := idx_rows t
  funext a; apply Fin.ext
  match a with
  | ⟨0, _⟩ => show win0_10.index t (0 : Fin 2) * 256 + 1 * g.val = t.val * 256 + g.val; omega
  | ⟨1, _⟩ => show win0_10.index t (1 : Fin 2) * 1 + 1 * 0 = 0; omega

/-- What point t writes back to the partial counts is block t of that function. -/
private theorem flushed10_eq (c : Dev nD) (t : Fin cfg0.N) :
    (dat0 (F := Ideal) V c).flushed 10 t = ((cfg0.win 10).blk t).view.read (Elt Ideal) (G10 V c) := by
  show (cfg0.win 10).cut (grid0.coords t) ((dat0 (F := Ideal) V c).after 10 t) = _
  rw [after0_10]
  unfold out0_10
  rw [View.canon_unit_zero hz2]
  simp only [View.ld_unit_zero (S := S1x2048) hz2]
  funext j
  obtain ⟨g, z, rfl⟩ : ∃ (g : Fin 256) (z : Fin 1), j = ix2 g z := ⟨j 0, j 1, eq_ix2 j⟩
  obtain rfl : z = 0 := Subsingleton.elim _ _
  show k0_pay3 (F := Ideal) (k0_pay5 (F := Ideal) (iblk0 V c 2 t)) (k0_pay6 (F := Ideal) (iblk0 V c 3 t)) (ix2 g 0)
    = G10 V c (((cfg0.win 10).blk t).view.emb (ix2 g 0))
  exact (cnt_blk V c t g).trans ((congrArg (G10 V c) (emb10 t g)).trans (G10_block V c (pt t) g 0)).symm

/-- An index of the partial counts is in point t's block iff each coordinate is in the block's range. -/
private theorem mem_blk10 (t : Fin cfg0.N) (i : S12544x1.Idx) :
    i ∈ ((cfg0.win 10).blk t).view.set ↔ ∀ a : Fin 2, win0_10.index t a * S256x1.size a ≤ (i a).val ∧ (i a).val < win0_10.index t a * S256x1.size a + S256x1.size a := by
  show i ∈ ((View.whole main_v23_2).slice (win0_10.rect t)).set ↔ _
  rw [View.set_slice_whole, Rect.mem_set_unit]
  exact Iff.rfl

/-- Row r of the partial counts lies in the block of point r / 256. -/
private theorem cover10 (i : S12544x1.Idx) :
    ∃ t : Fin cfg0.N, (cfg0.win 10).flush t = true ∧ i ∈ ((cfg0.win 10).blk t).view.set := by
  have hi0 : (i 0).val < 12544 := idx2_lt0 i
  have hi1 : (i 1).val < 1 := idx2_lt1 i
  have hN : (i 0).val / 256 < cfg0.N := by show _ < grid0.N; rw [N_0]; omega
  obtain ⟨-, -, -, -, -, -, -, -, e0, e1⟩ := idx_rows ⟨(i 0).val / 256, hN⟩
  have e0' : win0_10.index ⟨(i 0).val / 256, hN⟩ (0 : Fin 2) = (i 0).val / 256 := e0
  refine ⟨⟨(i 0).val / 256, hN⟩, flush0_10 _, ?_⟩
  rw [mem_blk10]
  intro a
  match a with
  | ⟨0, _⟩ =>
    show win0_10.index ⟨(i 0).val / 256, hN⟩ (0 : Fin 2) * 256 ≤ (i 0).val ∧ (i 0).val < win0_10.index ⟨(i 0).val / 256, hN⟩ (0 : Fin 2) * 256 + 256
    omega
  | ⟨1, _⟩ =>
    show win0_10.index ⟨(i 0).val / 256, hN⟩ (1 : Fin 2) * 1 ≤ (i 1).val ∧ (i 1).val < win0_10.index ⟨(i 0).val / 256, hN⟩ (1 : Fin 2) * 1 + 1
    omega

/-- The partial counts after all 49 points. -/
private theorem final10 (c : Dev nD) : (dat0 (F := Ideal) V c).arrAt 10 cfg0.N = G10 V c :=
  (dat0 (F := Ideal) V c).arrAt_eq_of_cover 10 (G10 V c) (fun t _ => flushed10_eq V c t) cover10

/-- The network output array after the region. -/
theorem arr8 (c : Dev nD) (r : Fin 100352) (d : Fin 128) :
    ((dat0 (F := Ideal) V c).arrAt 8 cfg0.N : Vec Ideal S100352x128 .f32) (ix2 r d) = netP V c r d :=
  congrFun (final8 V c) (ix2 r d)

/-- The pooled partial sums after the region: block t holds tile t's share. -/
theorem arr9 (c : Dev nD) (t : Fin 49) (g : Fin 256) (d : Fin 128) :
    ((dat0 (F := Ideal) V c).arrAt 9 cfg0.N : Vec Ideal S12544x128 .f32) (ix2 (Cert.Spec.blockRow t g) d)
      = Cert.Spec.csumTile (fun r => aBt V c (ix2 0 r)) (fun r => aPm V c (ix2 0 r)) (netP V c) t g d :=
  (congrFun (final9 V c) (ix2 (Cert.Spec.blockRow t g) d)).trans (G9_block V c t g d)

/-- The partial counts after the region. -/
theorem arr10 (c : Dev nD) (t : Fin 49) (g : Fin 256) :
    ((dat0 (F := Ideal) V c).arrAt 10 cfg0.N : Vec Ideal S12544x1 .f32) (ix2 (Cert.Spec.blockRow t g) 0)
      = Cert.Spec.ccntTile (fun r => aBt V c (ix2 0 r)) (fun r => aPm V c (ix2 0 r)) t g :=
  (congrFun (final10 V c) (ix2 (Cert.Spec.blockRow t g) 0)).trans (G10_block V c t g 0)

end Cert.KernelIdeal.R0

end
-- ==== Proof.HostPre.lean ====
/-
  The host side of the kernel's program before its first region and after its second, read at one entry.

  Before the first region the program computes the aggregate (gather of source rows, plus edge features, scatter-added
  by target), pads the features and the aggregate with 352 zero rows, pads the labels with -1 and the kinds with 1 and
  lays both out as one row of 100352 columns, and lays the two biases out as rows.  After the second region it keeps
  the first 100000 rows of the assembled array.
-/
import proofs.«411169_j26723286516090_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.PureOps.Ideal.Laws

set_option maxRecDepth 16384

noncomputable section

open scoped BigOperators

namespace Cert.KernelIdeal.HostK

open Cert.KernelIdeal Cert.KernelIdeal.Gen Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

/-- The launch contents of the nine arguments, each at its literal type. -/
abbrev gX (c : Dev nD) : Vec Ideal S100000x128 .f32 := m ((c.tc : Thread nD τ).loc main_arg0)
abbrev gEI (c : Dev nD) : Vec Ideal S2x1600000 .i32 := m ((c.tc : Thread nD τ).loc main_arg1)
abbrev gEA (c : Dev nD) : Vec Ideal S1600000x128 .f32 := m ((c.tc : Thread nD τ).loc main_arg2)
abbrev gB (c : Dev nD) : Vec Ideal S100000 .i32 := m ((c.tc : Thread nD τ).loc main_arg3)
abbrev gP (c : Dev nD) : Vec Ideal S100000 .i32 := m ((c.tc : Thread nD τ).loc main_arg4)
abbrev gW1 (c : Dev nD) : Vec Ideal S128x128 .f32 := m ((c.tc : Thread nD τ).loc main_arg5)
abbrev gB1 (c : Dev nD) : Vec Ideal S128 .f32 := m ((c.tc : Thread nD τ).loc main_arg6)
abbrev gW2 (c : Dev nD) : Vec Ideal S128x128 .f32 := m ((c.tc : Thread nD τ).loc main_arg7)
abbrev gB2 (c : Dev nD) : Vec Ideal S128 .f32 := m ((c.tc : Thread nD τ).loc main_arg8)

/-- The aggregate the program computes before its first region (kept as one value). -/
def gAgg (c : Dev nD) : Vec Ideal S100000x128 .f32 := Gen.W1 m ρ c (Proc.devRef .tc main_v14)

/-! ## What each stretch of host operations before the first region writes

Stretch `k` takes the contents `W k` to `W (k+1)`; a buffer outside the stretch's list of results keeps its contents. -/

/-- The buffers stretch 0 writes. -/
private abbrev wr0 : List (Ref sig .tc) := [main_v0, main_v1, main_v2, main_v3, main_c, main_v4, main_v5, main_c_0, main_v6, main_v7,
  main_v8, main_v9, main_v10, main_v11, main_cst, main_v12, main_v13, main_v14, main_c_1]
private theorem hostOps0_wr : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W1_of (c : Dev nD) (r : Ref sig .tc) (h : r ∉ wr0) : W1 m ρ c (Proc.devRef .tc r) = W0 m ρ c (Proc.devRef .tc r) :=
  StableHlo.after_of_writes_sub hostOps0 _ hostOps0_wr h

/-- The buffers stretch 1 writes. -/
private abbrev wr1 : List (Ref sig .tc) := [main_call0_v0, main_v15]
private theorem hostOps0_1_wr : (hostOps0_1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W2_of (c : Dev nD) (r : Ref sig .tc) (h : r ∉ wr1) : W2 m ρ c (Proc.devRef .tc r) = W1 m ρ c (Proc.devRef .tc r) :=
  StableHlo.after_of_writes_sub hostOps0_1 _ hostOps0_1_wr h

/-- The buffers stretch 2 writes. -/
private abbrev wr2 : List (Ref sig .tc) := [main_c_2]
private theorem hostOps0_2_wr : (hostOps0_2 : List (HloOp τ sig (Elt Ideal))).Forall fun op => op.writes ⊆ (wr2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W3_of (c : Dev nD) (r : Ref sig .tc) (h : r ∉ wr2) : W3 m ρ c (Proc.devRef .tc r) = W2 m ρ c (Proc.devRef .tc r) :=
  StableHlo.after_of_writes_sub hostOps0_2 _ hostOps0_2_wr h

/-- The buffers stretch 3 writes. -/
private abbrev wr3 : List (Ref sig .tc) := [main_call1_v0, main_v16]
private theorem hostOps0_3_wr : (hostOps0_3 : List (HloOp τ sig (Elt Ideal))).Forall fun op => op.writes ⊆ (wr3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W4_of (c : Dev nD) (r : Ref sig .tc) (h : r ∉ wr3) : W4 m ρ c (Proc.devRef .tc r) = W3 m ρ c (Proc.devRef .tc r) :=
  StableHlo.after_of_writes_sub hostOps0_3 _ hostOps0_3_wr h

/-- The buffers stretch 4 writes. -/
private abbrev wr4 : List (Ref sig .tc) := [main_c_3]
private theorem hostOps0_4_wr : (hostOps0_4 : List (HloOp τ sig (Elt Ideal))).Forall fun op => op.writes ⊆ (wr4.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W5_of (c : Dev nD) (r : Ref sig .tc) (h : r ∉ wr4) : W5 m ρ c (Proc.devRef .tc r) = W4 m ρ c (Proc.devRef .tc r) :=
  StableHlo.after_of_writes_sub hostOps0_4 _ hostOps0_4_wr h

/-- The buffers stretch 5 writes. -/
private abbrev wr5 : List (Ref sig .tc) := [main_call2_v0, main_v17]
private theorem hostOps0_5_wr : (hostOps0_5 : List (HloOp τ sig (Elt Ideal))).Forall fun op => op.writes ⊆ (wr5.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W6_of (c : Dev nD) (r : Ref sig .tc) (h : r ∉ wr5) : W6 m ρ c (Proc.devRef .tc r) = W5 m ρ c (Proc.devRef .tc r) :=
  StableHlo.after_of_writes_sub hostOps0_5 _ hostOps0_5_wr h

/-- The buffers stretch 6 writes. -/
private abbrev wr6 : List (Ref sig .tc) := [main_v18, main_c_4]
private theorem hostOps0_6_wr : (hostOps0_6 : List (HloOp τ sig (Elt Ideal))).Forall fun op => op.writes ⊆ (wr6.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W7_of (c : Dev nD) (r : Ref sig .tc) (h : r ∉ wr6) : W7 m ρ c (Proc.devRef .tc r) = W6 m ρ c (Proc.devRef .tc r) :=
  StableHlo.after_of_writes_sub hostOps0_6 _ hostOps0_6_wr h

/-- The buffers stretch 7 writes. -/
private abbrev wr7 : List (Ref sig .tc) := [main_call3_v0, main_v19]
private theorem hostOps0_7_wr : (hostOps0_7 : List (HloOp τ sig (Elt Ideal))).Forall fun op => op.writes ⊆ (wr7.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W8_of (c : Dev nD) (r : Ref sig .tc) (h : r ∉ wr7) : W8 m ρ c (Proc.devRef .tc r) = W7 m ρ c (Proc.devRef .tc r) :=
  StableHlo.after_of_writes_sub hostOps0_7 _ hostOps0_7_wr h

/-- The buffers stretch 8 writes. -/
private abbrev wr8 : List (Ref sig .tc) := [main_v20, main_v21, main_v22]
private theorem hostOps0_8_wr : (hostOps0_8 : List (HloOp τ sig (Elt Ideal))).Forall fun op => op.writes ⊆ (wr8.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W9_of (c : Dev nD) (r : Ref sig .tc) (h : r ∉ wr8) : W9 m ρ c (Proc.devRef .tc r) = W8 m ρ c (Proc.devRef .tc r) :=
  StableHlo.after_of_writes_sub hostOps0_8 _ hostOps0_8_wr h

/-! ## A padded array read at an entry -/

/-- 352 rows of one value under a matrix of 100000 rows: inside the matrix its entry, below it the value. -/
private theorem pad_rows_apply {α : Type} (x : S100000x128.Idx → α) (v : S_.Idx → α) (r : Fin 100352) (j : Fin 128) :
    pad S100352x128 ![0, 0] ![352, 0] ![0, 0] x v pads_S100000x128_S100352x128_03520_000 h_S_ (ix2 r j)
      = if h : r.val < 100000 then x (ix2 ⟨r.val, h⟩ j) else v ix0 := by
  by_cases h : r.val < 100000
  · rw [dif_pos h]
    refine pad_apply_of_inside _ _ _ x v _ _ (ix2 r j) (ix2 ⟨r.val, h⟩ j) fun a => ?_
    match a with
    | ⟨0, _⟩ => show r.val = 0 + r.val * (0 + 1); omega
    | ⟨1, _⟩ => show j.val = 0 + j.val * (0 + 1); omega
  · rw [dif_neg h]
    refine (pad_apply_of_not_inside _ _ _ x v _ _ (ix2 r j) (0 : Fin 2) fun hin => h ?_).trans (congrArg v (eq_ix0 _))
    have h3 : (r.val - 0) / (0 + 1) < 100000 := hin.2.2
    omega

/-- 352 copies of one value after a vector of 100000 entries. -/
private theorem pad_tail_apply {α : Type} (x : S100000.Idx → α) (v : S_.Idx → α) (r : Fin 100352) :
    pad S100352 ![0] ![352] ![0] x v pads_S100000_S100352_03520 h_S_ (ix1 r)
      = if h : r.val < 100000 then x (ix1 ⟨r.val, h⟩) else v ix0 := by
  by_cases h : r.val < 100000
  · rw [dif_pos h]
    refine pad_apply_of_inside _ _ _ x v _ _ (ix1 r) (ix1 ⟨r.val, h⟩) fun a => ?_
    match a with
    | ⟨0, _⟩ => show r.val = 0 + r.val * (0 + 1); omega
  · rw [dif_neg h]
    refine (pad_apply_of_not_inside _ _ _ x v _ _ (ix1 r) (0 : Fin 1) fun hin => h ?_).trans (congrArg v (eq_ix0 _))
    have h3 : (r.val - 0) / (0 + 1) < 100000 := hin.2.2
    omega

/-! ## Each stretch's results as terms over the contents before it -/

private theorem c1_after (V : Valuation τ sig (Elt Ideal)) :
    (StableHlo.after hostOps0 V (Proc.devRef .tc main_c_1) : IVec S_ 32) = constantI S_ 32 0#32 := by
  after_results

private theorem v15_after (V : Valuation τ sig (Elt Ideal)) :
    (StableHlo.after hostOps0_1 V (Proc.devRef .tc main_v15) : Vec Ideal S100352x128 .f32)
      = pad S100352x128 ![0, 0] ![352, 0] ![0, 0] (V (Proc.devRef .tc main_arg0) : Vec Ideal S100000x128 .f32)
          (sitofp .f32 (V (Proc.devRef .tc main_c_1) : IVec S_ 32) : FVec Ideal S_ .f32) pads_S100000x128_S100352x128_03520_000 h_S_ := by
  after_results; rfl

private theorem c2_after (V : Valuation τ sig (Elt Ideal)) :
    (StableHlo.after hostOps0_2 V (Proc.devRef .tc main_c_2) : IVec S_ 32) = constantI S_ 32 0#32 := by
  after_results

private theorem v16_after (V : Valuation τ sig (Elt Ideal)) :
    (StableHlo.after hostOps0_3 V (Proc.devRef .tc main_v16) : Vec Ideal S100352x128 .f32)
      = pad S100352x128 ![0, 0] ![352, 0] ![0, 0] (V (Proc.devRef .tc main_v14) : Vec Ideal S100000x128 .f32)
          (sitofp .f32 (V (Proc.devRef .tc main_c_2) : IVec S_ 32) : FVec Ideal S_ .f32) pads_S100000x128_S100352x128_03520_000 h_S_ := by
  after_results; rfl

private theorem c3_after (V : Valuation τ sig (Elt Ideal)) :
    (StableHlo.after hostOps0_4 V (Proc.devRef .tc main_c_3) : IVec S_ 32) = constantI S_ 32 4294967295#32 := by
  after_results

private theorem v17_after (V : Valuation τ sig (Elt Ideal)) :
    (StableHlo.after hostOps0_5 V (Proc.devRef .tc main_v17) : IVec S100352 32)
      = pad S100352 ![0] ![352] ![0] (V (Proc.devRef .tc main_arg3) : IVec S100000 32)
          (V (Proc.devRef .tc main_c_3) : IVec S_ 32) pads_S100000_S100352_03520 h_S_ := by
  after_results; rfl

private theorem v18_after (V : Valuation τ sig (Elt Ideal)) :
    (StableHlo.after hostOps0_6 V (Proc.devRef .tc main_v18) : IVec S1x100352 32)
      = shapeCast S1x100352 (V (Proc.devRef .tc main_v17) : IVec S100352 32) shapeCasts_S100352_S1x100352 := by
  after_results; rfl

private theorem c4_after (V : Valuation τ sig (Elt Ideal)) :
    (StableHlo.after hostOps0_6 V (Proc.devRef .tc main_c_4) : IVec S_ 32) = constantI S_ 32 1#32 := by
  after_results

private theorem v19_after (V : Valuation τ sig (Elt Ideal)) :
    (StableHlo.after hostOps0_7 V (Proc.devRef .tc main_v19) : IVec S100352 32)
      = pad S100352 ![0] ![352] ![0] (V (Proc.devRef .tc main_arg4) : IVec S100000 32)
          (V (Proc.devRef .tc main_c_4) : IVec S_ 32) pads_S100000_S100352_03520 h_S_ := by
  after_results; rfl

private theorem v20_after (V : Valuation τ sig (Elt Ideal)) :
    (StableHlo.after hostOps0_8 V (Proc.devRef .tc main_v20) : IVec S1x100352 32)
      = shapeCast S1x100352 (V (Proc.devRef .tc main_v19) : IVec S100352 32) shapeCasts_S100352_S1x100352 := by
  after_results; rfl

private theorem v21_after (V : Valuation τ sig (Elt Ideal)) :
    (StableHlo.after hostOps0_8 V (Proc.devRef .tc main_v21) : Vec Ideal S1x128 .f32)
      = shapeCast S1x128 (V (Proc.devRef .tc main_arg6) : Vec Ideal S128 .f32) shapeCasts_S128_S1x128 := by
  after_results; rfl

private theorem v22_after (V : Valuation τ sig (Elt Ideal)) :
    (StableHlo.after hostOps0_8 V (Proc.devRef .tc main_v22) : Vec Ideal S1x128 .f32)
      = shapeCast S1x128 (V (Proc.devRef .tc main_arg8) : Vec Ideal S128 .f32) shapeCasts_S128_S1x128 := by
  after_results; rfl

private theorem v70_after (V : Valuation τ sig (Elt Ideal)) :
    (StableHlo.after hostOps2 V (Proc.devRef .tc main_v70) : Vec Ideal S100000x256 .f32)
      = extractStridedSlice S100000x256 ![0, 0] (V (Proc.devRef .tc main_v69) : Vec Ideal S100352x256 .f32)
          slices_S100352x256_S100000x256_0_0 := by
  after_results

/-! ## The arguments as launched, at the stretch that reads each -/

private theorem arg0_W1 (c : Dev nD) : (W1 m ρ c (Proc.devRef .tc main_arg0) : Vec Ideal S100000x128 .f32) = gX m c :=
  (W1_of m ρ c main_arg0 (by decide)).trans <|
    rfl

private theorem arg3_W5 (c : Dev nD) : (W5 m ρ c (Proc.devRef .tc main_arg3) : IVec S100000 32) = gB m c :=
  (W5_of m ρ c main_arg3 (by decide)).trans <|
    (W4_of m ρ c main_arg3 (by decide)).trans <|
    (W3_of m ρ c main_arg3 (by decide)).trans <|
    (W2_of m ρ c main_arg3 (by decide)).trans <|
    (W1_of m ρ c main_arg3 (by decide)).trans <|
    rfl

private theorem arg4_W7 (c : Dev nD) : (W7 m ρ c (Proc.devRef .tc main_arg4) : IVec S100000 32) = gP m c :=
  (W7_of m ρ c main_arg4 (by decide)).trans <|
    (W6_of m ρ c main_arg4 (by decide)).trans <|
    (W5_of m ρ c main_arg4 (by decide)).trans <|
    (W4_of m ρ c main_arg4 (by decide)).trans <|
    (W3_of m ρ c main_arg4 (by decide)).trans <|
    (W2_of m ρ c main_arg4 (by decide)).trans <|
    (W1_of m ρ c main_arg4 (by decide)).trans <|
    rfl

private theorem arg6_W8 (c : Dev nD) : (W8 m ρ c (Proc.devRef .tc main_arg6) : Vec Ideal S128 .f32) = gB1 m c :=
  (W8_of m ρ c main_arg6 (by decide)).trans <|
    (W7_of m ρ c main_arg6 (by decide)).trans <|
    (W6_of m ρ c main_arg6 (by decide)).trans <|
    (W5_of m ρ c main_arg6 (by decide)).trans <|
    (W4_of m ρ c main_arg6 (by decide)).trans <|
    (W3_of m ρ c main_arg6 (by decide)).trans <|
    (W2_of m ρ c main_arg6 (by decide)).trans <|
    (W1_of m ρ c main_arg6 (by decide)).trans <|
    rfl

private theorem arg8_W8 (c : Dev nD) : (W8 m ρ c (Proc.devRef .tc main_arg8) : Vec Ideal S128 .f32) = gB2 m c :=
  (W8_of m ρ c main_arg8 (by decide)).trans <|
    (W7_of m ρ c main_arg8 (by decide)).trans <|
    (W6_of m ρ c main_arg8 (by decide)).trans <|
    (W5_of m ρ c main_arg8 (by decide)).trans <|
    (W4_of m ρ c main_arg8 (by decide)).trans <|
    (W3_of m ρ c main_arg8 (by decide)).trans <|
    (W2_of m ρ c main_arg8 (by decide)).trans <|
    (W1_of m ρ c main_arg8 (by decide)).trans <|
    rfl

private theorem agg_W3 (c : Dev nD) : (W3 m ρ c (Proc.devRef .tc main_v14) : Vec Ideal S100000x128 .f32) = gAgg m ρ c :=
  (W3_of m ρ c main_v14 (by decide)).trans <|
    (W2_of m ρ c main_v14 (by decide)).trans <|
    rfl

/-! ## The constants the stretches build -/

private theorem c1_W1 (c : Dev nD) : (W1 m ρ c (Proc.devRef .tc main_c_1) : IVec S_ 32) = constantI S_ 32 0#32 := c1_after (W0 m ρ c)
private theorem c2_W3 (c : Dev nD) : (W3 m ρ c (Proc.devRef .tc main_c_2) : IVec S_ 32) = constantI S_ 32 0#32 := c2_after (W2 m ρ c)
private theorem c3_W5 (c : Dev nD) : (W5 m ρ c (Proc.devRef .tc main_c_3) : IVec S_ 32) = constantI S_ 32 4294967295#32 := c3_after (W4 m ρ c)
private theorem c4_W7 (c : Dev nD) : (W7 m ρ c (Proc.devRef .tc main_c_4) : IVec S_ 32) = constantI S_ 32 1#32 := c4_after (W6 m ρ c)

/-- The padding value of the two float arrays: the integer zero converted is the float zero. -/
private theorem zero_pad_val : (sitofp .f32 (constantI S_ 32 0#32) : FVec Ideal S_ .f32) ix0 = 0 := sitofp_zero

/-! ## The first region's arrays as values over the launch contents -/

private theorem v15_W9 (c : Dev nD) :
    (W9 m ρ c (Proc.devRef .tc main_v15) : Vec Ideal S100352x128 .f32)
      = pad S100352x128 ![0, 0] ![352, 0] ![0, 0] (gX m c) (sitofp .f32 (constantI S_ 32 0#32) : FVec Ideal S_ .f32)
          pads_S100000x128_S100352x128_03520_000 h_S_ :=
  (W9_of m ρ c main_v15 (by decide)).trans <|
    (W8_of m ρ c main_v15 (by decide)).trans <|
    (W7_of m ρ c main_v15 (by decide)).trans <|
    (W6_of m ρ c main_v15 (by decide)).trans <|
    (W5_of m ρ c main_v15 (by decide)).trans <|
    (W4_of m ρ c main_v15 (by decide)).trans <|
    (W3_of m ρ c main_v15 (by decide)).trans <|
    (v15_after (W1 m ρ c)).trans (by rw [arg0_W1, c1_W1])

private theorem v16_W9 (c : Dev nD) :
    (W9 m ρ c (Proc.devRef .tc main_v16) : Vec Ideal S100352x128 .f32)
      = pad S100352x128 ![0, 0] ![352, 0] ![0, 0] (gAgg m ρ c) (sitofp .f32 (constantI S_ 32 0#32) : FVec Ideal S_ .f32)
          pads_S100000x128_S100352x128_03520_000 h_S_ :=
  (W9_of m ρ c main_v16 (by decide)).trans <|
    (W8_of m ρ c main_v16 (by decide)).trans <|
    (W7_of m ρ c main_v16 (by decide)).trans <|
    (W6_of m ρ c main_v16 (by decide)).trans <|
    (W5_of m ρ c main_v16 (by decide)).trans <|
    (v16_after (W3 m ρ c)).trans (by rw [agg_W3, c2_W3])

private theorem v17_W6 (c : Dev nD) :
    (W6 m ρ c (Proc.devRef .tc main_v17) : IVec S100352 32)
      = pad S100352 ![0] ![352] ![0] (gB m c) (constantI S_ 32 4294967295#32) pads_S100000_S100352_03520 h_S_ :=
  (v17_after (W5 m ρ c)).trans (by rw [arg3_W5, c3_W5])

private theorem v18_W9 (c : Dev nD) :
    (W9 m ρ c (Proc.devRef .tc main_v18) : IVec S1x100352 32)
      = shapeCast S1x100352 (pad S100352 ![0] ![352] ![0] (gB m c) (constantI S_ 32 4294967295#32) pads_S100000_S100352_03520 h_S_)
          shapeCasts_S100352_S1x100352 :=
  (W9_of m ρ c main_v18 (by decide)).trans <|
    (W8_of m ρ c main_v18 (by decide)).trans <|
    (v18_after (W6 m ρ c)).trans (by rw [v17_W6])

private theorem v19_W8 (c : Dev nD) :
    (W8 m ρ c (Proc.devRef .tc main_v19) : IVec S100352 32)
      = pad S100352 ![0] ![352] ![0] (gP m c) (constantI S_ 32 1#32) pads_S100000_S100352_03520 h_S_ :=
  (v19_after (W7 m ρ c)).trans (by rw [arg4_W7, c4_W7])

private theorem v20_W9 (c : Dev nD) :
    (W9 m ρ c (Proc.devRef .tc main_v20) : IVec S1x100352 32)
      = shapeCast S1x100352 (pad S100352 ![0] ![352] ![0] (gP m c) (constantI S_ 32 1#32) pads_S100000_S100352_03520 h_S_)
          shapeCasts_S100352_S1x100352 :=
  (v20_after (W8 m ρ c)).trans (by rw [v19_W8])

private theorem v21_W9 (c : Dev nD) :
    (W9 m ρ c (Proc.devRef .tc main_v21) : Vec Ideal S1x128 .f32) = shapeCast S1x128 (gB1 m c) shapeCasts_S128_S1x128 :=
  (v21_after (W8 m ρ c)).trans (by rw [arg6_W8])

private theorem v22_W9 (c : Dev nD) :
    (W9 m ρ c (Proc.devRef .tc main_v22) : Vec Ideal S1x128 .f32) = shapeCast S1x128 (gB2 m c) shapeCasts_S128_S1x128 :=
  (v22_after (W8 m ρ c)).trans (by rw [arg8_W8])

/-! ## The interface: the first region's arrays at an entry, and the result -/

/-- The padded features: the first 100000 rows are the input's, the rest are 0. -/
theorem pre_X (c : Dev nD) (r : Fin 100352) (j : Fin 128) :
    (V9 m ρ c (Pipeline.arrRef spec0 0) : Vec Ideal S100352x128 .f32) (ix2 r j)
      = if h : r.val < 100000 then gX m c (ix2 ⟨r.val, h⟩ j) else 0 := by
  show (W9 m ρ c (Proc.devRef .tc main_v15) : Vec Ideal S100352x128 .f32) (ix2 r j) = _
  rw [v15_W9, pad_rows_apply, zero_pad_val]

/-- The padded aggregate. -/
theorem pre_A (c : Dev nD) (r : Fin 100352) (j : Fin 128) :
    (V9 m ρ c (Pipeline.arrRef spec0 1) : Vec Ideal S100352x128 .f32) (ix2 r j)
      = if h : r.val < 100000 then gAgg m ρ c (ix2 ⟨r.val, h⟩ j) else 0 := by
  show (W9 m ρ c (Proc.devRef .tc main_v16) : Vec Ideal S100352x128 .f32) (ix2 r j) = _
  rw [v16_W9, pad_rows_apply, zero_pad_val]

/-- The padded label row: the labels, then -1. -/
theorem pre_Bt (c : Dev nD) (r : Fin 100352) :
    (V9 m ρ c (Pipeline.arrRef spec0 2) : Vec Ideal S1x100352 .i32) (ix2 0 r)
      = if h : r.val < 100000 then gB m c (ix1 ⟨r.val, h⟩) else 4294967295#32 := by
  show (W9 m ρ c (Proc.devRef .tc main_v18) : IVec S1x100352 32) (ix2 0 r) = _
  rw [v18_W9, shapeCast_a_1a_apply, pad_tail_apply]
  rfl

/-- The padded kind row: the kinds, then 1. -/
theorem pre_Pm (c : Dev nD) (r : Fin 100352) :
    (V9 m ρ c (Pipeline.arrRef spec0 3) : Vec Ideal S1x100352 .i32) (ix2 0 r)
      = if h : r.val < 100000 then gP m c (ix1 ⟨r.val, h⟩) else 1#32 := by
  show (W9 m ρ c (Proc.devRef .tc main_v20) : IVec S1x100352 32) (ix2 0 r) = _
  rw [v20_W9, shapeCast_a_1a_apply, pad_tail_apply]
  rfl

/-- The first layer's weights reach the region as launched. -/
theorem pre_W1 (c : Dev nD) : (V9 m ρ c (Pipeline.arrRef spec0 4) : Vec Ideal S128x128 .f32) = gW1 m c := by
  show (W9 m ρ c (Proc.devRef .tc main_arg5) : Vec Ideal S128x128 .f32) = _
  exact (W9_of m ρ c main_arg5 (by decide)).trans <|
    (W8_of m ρ c main_arg5 (by decide)).trans <|
    (W7_of m ρ c main_arg5 (by decide)).trans <|
    (W6_of m ρ c main_arg5 (by decide)).trans <|
    (W5_of m ρ c main_arg5 (by decide)).trans <|
    (W4_of m ρ c main_arg5 (by decide)).trans <|
    (W3_of m ρ c main_arg5 (by decide)).trans <|
    (W2_of m ρ c main_arg5 (by decide)).trans <|
    (W1_of m ρ c main_arg5 (by decide)).trans <|
    rfl

/-- The first layer's bias laid out as a row. -/
theorem pre_B1 (c : Dev nD) (k : Fin 128) :
    (V9 m ρ c (Pipeline.arrRef spec0 5) : Vec Ideal S1x128 .f32) (ix2 0 k) = gB1 m c (ix1 k) := by
  show (W9 m ρ c (Proc.devRef .tc main_v21) : Vec Ideal S1x128 .f32) (ix2 0 k) = _
  rw [v21_W9, shapeCast_a_1a_apply]

/-- The second layer's weights reach the region as launched. -/
theorem pre_W2 (c : Dev nD) : (V9 m ρ c (Pipeline.arrRef spec0 6) : Vec Ideal S128x128 .f32) = gW2 m c := by
  show (W9 m ρ c (Proc.devRef .tc main_arg7) : Vec Ideal S128x128 .f32) = _
  exact (W9_of m ρ c main_arg7 (by decide)).trans <|
    (W8_of m ρ c main_arg7 (by decide)).trans <|
    (W7_of m ρ c main_arg7 (by decide)).trans <|
    (W6_of m ρ c main_arg7 (by decide)).trans <|
    (W5_of m ρ c main_arg7 (by decide)).trans <|
    (W4_of m ρ c main_arg7 (by decide)).trans <|
    (W3_of m ρ c main_arg7 (by decide)).trans <|
    (W2_of m ρ c main_arg7 (by decide)).trans <|
    (W1_of m ρ c main_arg7 (by decide)).trans <|
    rfl

/-- The second layer's bias laid out as a row. -/
theorem pre_B2 (c : Dev nD) (k : Fin 128) :
    (V9 m ρ c (Pipeline.arrRef spec0 7) : Vec Ideal S1x128 .f32) (ix2 0 k) = gB2 m c (ix1 k) := by
  show (W9 m ρ c (Proc.devRef .tc main_v22) : Vec Ideal S1x128 .f32) (ix2 0 k) = _
  rw [v22_W9, shapeCast_a_1a_apply]

/-- The result: the first 100000 rows of what the second region leaves in its output array. -/
theorem post_out (c : Dev nD) (r : Fin 100000) (cc : Fin 256) :
    (W23 m ρ c (Proc.devRef .tc main_v70) : Vec Ideal S100000x256 .f32) (ix2 r cc)
      = ((dat1 (F := Ideal) (V21 m ρ) c).arrAt 4 cfg1.N : Vec Ideal S100352x256 .f32) (ix2 ⟨r.val, by omega⟩ cc) := by
  show (StableHlo.after hostOps2 (W22 m ρ c) (Proc.devRef .tc main_v70) : Vec Ideal S100000x256 .f32) (ix2 r cc) = _
  rw [v70_after]
  refine (extractStridedSlice_apply _ _ _ (ix2 r cc) (ix2 ⟨r.val, by omega⟩ cc) fun a => ?_).trans ?_
  · match a with
    | ⟨0, _⟩ => show r.val = 0 + r.val; omega
    | ⟨1, _⟩ => show cc.val = 0 + cc.val; omega
  · exact congrFun (W22_arr m ρ c 4) _

end Cert.KernelIdeal.HostK

end
-- ==== Proof.HostMidA.lean ====
/-
  Between the two regions, the sums: what the kernel's program makes of the first region's three output arrays.

  It keeps the first 100000 rows of the network output; it views the 12544 rows of partial pooled sums (and of
  partial counts) as 49 blocks of 256 and adds the blocks.
-/
import proofs.«411169_j26723286516090_2_alg».proof.Proof.Gen.KernelIdeal.Frame
import proofs.«411169_j26723286516090_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.HostS

open Cert.KernelIdeal Cert.KernelIdeal.Gen Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

/-- What the first region leaves in its three output arrays, each at its literal type. -/
abbrev hP (c : Dev nD) : Vec Ideal S100352x128 .f32 := (dat0 (F := Ideal) (V9 m ρ) c).arrAt 8 cfg0.N
abbrev csP (c : Dev nD) : Vec Ideal S12544x128 .f32 := (dat0 (F := Ideal) (V9 m ρ) c).arrAt 9 cfg0.N
abbrev ccP (c : Dev nD) : Vec Ideal S12544x1 .f32 := (dat0 (F := Ideal) (V9 m ρ) c).arrAt 10 cfg0.N

/-- The node features the rest of the program uses: the first 100000 rows of the network output. -/
abbrev kH (c : Dev nD) : Vec Ideal S100000x128 .f32 := W21 m ρ c (Proc.devRef .tc main_v35)
/-- The pooled sums and counts. -/
abbrev kCs (c : Dev nD) : Vec Ideal S256x128 .f32 := W21 m ρ c (Proc.devRef .tc main_v25)
abbrev kCc (c : Dev nD) : Vec Ideal S256x1 .f32 := W21 m ρ c (Proc.devRef .tc main_v27)
/-- The pooled means. -/
abbrev kPool (c : Dev nD) : Vec Ideal S256x128 .f32 := W21 m ρ c (Proc.devRef .tc main_v34)

/-- Closes "the buffer holds after the stretch what it held before": no operation of the stretch writes it. -/
local macro "stretch_keeps" : tactic => `(tactic|
  (refine StableHlo.after_of_forall_not_mem _ _ (List.forall_iff_forall_mem.mp ?_)
   simp only [hostOps1, hostOps1_1, hostOps1_2, hostOps1_3, hostOps1_4, hostOps1_5, hostOps1_6, hostOps1_7, hostOps1_8,
     hostOps1_9, hostOps1_10, List.flatten_cons, List.flatten_nil, List.append_nil, List.cons_append, List.nil_append,
     List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- A valuation's buffers of the three partial arrays and of the three results, each at its literal type. -/
abbrev bufH0 (W : Valuation τ sig (Elt Ideal)) : Vec Ideal S100352x128 .f32 := W (Proc.devRef .tc main_v23_0)
abbrev bufCs0 (W : Valuation τ sig (Elt Ideal)) : Vec Ideal S12544x128 .f32 := W (Proc.devRef .tc main_v23_1)
abbrev bufCc0 (W : Valuation τ sig (Elt Ideal)) : Vec Ideal S12544x1 .f32 := W (Proc.devRef .tc main_v23_2)
abbrev bufH (W : Valuation τ sig (Elt Ideal)) : Vec Ideal S100000x128 .f32 := W (Proc.devRef .tc main_v35)
abbrev bufCs (W : Valuation τ sig (Elt Ideal)) : Vec Ideal S256x128 .f32 := W (Proc.devRef .tc main_v25)
abbrev bufCc (W : Valuation τ sig (Elt Ideal)) : Vec Ideal S256x1 .f32 := W (Proc.devRef .tc main_v27)

/-! ## What no later stretch writes -/

/-- From its making to the second region's entry nothing writes main_v25. -/
theorem carry_main_v25 (c : Dev nD) :
    W21 (F := Ideal) m ρ c (Proc.devRef .tc main_v25) = W11 (F := Ideal) m ρ c (Proc.devRef .tc main_v25) :=
  calc W21 (F := Ideal) m ρ c (Proc.devRef .tc main_v25)
    _ = W20 (F := Ideal) m ρ c (Proc.devRef .tc main_v25) := by stretch_keeps
    _ = W19 (F := Ideal) m ρ c (Proc.devRef .tc main_v25) := by stretch_keeps
    _ = W18 (F := Ideal) m ρ c (Proc.devRef .tc main_v25) := by stretch_keeps
    _ = W17 (F := Ideal) m ρ c (Proc.devRef .tc main_v25) := by stretch_keeps
    _ = W16 (F := Ideal) m ρ c (Proc.devRef .tc main_v25) := by stretch_keeps
    _ = W15 (F := Ideal) m ρ c (Proc.devRef .tc main_v25) := by stretch_keeps
    _ = W14 (F := Ideal) m ρ c (Proc.devRef .tc main_v25) := by stretch_keeps
    _ = W13 (F := Ideal) m ρ c (Proc.devRef .tc main_v25) := by stretch_keeps
    _ = W12 (F := Ideal) m ρ c (Proc.devRef .tc main_v25) := by stretch_keeps
    _ = W11 (F := Ideal) m ρ c (Proc.devRef .tc main_v25) := by stretch_keeps

/-- From its making to the second region's entry nothing writes main_v27. -/
theorem carry_main_v27 (c : Dev nD) :
    W21 (F := Ideal) m ρ c (Proc.devRef .tc main_v27) = W11 (F := Ideal) m ρ c (Proc.devRef .tc main_v27) :=
  calc W21 (F := Ideal) m ρ c (Proc.devRef .tc main_v27)
    _ = W20 (F := Ideal) m ρ c (Proc.devRef .tc main_v27) := by stretch_keeps
    _ = W19 (F := Ideal) m ρ c (Proc.devRef .tc main_v27) := by stretch_keeps
    _ = W18 (F := Ideal) m ρ c (Proc.devRef .tc main_v27) := by stretch_keeps
    _ = W17 (F := Ideal) m ρ c (Proc.devRef .tc main_v27) := by stretch_keeps
    _ = W16 (F := Ideal) m ρ c (Proc.devRef .tc main_v27) := by stretch_keeps
    _ = W15 (F := Ideal) m ρ c (Proc.devRef .tc main_v27) := by stretch_keeps
    _ = W14 (F := Ideal) m ρ c (Proc.devRef .tc main_v27) := by stretch_keeps
    _ = W13 (F := Ideal) m ρ c (Proc.devRef .tc main_v27) := by stretch_keeps
    _ = W12 (F := Ideal) m ρ c (Proc.devRef .tc main_v27) := by stretch_keeps
    _ = W11 (F := Ideal) m ρ c (Proc.devRef .tc main_v27) := by stretch_keeps

/-- From its making to the second region's entry nothing writes main_v35. -/
theorem carry_main_v35 (c : Dev nD) :
    W21 (F := Ideal) m ρ c (Proc.devRef .tc main_v35) = W13 (F := Ideal) m ρ c (Proc.devRef .tc main_v35) :=
  calc W21 (F := Ideal) m ρ c (Proc.devRef .tc main_v35)
    _ = W20 (F := Ideal) m ρ c (Proc.devRef .tc main_v35) := by stretch_keeps
    _ = W19 (F := Ideal) m ρ c (Proc.devRef .tc main_v35) := by stretch_keeps
    _ = W18 (F := Ideal) m ρ c (Proc.devRef .tc main_v35) := by stretch_keeps
    _ = W17 (F := Ideal) m ρ c (Proc.devRef .tc main_v35) := by stretch_keeps
    _ = W16 (F := Ideal) m ρ c (Proc.devRef .tc main_v35) := by stretch_keeps
    _ = W15 (F := Ideal) m ρ c (Proc.devRef .tc main_v35) := by stretch_keeps
    _ = W14 (F := Ideal) m ρ c (Proc.devRef .tc main_v35) := by stretch_keeps
    _ = W13 (F := Ideal) m ρ c (Proc.devRef .tc main_v35) := by stretch_keeps

/-- The first two stretches after the first region do not write the network output's array. -/
theorem keep_main_v23_0 (c : Dev nD) :
    W12 (F := Ideal) m ρ c (Proc.devRef .tc main_v23_0) = W10 (F := Ideal) m ρ c (Proc.devRef .tc main_v23_0) :=
  calc W12 (F := Ideal) m ρ c (Proc.devRef .tc main_v23_0)
    _ = W11 (F := Ideal) m ρ c (Proc.devRef .tc main_v23_0) := by stretch_keeps
    _ = W10 (F := Ideal) m ρ c (Proc.devRef .tc main_v23_0) := by stretch_keeps

/-! ## The stretches that make the three results, over any contents before them -/

/-- The first stretch after the first region: the pooled sums are the 49 blocks of 256 rows of the partial sums, added. -/
theorem ops1_cs (W : Valuation τ sig (Elt Ideal)) (g : Fin 256) (d : Fin 128) :
    bufCs (StableHlo.after hostOps1 W) (ix2 g d) = ∑ t : Fin 49, bufCs0 W (ix2 (Cert.Spec.blockRow t g) d) := by
  have e : bufCs (StableHlo.after hostOps1 W)
      = Host.reduceAdd (F := Ideal) (shapeCast S49x256x128 (bufCs0 W) shapeCasts_S12544x128_S49x256x128)
          (constant (F := Ideal) S_ .f32 0x00000000#32) reducesTo_S49x256x128_S256x128_d0 h_S_ := by
    show StableHlo.after hostOps1 W (Proc.devRef .tc main_v25) = _
    after_results; rfl
  rw [e]
  generalize bufCs0 W = X
  unfold Host.reduceAdd
  rw [Ideal.hostReduceAdd_def, Ideal.hostReduceAdd_single _ (by decide : S49x256x128.Reduces [0] S256x128),
    constant_apply, Ideal.ofBits_zero_f32, zero_add]
  show ∑ t : Fin 49, _ = _
  refine Finset.sum_congr rfl fun t _ => ?_
  refine shapeCast_apply X _ _ (ix2 (Cert.Spec.blockRow t g) d) ?_
  rw [Shape.rowMajor_val_two, Shape.rowMajor_val_three]
  rfl

/-- The same stretch: the counts are the 49 blocks of 256 rows of the partial counts, added. -/
theorem ops1_cc (W : Valuation τ sig (Elt Ideal)) (g : Fin 256) :
    bufCc (StableHlo.after hostOps1 W) (ix2 g 0) = ∑ t : Fin 49, bufCc0 W (ix2 (Cert.Spec.blockRow t g) 0) := by
  have e : bufCc (StableHlo.after hostOps1 W)
      = Host.reduceAdd (F := Ideal) (shapeCast S49x256x1 (bufCc0 W) shapeCasts_S12544x1_S49x256x1)
          (constant (F := Ideal) S_ .f32 0x00000000#32) reducesTo_S49x256x1_S256x1_d0 h_S_ := by
    show StableHlo.after hostOps1 W (Proc.devRef .tc main_v27) = _
    after_results; rfl
  rw [e]
  generalize bufCc0 W = X
  unfold Host.reduceAdd
  rw [Ideal.hostReduceAdd_def, Ideal.hostReduceAdd_single _ (by decide : S49x256x1.Reduces [0] S256x1),
    constant_apply, Ideal.ofBits_zero_f32, zero_add]
  show ∑ t : Fin 49, _ = _
  refine Finset.sum_congr rfl fun t _ => ?_
  refine shapeCast_apply X _ _ (ix2 (Cert.Spec.blockRow t g) 0) ?_
  rw [Shape.rowMajor_val_two, Shape.rowMajor_val_three]
  rfl

/-- The third stretch: the kept node features are the first 100000 rows of the network output. -/
theorem ops12_h (W : Valuation τ sig (Elt Ideal)) (r : Fin 100000) (d : Fin 128) :
    bufH (StableHlo.after hostOps1_2 W) (ix2 r d) = bufH0 W (ix2 ⟨r.val, by omega⟩ d) := by
  have e : bufH (StableHlo.after hostOps1_2 W)
      = extractStridedSlice S100000x128 ![0, 0] (bufH0 W) slices_S100352x128_S100000x128_0_0 := by
    show StableHlo.after hostOps1_2 W (Proc.devRef .tc main_v35) = _
    after_results
  rw [e]
  exact extractStridedSlice_apply ![0, 0] (bufH0 W) _ (ix2 r d) (ix2 ⟨r.val, by omega⟩ d) (fun a => match a with
    | ⟨0, _⟩ => by show r.val = 0 + r.val; omega
    | ⟨1, _⟩ => by show d.val = 0 + d.val; omega)

/-! ## The three results in terms of what the first region leaves -/

/-- The kept rows of the network output. -/
theorem mid_h (c : Dev nD) (r : Fin 100000) (d : Fin 128) :
    kH m ρ c (ix2 r d) = hP m ρ c (ix2 ⟨r.val, by omega⟩ d) := by
  have h1 : kH m ρ c = bufH (W13 (F := Ideal) m ρ c) := carry_main_v35 m ρ c
  have h2 : bufH0 (W12 (F := Ideal) m ρ c) = hP m ρ c := (keep_main_v23_0 m ρ c).trans (W10_arr m ρ c 8)
  rw [h1, ← h2]
  exact ops12_h (W12 (F := Ideal) m ρ c) r d

/-- The pooled sum of graph g: the 49 tiles' shares added. -/
theorem mid_cs (c : Dev nD) (g : Fin 256) (d : Fin 128) :
    kCs m ρ c (ix2 g d) = ∑ t : Fin 49, csP m ρ c (ix2 (Cert.Spec.blockRow t g) d) := by
  have h1 : kCs m ρ c = bufCs (W11 (F := Ideal) m ρ c) := carry_main_v25 m ρ c
  have h2 : bufCs0 (W10 (F := Ideal) m ρ c) = csP m ρ c := W10_arr m ρ c 9
  rw [h1, ← h2]
  exact ops1_cs (W10 (F := Ideal) m ρ c) g d

/-- The count of graph g: the 49 tiles' shares added. -/
theorem mid_cc (c : Dev nD) (g : Fin 256) :
    kCc m ρ c (ix2 g 0) = ∑ t : Fin 49, ccP m ρ c (ix2 (Cert.Spec.blockRow t g) 0) := by
  have h1 : kCc m ρ c = bufCc (W11 (F := Ideal) m ρ c) := carry_main_v27 m ρ c
  have h2 : bufCc0 (W10 (F := Ideal) m ρ c) = ccP m ρ c := W10_arr m ρ c 10
  rw [h1, ← h2]
  exact ops1_cc (W10 (F := Ideal) m ρ c) g

end Cert.KernelIdeal.HostS

end
-- ==== Proof.RefShared.lean ====
/-
  The reference's three stages that depend on earlier float results, each named once as a function of those results.

  * the pooled sums as a function of the node features h: scatter-add, by graph label, of h times the 0/1 column
    "kind is 0", into a zero table of 256 rows;
  * the pooled means as a function of the sums cs and the counts cc: where the count is positive the sum divided by
    max (count, 1), elsewhere 0;
  * the assembled result as a function of h and the pooled table: rows of h taken in the sorted order beside the
    pooled row of each node's graph, kept where the node's kind is 1 and 0 elsewhere.
  The labels and kinds enter only through stages that are already functions of those two integer inputs alone.
-/
import proofs.«411169_j26723286516090_2_alg».proof.Proof.RefRead

noncomputable section

namespace Cert.ReferenceIdeal.Shared

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The pooled sums from the node features. -/
def csumR (h : (⟨S100000x128, .f32⟩ : BufTy).Contents (Elt F)) (x3 x4 : (⟨S100000, .i32⟩ : BufTy).Contents (Elt F)) : (⟨S256x128, .f32⟩ : BufTy).Contents (Elt F) :=
  Host.scatterAdd scatter_S256x128_S100000x1_S100000x128_1_0_0_1 (val_main_v31 (F := F)) (val_main_v32 (F := F) x3) (mulf h (val_main_v29 (F := F) x4))

/-- The pooled means from the sums and the counts. -/
def poolR (cs : (⟨S256x128, .f32⟩ : BufTy).Contents (Elt F)) (cc : (⟨S256x1, .f32⟩ : BufTy).Contents (Elt F)) : (⟨S256x128, .f32⟩ : BufTy).Contents (Elt F) :=
  select (broadcastInDim S256x128 ![0, 1] bcast_S256x1_S256x128_0_1 (cmpf (F := F) .ogt cc (val_main_v37 (F := F))))
    (Host.divf cs (broadcastInDim S256x128 ![0, 1] bcast_S256x1_S256x128_0_1 (maximumf cc (val_main_v39 (F := F)))))
    (val_main_call1_v2 (F := F))

/-- The assembled result from the node features and the pooled table. -/
def finalR (h : (⟨S100000x128, .f32⟩ : BufTy).Contents (Elt F)) (pool : (⟨S256x128, .f32⟩ : BufTy).Contents (Elt F)) (x3 x4 : (⟨S100000, .i32⟩ : BufTy).Contents (Elt F)) : (⟨S100000x256, .f32⟩ : BufTy).Contents (Elt F) :=
  select (val_main_call3_v1 (F := F) x3 x4)
    (concatenate S100000x256 1 [⟨S100000x128, (Host.gather gather_S100000x128_S100000x1_S100000x128_1_0_n_n_0_1_1128 h (val_main_v54 (F := F) x3 x4))⟩, ⟨S100000x128, (Host.gather gather_S256x128_S100000x1_S100000x128_1_0_n_n_0_1_1128 pool (val_main_v68 (F := F) x3 x4))⟩] concatenates_S100000x128_S100000x128_S100000x256_d1)
    (val_main_call3_v2 (F := F))

/-- The reference's pooled sums are `csumR` of its node features. -/
theorem val_main_v33_eq (x0 : (⟨S100000x128, .f32⟩ : BufTy).Contents (Elt F)) (x1 : (⟨S2x1600000, .i32⟩ : BufTy).Contents (Elt F)) (x2 : (⟨S1600000x128, .f32⟩ : BufTy).Contents (Elt F)) (x3 x4 : (⟨S100000, .i32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) :
    val_main_v33 (F := F) x0 x1 x2 x3 x4 x5 x6 x7 x8 = csumR (val_main_v24 (F := F) x0 x1 x2 x5 x6 x7 x8) x3 x4 := rfl

/-- The reference's pooled means are `poolR` of its sums and counts. -/
theorem val_main_v43_eq (x0 : (⟨S100000x128, .f32⟩ : BufTy).Contents (Elt F)) (x1 : (⟨S2x1600000, .i32⟩ : BufTy).Contents (Elt F)) (x2 : (⟨S1600000x128, .f32⟩ : BufTy).Contents (Elt F)) (x3 x4 : (⟨S100000, .i32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) :
    val_main_v43 (F := F) x0 x1 x2 x3 x4 x5 x6 x7 x8 = poolR (val_main_v33 (F := F) x0 x1 x2 x3 x4 x5 x6 x7 x8) (val_main_v36 (F := F) x3 x4) := rfl

/-- The reference's result is `finalR` of its node features and pooled means. -/
theorem val_main_v81_eq' (x0 : (⟨S100000x128, .f32⟩ : BufTy).Contents (Elt F)) (x1 : (⟨S2x1600000, .i32⟩ : BufTy).Contents (Elt F)) (x2 : (⟨S1600000x128, .f32⟩ : BufTy).Contents (Elt F)) (x3 x4 : (⟨S100000, .i32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) :
    val_main_v81 (F := F) x0 x1 x2 x3 x4 x5 x6 x7 x8 = finalR (val_main_v24 (F := F) x0 x1 x2 x5 x6 x7 x8) (val_main_v43 (F := F) x0 x1 x2 x3 x4 x5 x6 x7 x8) x3 x4 := rfl

end Cert.ReferenceIdeal.Shared

end
-- ==== Proof.HostMidC.lean ====
/-
  Between the two regions, what the kernel's program shares with the reference.  The aggregate before the first
  region is the reference's aggregate of the same inputs; the pooled means are the reference's function of sums and
  counts; the sort key (twice the label plus "kind is 0"), the sorted order and the reordered labels and kinds depend
  on the two integer inputs alone and are the reference's own stages; the reordered features are the reference's row
  gather, in that order, of the kernel's node features.  Each is the same operations on both sides.
-/
import proofs.«411169_j26723286516090_2_alg».proof.Proof.Gen.KernelIdeal.Frame
import proofs.«411169_j26723286516090_2_alg».proof.Proof.RefShared
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.HostC

open Cert.KernelIdeal Cert.KernelIdeal.Gen Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

/-- The launch contents of the nine arguments, each at its literal type. -/
abbrev gX (c : Dev nD) : Vec Ideal S100000x128 .f32 := m ((c.tc : Thread nD τ).loc main_arg0)
abbrev gEI (c : Dev nD) : Vec Ideal S2x1600000 .i32 := m ((c.tc : Thread nD τ).loc main_arg1)
abbrev gEA (c : Dev nD) : Vec Ideal S1600000x128 .f32 := m ((c.tc : Thread nD τ).loc main_arg2)
abbrev gB (c : Dev nD) : Vec Ideal S100000 .i32 := m ((c.tc : Thread nD τ).loc main_arg3)
abbrev gP (c : Dev nD) : Vec Ideal S100000 .i32 := m ((c.tc : Thread nD τ).loc main_arg4)
abbrev gW1 (c : Dev nD) : Vec Ideal S128x128 .f32 := m ((c.tc : Thread nD τ).loc main_arg5)
abbrev gB1 (c : Dev nD) : Vec Ideal S128 .f32 := m ((c.tc : Thread nD τ).loc main_arg6)
abbrev gW2 (c : Dev nD) : Vec Ideal S128x128 .f32 := m ((c.tc : Thread nD τ).loc main_arg7)
abbrev gB2 (c : Dev nD) : Vec Ideal S128 .f32 := m ((c.tc : Thread nD τ).loc main_arg8)

/-- The values between the regions, each at its literal type. -/
abbrev kH (c : Dev nD) : Vec Ideal S100000x128 .f32 := W21 m ρ c (Proc.devRef .tc main_v35)
abbrev kCs (c : Dev nD) : Vec Ideal S256x128 .f32 := W21 m ρ c (Proc.devRef .tc main_v25)
abbrev kCc (c : Dev nD) : Vec Ideal S256x1 .f32 := W21 m ρ c (Proc.devRef .tc main_v27)
abbrev kPool (c : Dev nD) : Vec Ideal S256x128 .f32 := W21 m ρ c (Proc.devRef .tc main_v34)
abbrev kHo (c : Dev nD) : Vec Ideal S100000x128 .f32 := W21 m ρ c (Proc.devRef .tc main_v49)
abbrev kBo (c : Dev nD) : Vec Ideal S100000 .i32 := W21 m ρ c (Proc.devRef .tc main_v56)
abbrev kPo (c : Dev nD) : Vec Ideal S100000 .i32 := W21 m ρ c (Proc.devRef .tc main_v63)

/-! # Auxiliary lemmas -/

/-- A buffer that none of a stretch's operations writes holds after the stretch what it held before. -/
local macro "keeps " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section AnyField

variable {F : FTy → Type} [FloatOps F]

/-! ## One stretch of host operations at a time, over any contents `V` before it

Each stretch's result buffer, read back as its operations' term over the buffers the stretch finds, is the
reference's stage of the same name applied to those buffers: the two programs spell the same operations. -/

/-- The aggregate: the scatter-add, by target node, of the gathered source features plus the edge features. -/
private theorem stretch_agg (V : Valuation τ sig (Elt F)) :
    StableHlo.after hostOps0 V (Proc.devRef .tc main_v14)
      = Cert.ReferenceIdeal.ReadP.val_main_v14 (F := F) (V (Proc.devRef .tc main_arg0)) (V (Proc.devRef .tc main_arg1))
          (V (Proc.devRef .tc main_arg2)) := by
  after_results_simp
  rfl

/-- The pooled means after the two stretches that follow the first region, from the sums and the counts that the
    first of the two leaves: where the count is positive the sum over max (count, 1), elsewhere 0. -/
private theorem stretch_pool (V : Valuation τ sig (Elt F)) :
    StableHlo.after hostOps1_1 (StableHlo.after hostOps1 V) (Proc.devRef .tc main_v34)
      = Cert.ReferenceIdeal.Shared.poolR (F := F) (StableHlo.after hostOps1 V (Proc.devRef .tc main_v25))
          (StableHlo.after hostOps1 V (Proc.devRef .tc main_v27)) := by
  after_results_simp
  rfl

/-- The sort key: twice the label plus "kind is 0". -/
private theorem stretch_key (V : Valuation τ sig (Elt F)) :
    StableHlo.after hostOps1_2 V (Proc.devRef .tc main_v41)
      = Cert.ReferenceIdeal.ReadP.val_main_v47 (F := F) (V (Proc.devRef .tc main_arg3)) (V (Proc.devRef .tc main_arg4)) := by
  after_results_simp
  rfl

/-- The sorted order: the positions, carried through the stable sort of the key. -/
private theorem stretch_order (V : Valuation τ sig (Elt F)) :
    StableHlo.after hostOps1_3 V (Proc.devRef .tc main_v42)
      = (Host.sort2 Cert.ReferenceIdeal.S100000 0 Cert.ReferenceIdeal.comparator_i32_i32_d0 (V (Proc.devRef .tc main_v41))
          (Cert.ReferenceIdeal.ReadP.val_main_call2_v0 (F := F))).2 := by
  after_results_simp
  rfl

/-- The reordered labels: the labels gathered at the order, a negative entry wrapped by the length. -/
private theorem stretch_labels (V : Valuation τ sig (Elt F)) :
    StableHlo.after hostOps1_4 V (Proc.devRef .tc main_v56)
      = Host.gather Cert.ReferenceIdeal.gather_S100000_S100000x1_S100000_n_0_n_n_0_1_1 (V (Proc.devRef .tc main_arg3))
          (broadcastInDim Cert.ReferenceIdeal.S100000x1 ![0] Cert.ReferenceIdeal.Facts₀.bcast_S100000_S100000x1_0
            (select (cmpi .slt (V (Proc.devRef .tc main_v42)) (Cert.ReferenceIdeal.ReadP.val_main_v56 (F := F)))
              (addi (V (Proc.devRef .tc main_v42)) (Cert.ReferenceIdeal.ReadP.val_main_v58 (F := F)))
              (V (Proc.devRef .tc main_v42)))) := by
  after_results_simp
  rfl

/-- The reordered kinds: the kinds gathered at the order, a negative entry wrapped by the length. -/
private theorem stretch_kinds (V : Valuation τ sig (Elt F)) :
    StableHlo.after hostOps1_4 V (Proc.devRef .tc main_v63)
      = Host.gather Cert.ReferenceIdeal.gather_S100000_S100000x1_S100000_n_0_n_n_0_1_1 (V (Proc.devRef .tc main_arg4))
          (broadcastInDim Cert.ReferenceIdeal.S100000x1 ![0] Cert.ReferenceIdeal.Facts₀.bcast_S100000_S100000x1_0
            (select (cmpi .slt (V (Proc.devRef .tc main_v42)) (Cert.ReferenceIdeal.ReadP.val_main_v70 (F := F)))
              (addi (V (Proc.devRef .tc main_v42)) (Cert.ReferenceIdeal.ReadP.val_main_v72 (F := F)))
              (V (Proc.devRef .tc main_v42)))) := by
  after_results_simp
  rfl

/-- The reordered features: the node features' rows gathered at the order, a negative entry wrapped by the length. -/
private theorem stretch_feats (V : Valuation τ sig (Elt F)) :
    StableHlo.after hostOps1_4 V (Proc.devRef .tc main_v49)
      = Host.gather Cert.ReferenceIdeal.gather_S100000x128_S100000x1_S100000x128_1_0_n_n_0_1_1128 (V (Proc.devRef .tc main_v35))
          (broadcastInDim Cert.ReferenceIdeal.S100000x1 ![0] Cert.ReferenceIdeal.Facts₀.bcast_S100000_S100000x1_0
            (select (cmpi .slt (V (Proc.devRef .tc main_v42)) (Cert.ReferenceIdeal.ReadP.val_main_v49 (F := F)))
              (addi (V (Proc.devRef .tc main_v42)) (Cert.ReferenceIdeal.ReadP.val_main_v51 (F := F)))
              (V (Proc.devRef .tc main_v42)))) := by
  after_results_simp
  rfl

variable (w : (ℓ : Loc nD τ sig) → Buf (Elt F) ℓ) (r : Dev nD → PrngReg)

/-! ## Buffers no operation writes in between hold what they held -/

/-- The labels, up to the stretch that forms the sort key, are the launch contents. -/
private theorem labels_W12 (c : Dev nD) :
    W12 w r c (Proc.devRef .tc main_arg3) = w ((c.tc : Thread nD τ).loc main_arg3) :=
  calc W12 w r c (Proc.devRef .tc main_arg3)
    _ = W11 w r c (Proc.devRef .tc main_arg3) := keeps hostOps1_1
    _ = W10 w r c (Proc.devRef .tc main_arg3) := keeps hostOps1
    _ = W9 w r c (Proc.devRef .tc main_arg3) := W10_of_ne w r c main_arg3 (by decide)
    _ = W8 w r c (Proc.devRef .tc main_arg3) := keeps hostOps0_8
    _ = W7 w r c (Proc.devRef .tc main_arg3) := keeps hostOps0_7
    _ = W6 w r c (Proc.devRef .tc main_arg3) := keeps hostOps0_6
    _ = W5 w r c (Proc.devRef .tc main_arg3) := keeps hostOps0_5
    _ = W4 w r c (Proc.devRef .tc main_arg3) := keeps hostOps0_4
    _ = W3 w r c (Proc.devRef .tc main_arg3) := keeps hostOps0_3
    _ = W2 w r c (Proc.devRef .tc main_arg3) := keeps hostOps0_2
    _ = W1 w r c (Proc.devRef .tc main_arg3) := keeps hostOps0_1
    _ = W0 w r c (Proc.devRef .tc main_arg3) := keeps hostOps0
    _ = w ((c.tc : Thread nD τ).loc main_arg3) := rfl

/-- The kinds, up to the stretch that forms the sort key, are the launch contents. -/
private theorem kinds_W12 (c : Dev nD) :
    W12 w r c (Proc.devRef .tc main_arg4) = w ((c.tc : Thread nD τ).loc main_arg4) :=
  calc W12 w r c (Proc.devRef .tc main_arg4)
    _ = W11 w r c (Proc.devRef .tc main_arg4) := keeps hostOps1_1
    _ = W10 w r c (Proc.devRef .tc main_arg4) := keeps hostOps1
    _ = W9 w r c (Proc.devRef .tc main_arg4) := W10_of_ne w r c main_arg4 (by decide)
    _ = W8 w r c (Proc.devRef .tc main_arg4) := keeps hostOps0_8
    _ = W7 w r c (Proc.devRef .tc main_arg4) := keeps hostOps0_7
    _ = W6 w r c (Proc.devRef .tc main_arg4) := keeps hostOps0_6
    _ = W5 w r c (Proc.devRef .tc main_arg4) := keeps hostOps0_5
    _ = W4 w r c (Proc.devRef .tc main_arg4) := keeps hostOps0_4
    _ = W3 w r c (Proc.devRef .tc main_arg4) := keeps hostOps0_3
    _ = W2 w r c (Proc.devRef .tc main_arg4) := keeps hostOps0_2
    _ = W1 w r c (Proc.devRef .tc main_arg4) := keeps hostOps0_1
    _ = W0 w r c (Proc.devRef .tc main_arg4) := keeps hostOps0
    _ = w ((c.tc : Thread nD τ).loc main_arg4) := rfl

/-- The labels where the reordering gathers them. -/
private theorem labels_W14 (c : Dev nD) :
    W14 w r c (Proc.devRef .tc main_arg3) = w ((c.tc : Thread nD τ).loc main_arg3) :=
  calc W14 w r c (Proc.devRef .tc main_arg3)
    _ = W13 w r c (Proc.devRef .tc main_arg3) := keeps hostOps1_3
    _ = W12 w r c (Proc.devRef .tc main_arg3) := keeps hostOps1_2
    _ = w ((c.tc : Thread nD τ).loc main_arg3) := labels_W12 w r c

/-- The kinds where the reordering gathers them. -/
private theorem kinds_W14 (c : Dev nD) :
    W14 w r c (Proc.devRef .tc main_arg4) = w ((c.tc : Thread nD τ).loc main_arg4) :=
  calc W14 w r c (Proc.devRef .tc main_arg4)
    _ = W13 w r c (Proc.devRef .tc main_arg4) := keeps hostOps1_3
    _ = W12 w r c (Proc.devRef .tc main_arg4) := keeps hostOps1_2
    _ = w ((c.tc : Thread nD τ).loc main_arg4) := kinds_W12 w r c

/-- The pooled means are not written after the stretch that forms them. -/
private theorem keep_pool (c : Dev nD) :
    W21 w r c (Proc.devRef .tc main_v34) = W12 w r c (Proc.devRef .tc main_v34) :=
  calc W21 w r c (Proc.devRef .tc main_v34)
    _ = W20 w r c (Proc.devRef .tc main_v34) := keeps hostOps1_10
    _ = W19 w r c (Proc.devRef .tc main_v34) := keeps hostOps1_9
    _ = W18 w r c (Proc.devRef .tc main_v34) := keeps hostOps1_8
    _ = W17 w r c (Proc.devRef .tc main_v34) := keeps hostOps1_7
    _ = W16 w r c (Proc.devRef .tc main_v34) := keeps hostOps1_6
    _ = W15 w r c (Proc.devRef .tc main_v34) := keeps hostOps1_5
    _ = W14 w r c (Proc.devRef .tc main_v34) := keeps hostOps1_4
    _ = W13 w r c (Proc.devRef .tc main_v34) := keeps hostOps1_3
    _ = W12 w r c (Proc.devRef .tc main_v34) := keeps hostOps1_2

/-- The pooled sums are not written after the stretch that forms them. -/
private theorem keep_sums (c : Dev nD) :
    W21 w r c (Proc.devRef .tc main_v25) = W11 w r c (Proc.devRef .tc main_v25) :=
  calc W21 w r c (Proc.devRef .tc main_v25)
    _ = W20 w r c (Proc.devRef .tc main_v25) := keeps hostOps1_10
    _ = W19 w r c (Proc.devRef .tc main_v25) := keeps hostOps1_9
    _ = W18 w r c (Proc.devRef .tc main_v25) := keeps hostOps1_8
    _ = W17 w r c (Proc.devRef .tc main_v25) := keeps hostOps1_7
    _ = W16 w r c (Proc.devRef .tc main_v25) := keeps hostOps1_6
    _ = W15 w r c (Proc.devRef .tc main_v25) := keeps hostOps1_5
    _ = W14 w r c (Proc.devRef .tc main_v25) := keeps hostOps1_4
    _ = W13 w r c (Proc.devRef .tc main_v25) := keeps hostOps1_3
    _ = W12 w r c (Proc.devRef .tc main_v25) := keeps hostOps1_2
    _ = W11 w r c (Proc.devRef .tc main_v25) := keeps hostOps1_1

/-- The counts are not written after the stretch that forms them. -/
private theorem keep_counts (c : Dev nD) :
    W21 w r c (Proc.devRef .tc main_v27) = W11 w r c (Proc.devRef .tc main_v27) :=
  calc W21 w r c (Proc.devRef .tc main_v27)
    _ = W20 w r c (Proc.devRef .tc main_v27) := keeps hostOps1_10
    _ = W19 w r c (Proc.devRef .tc main_v27) := keeps hostOps1_9
    _ = W18 w r c (Proc.devRef .tc main_v27) := keeps hostOps1_8
    _ = W17 w r c (Proc.devRef .tc main_v27) := keeps hostOps1_7
    _ = W16 w r c (Proc.devRef .tc main_v27) := keeps hostOps1_6
    _ = W15 w r c (Proc.devRef .tc main_v27) := keeps hostOps1_5
    _ = W14 w r c (Proc.devRef .tc main_v27) := keeps hostOps1_4
    _ = W13 w r c (Proc.devRef .tc main_v27) := keeps hostOps1_3
    _ = W12 w r c (Proc.devRef .tc main_v27) := keeps hostOps1_2
    _ = W11 w r c (Proc.devRef .tc main_v27) := keeps hostOps1_1

/-- The reordered labels are not written after the stretch that forms them. -/
private theorem keep_labels (c : Dev nD) :
    W21 w r c (Proc.devRef .tc main_v56) = W15 w r c (Proc.devRef .tc main_v56) :=
  calc W21 w r c (Proc.devRef .tc main_v56)
    _ = W20 w r c (Proc.devRef .tc main_v56) := keeps hostOps1_10
    _ = W19 w r c (Proc.devRef .tc main_v56) := keeps hostOps1_9
    _ = W18 w r c (Proc.devRef .tc main_v56) := keeps hostOps1_8
    _ = W17 w r c (Proc.devRef .tc main_v56) := keeps hostOps1_7
    _ = W16 w r c (Proc.devRef .tc main_v56) := keeps hostOps1_6
    _ = W15 w r c (Proc.devRef .tc main_v56) := keeps hostOps1_5

/-- The reordered kinds are not written after the stretch that forms them. -/
private theorem keep_kinds (c : Dev nD) :
    W21 w r c (Proc.devRef .tc main_v63) = W15 w r c (Proc.devRef .tc main_v63) :=
  calc W21 w r c (Proc.devRef .tc main_v63)
    _ = W20 w r c (Proc.devRef .tc main_v63) := keeps hostOps1_10
    _ = W19 w r c (Proc.devRef .tc main_v63) := keeps hostOps1_9
    _ = W18 w r c (Proc.devRef .tc main_v63) := keeps hostOps1_8
    _ = W17 w r c (Proc.devRef .tc main_v63) := keeps hostOps1_7
    _ = W16 w r c (Proc.devRef .tc main_v63) := keeps hostOps1_6
    _ = W15 w r c (Proc.devRef .tc main_v63) := keeps hostOps1_5

/-- The reordered features are not written after the stretch that forms them. -/
private theorem keep_feats (c : Dev nD) :
    W21 w r c (Proc.devRef .tc main_v49) = W15 w r c (Proc.devRef .tc main_v49) :=
  calc W21 w r c (Proc.devRef .tc main_v49)
    _ = W20 w r c (Proc.devRef .tc main_v49) := keeps hostOps1_10
    _ = W19 w r c (Proc.devRef .tc main_v49) := keeps hostOps1_9
    _ = W18 w r c (Proc.devRef .tc main_v49) := keeps hostOps1_8
    _ = W17 w r c (Proc.devRef .tc main_v49) := keeps hostOps1_7
    _ = W16 w r c (Proc.devRef .tc main_v49) := keeps hostOps1_6
    _ = W15 w r c (Proc.devRef .tc main_v49) := keeps hostOps1_5

/-- The node features, from where the reordering gathers them on, are not written. -/
private theorem keep_nodes (c : Dev nD) :
    W21 w r c (Proc.devRef .tc main_v35) = W14 w r c (Proc.devRef .tc main_v35) :=
  calc W21 w r c (Proc.devRef .tc main_v35)
    _ = W20 w r c (Proc.devRef .tc main_v35) := keeps hostOps1_10
    _ = W19 w r c (Proc.devRef .tc main_v35) := keeps hostOps1_9
    _ = W18 w r c (Proc.devRef .tc main_v35) := keeps hostOps1_8
    _ = W17 w r c (Proc.devRef .tc main_v35) := keeps hostOps1_7
    _ = W16 w r c (Proc.devRef .tc main_v35) := keeps hostOps1_6
    _ = W15 w r c (Proc.devRef .tc main_v35) := keeps hostOps1_5
    _ = W14 w r c (Proc.devRef .tc main_v35) := keeps hostOps1_4

/-! ## The stages at the boundary where the second region is entered -/

/-- The sort key is the reference's, of the launch labels and kinds. -/
private theorem key_W13 (c : Dev nD) :
    W13 w r c (Proc.devRef .tc main_v41)
      = Cert.ReferenceIdeal.ReadP.val_main_v47 (F := F) (w ((c.tc : Thread nD τ).loc main_arg3))
          (w ((c.tc : Thread nD τ).loc main_arg4)) :=
  (stretch_key (W12 w r c)).trans (by rw [labels_W12 w r c, kinds_W12 w r c])

/-- The sorted order is the reference's. -/
private theorem order_W14 (c : Dev nD) :
    W14 w r c (Proc.devRef .tc main_v42)
      = Cert.ReferenceIdeal.ReadP.val_main_v48 (F := F) (w ((c.tc : Thread nD τ).loc main_arg3))
          (w ((c.tc : Thread nD τ).loc main_arg4)) :=
  (stretch_order (W13 w r c)).trans (by rw [key_W13 w r c]; rfl)

/-- The aggregate after the first stretch. -/
private theorem agg_W1 (c : Dev nD) :
    W1 w r c (Proc.devRef .tc main_v14)
      = Cert.ReferenceIdeal.ReadP.val_main_v14 (F := F) (w ((c.tc : Thread nD τ).loc main_arg0))
          (w ((c.tc : Thread nD τ).loc main_arg1)) (w ((c.tc : Thread nD τ).loc main_arg2)) :=
  stretch_agg (W0 w r c)

/-- The pooled means, from the sums and the counts. -/
private theorem pool_W21 (c : Dev nD) :
    W21 w r c (Proc.devRef .tc main_v34)
      = Cert.ReferenceIdeal.Shared.poolR (F := F) (W21 w r c (Proc.devRef .tc main_v25))
          (W21 w r c (Proc.devRef .tc main_v27)) := by
  rw [keep_pool w r c, keep_sums w r c, keep_counts w r c]
  exact stretch_pool (W10 w r c)

/-- The reordered labels. -/
private theorem labels_W21 (c : Dev nD) :
    W21 w r c (Proc.devRef .tc main_v56)
      = Cert.ReferenceIdeal.ReadP.val_main_v62 (F := F) (w ((c.tc : Thread nD τ).loc main_arg3))
          (w ((c.tc : Thread nD τ).loc main_arg4)) :=
  (keep_labels w r c).trans
    ((stretch_labels (W14 w r c)).trans (by rw [labels_W14 w r c, order_W14 w r c]; rfl))

/-- The reordered kinds. -/
private theorem kinds_W21 (c : Dev nD) :
    W21 w r c (Proc.devRef .tc main_v63)
      = Cert.ReferenceIdeal.ReadP.val_main_v76 (F := F) (w ((c.tc : Thread nD τ).loc main_arg3))
          (w ((c.tc : Thread nD τ).loc main_arg4)) :=
  (keep_kinds w r c).trans
    ((stretch_kinds (W14 w r c)).trans (by rw [kinds_W14 w r c, order_W14 w r c]; rfl))

/-- The reordered features, from the node features. -/
private theorem feats_W21 (c : Dev nD) :
    W21 w r c (Proc.devRef .tc main_v49)
      = Host.gather Cert.ReferenceIdeal.gather_S100000x128_S100000x1_S100000x128_1_0_n_n_0_1_1128
          (W21 w r c (Proc.devRef .tc main_v35))
          (Cert.ReferenceIdeal.ReadP.val_main_v54 (F := F) (w ((c.tc : Thread nD τ).loc main_arg3))
            (w ((c.tc : Thread nD τ).loc main_arg4))) := by
  rw [keep_feats w r c, keep_nodes w r c]
  exact (stretch_feats (W14 w r c)).trans (by rw [order_W14 w r c]; rfl)

end AnyField

/-! # The five equalities -/

/-- The aggregate before the first region is the reference's aggregate of the same inputs. -/
theorem agg_eq (c : Dev nD) :
    (Gen.W1 m ρ c (Proc.devRef .tc main_v14) : Vec Ideal S100000x128 .f32)
      = Cert.ReferenceIdeal.ReadP.val_main_v14 (F := Ideal) (gX m c) (gEI m c) (gEA m c) :=
  agg_W1 m ρ c

/-- The pooled means are the reference's function of the sums and the counts. -/
theorem mid_pool (c : Dev nD) :
    kPool m ρ c = Cert.ReferenceIdeal.Shared.poolR (F := Ideal) (kCs m ρ c) (kCc m ρ c) :=
  pool_W21 m ρ c

/-- The reordered features: the reference's row gather, in the reference's order, of the kernel's node features. -/
theorem mid_ho (c : Dev nD) :
    kHo m ρ c = Host.gather Cert.ReferenceIdeal.gather_S100000x128_S100000x1_S100000x128_1_0_n_n_0_1_1128 (kH m ρ c)
      (Cert.ReferenceIdeal.ReadP.val_main_v54 (F := Ideal) (gB m c) (gP m c)) :=
  feats_W21 m ρ c

/-- The reordered labels are the reference's. -/
theorem mid_bo (c : Dev nD) : kBo m ρ c = Cert.ReferenceIdeal.ReadP.val_main_v62 (F := Ideal) (gB m c) (gP m c) :=
  labels_W21 m ρ c

/-- The reordered kinds are the reference's. -/
theorem mid_po (c : Dev nD) : kPo m ρ c = Cert.ReferenceIdeal.ReadP.val_main_v76 (F := Ideal) (gB m c) (gP m c) :=
  kinds_W21 m ρ c

end Cert.KernelIdeal.HostC

end
-- ==== Proof.LibScatterLand.lean ====
import Idealize.ShloMosaic.PureOps.Dims

/-!
  Where an update of a `stablehlo.scatter` lands.

  For any scatter dimension numbers, update index `j` lands on operand element `i` exactly when, on every
  operand axis, the start read off the scatter indices (signed, not clamped) plus the window coordinate
  equals `i`'s coordinate. An update whose start plus window coordinate leaves the operand on some axis
  lands on no element.
-/

namespace Idealize.ShloMosaic.ScatterLand

open Idealize.ShloMosaic

variable {s si u : Shape} (d : ScatterDims s si u)

/-- Update index `j` lands on operand element `i` if and only if, on every operand axis `a`, the start of
    the window plus the window coordinate is the coordinate of `i` on `a`. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hh =>
      have hi := congrFun (Option.some.inj h) a
      have hv := congrArg Fin.val hi
      have := hh a
      simp only at hv
      omega
    · cases h
  · intro h
    have hh : ∀ a, 0 ≤ d.start j idx a + d.window j a ∧ d.start j idx a + d.window j a < s.size a := by
      intro a
      have := h a
      have := (i a).isLt
      omega
    rw [dif_pos hh]
    refine congrArg some (funext fun a => Fin.ext ?_)
    have := h a
    show (d.start j idx a + d.window j a).toNat = (i a).val
    omega

/-- An update whose start plus window coordinate is outside the operand on some axis lands nowhere. -/
theorem resultIdx?_eq_none_of_outside {w : Nat} (j : u.Idx) (idx : IVec si w) (a : Fin s.rank)
    (h : d.start j idx a + (d.window j a : Int) < 0 ∨ (s.size a : Int) ≤ d.start j idx a + (d.window j a : Int)) :
    d.resultIdx? j idx = none := by
  unfold ScatterDims.resultIdx?
  rw [dif_neg]
  intro hh
  have := hh a
  omega

end Idealize.ShloMosaic.ScatterLand
-- ==== Proof.RefVal.lean ====
/-
  The reference's float stages read at one entry.

  Its node features are the two-layer network on each row of the features plus the aggregate.  Its pooled sum of
  graph g adds, over all 100000 nodes whose label is g, the node's feature times the 0/1 value "kind is 0"; its count
  adds that 0/1 value.  (A scatter-add started from zeros holds at each row the sum of the updates that land there, and
  an update lands on row g exactly when its label, read as a signed integer, is g.)
-/
import proofs.«411169_j26723286516090_2_alg».proof.Proof.RefShared
import proofs.«411169_j26723286516090_2_alg».proof.Proof.Spec
import proofs.«411169_j26723286516090_2_alg».proof.Proof.LibScatterLand
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefVal

open Cert.ReferenceIdeal Cert.ReferenceIdeal.Gen Cert.ReferenceIdeal.ReadP Cert.ReferenceIdeal.Shared Idealize.ShloMosaic Idealize.ShloMosaic.ValueIdx

/-- A scatter-add of rows: the table has n rows of c entries, the m updates are rows of c entries, and update row r goes
    to the table row its label names (read signed); the window runs along the row.  Then the updates that land on entry
    (g, e) are the entries (r, e) of the update rows r whose label is g. -/
private theorem scatter_rows_sum {n m c : Nat} (d : ScatterDims (⟨2, ![n, c]⟩ : Shape) (⟨2, ![m, 1]⟩ : Shape) (⟨2, ![m, c]⟩ : Shape))
    (idx : IVec (⟨2, ![m, 1]⟩ : Shape) 32)
    (hs0 : ∀ (r : Fin m) (q : Fin c), d.start (ix2 r q) idx (0 : Fin 2) = (idx (ix2 r 0)).toInt)
    (hs1 : ∀ (r : Fin m) (q : Fin c), d.start (ix2 r q) idx (1 : Fin 2) = 0)
    (hw0 : ∀ (r : Fin m) (q : Fin c), d.window (ix2 r q) (0 : Fin 2) = 0)
    (hw1 : ∀ (r : Fin m) (q : Fin c), d.window (ix2 r q) (1 : Fin 2) = q.val)
    (upd : (⟨2, ![m, c]⟩ : Shape).Idx → EReal) (g : Fin n) (e : Fin c) :
    ∑ j ∈ Finset.univ.filter (fun j => d.resultIdx? j idx = some (ix2 g e)), upd j
      = ∑ r : Fin m, (if (idx (ix2 r 0)).toInt = (g.val : Int) then upd (ix2 r e) else 0) := by
  have land : ∀ (r : Fin m) (q : Fin c),
      d.resultIdx? (ix2 r q) idx = some (ix2 g e) ↔ ((idx (ix2 r 0)).toInt = (g.val : Int) ∧ q = e) := by
    intro r q
    rw [ScatterLand.resultIdx?_eq_some_iff]
    constructor
    · intro h
      have h0 : d.start (ix2 r q) idx (0 : Fin 2) + (d.window (ix2 r q) (0 : Fin 2) : Int) = (g.val : Int) := h 0
      have h1 : d.start (ix2 r q) idx (1 : Fin 2) + (d.window (ix2 r q) (1 : Fin 2) : Int) = (e.val : Int) := h 1
      rw [hs0, hw0] at h0
      rw [hs1, hw1] at h1
      exact ⟨by omega, Fin.ext (by omega)⟩
    · rintro ⟨h0, rfl⟩ a
      match a with
      | ⟨0, _⟩ =>
        show d.start (ix2 r q) idx (0 : Fin 2) + (d.window (ix2 r q) (0 : Fin 2) : Int) = (g.val : Int)
        rw [hs0, hw0]; omega
      | ⟨1, _⟩ =>
        show d.start (ix2 r q) idx (1 : Fin 2) + (d.window (ix2 r q) (1 : Fin 2) : Int) = (q.val : Int)
        rw [hs1, hw1]; omega
  rw [Finset.sum_filter, sum_idx2]
  refine Finset.sum_congr rfl fun r _ => ?_
  by_cases hr : (idx (ix2 r 0)).toInt = (g.val : Int)
  · rw [if_pos hr, Finset.sum_eq_single e]
    · rw [if_pos ((land r e).mpr ⟨hr, rfl⟩)]
    · intro q _ hq
      rw [if_neg (fun h => hq ((land r q).mp h).2)]
    · intro h; exact absurd (Finset.mem_univ _) h
  · rw [if_neg hr]
    exact Finset.sum_eq_zero fun q _ => if_neg (fun h => hr ((land r q).mp h).1)

/-- The four facts about where the pooled-sum scatter puts update (r, q): the start is the label of row r on the row axis
    and 0 on the column axis; the window coordinate is 0 on the row axis and q on the column axis. -/
private theorem cs_start0 (idx : IVec S100000x1 32) (r : Fin 100000) (q : Fin 128) :
    scatter_S256x128_S100000x1_S100000x128_1_0_0_1.start (ix2 r q) idx (0 : Fin 2) = (idx (ix2 r 0)).toInt := by
  unfold ScatterDims.start
  rw [dif_pos (show (0 : Fin S256x128.rank) ∈ scatter_S256x128_S100000x1_S100000x128_1_0_0_1.scatterDimsToOperandDims by decide)]
  congr 2
  funext b
  match b with
  | ⟨0, _⟩ => rfl
  | ⟨1, _⟩ => rfl
private theorem cs_start1 (idx : IVec S100000x1 32) (r : Fin 100000) (q : Fin 128) :
    scatter_S256x128_S100000x1_S100000x128_1_0_0_1.start (ix2 r q) idx (1 : Fin 2) = 0 := by
  unfold ScatterDims.start
  rw [dif_neg (show ¬ (1 : Fin S256x128.rank) ∈ scatter_S256x128_S100000x1_S100000x128_1_0_0_1.scatterDimsToOperandDims by decide)]
private theorem cs_window0 (r : Fin 100000) (q : Fin 128) :
    scatter_S256x128_S100000x1_S100000x128_1_0_0_1.window (ix2 r q) (0 : Fin 2) = 0 := by
  unfold ScatterDims.window
  rw [dif_neg (show ¬ (0 : Fin S256x128.rank) ∈ scatter_S256x128_S100000x1_S100000x128_1_0_0_1.sKept by decide)]
private theorem cs_window1 (r : Fin 100000) (q : Fin 128) :
    scatter_S256x128_S100000x1_S100000x128_1_0_0_1.window (ix2 r q) (1 : Fin 2) = q.val := by
  unfold ScatterDims.window
  rw [dif_pos (show (1 : Fin S256x128.rank) ∈ scatter_S256x128_S100000x1_S100000x128_1_0_0_1.sKept by decide)]
  rfl

/-- The same four facts for the count scatter, whose update rows have one entry. -/
private theorem cc_start0 (idx : IVec S100000x1 32) (r : Fin 100000) (q : Fin 1) :
    scatter_S256x1_S100000x1_S100000x1_1_0_0_1.start (ix2 r q) idx (0 : Fin 2) = (idx (ix2 r 0)).toInt := by
  unfold ScatterDims.start
  rw [dif_pos (show (0 : Fin S256x1.rank) ∈ scatter_S256x1_S100000x1_S100000x1_1_0_0_1.scatterDimsToOperandDims by decide)]
  congr 2
  funext b
  match b with
  | ⟨0, _⟩ => rfl
  | ⟨1, _⟩ => rfl
private theorem cc_start1 (idx : IVec S100000x1 32) (r : Fin 100000) (q : Fin 1) :
    scatter_S256x1_S100000x1_S100000x1_1_0_0_1.start (ix2 r q) idx (1 : Fin 2) = 0 := by
  unfold ScatterDims.start
  rw [dif_neg (show ¬ (1 : Fin S256x1.rank) ∈ scatter_S256x1_S100000x1_S100000x1_1_0_0_1.scatterDimsToOperandDims by decide)]
private theorem cc_window0 (r : Fin 100000) (q : Fin 1) :
    scatter_S256x1_S100000x1_S100000x1_1_0_0_1.window (ix2 r q) (0 : Fin 2) = 0 := by
  unfold ScatterDims.window
  rw [dif_neg (show ¬ (0 : Fin S256x1.rank) ∈ scatter_S256x1_S100000x1_S100000x1_1_0_0_1.sKept by decide)]
private theorem cc_window1 (r : Fin 100000) (q : Fin 1) :
    scatter_S256x1_S100000x1_S100000x1_1_0_0_1.window (ix2 r q) (1 : Fin 2) = q.val := by
  unfold ScatterDims.window
  rw [dif_pos (show (1 : Fin S256x1.rank) ∈ scatter_S256x1_S100000x1_S100000x1_1_0_0_1.sKept by decide)]
  rfl

/-- The one-bit word "x is zero", read unsigned as an exact float, is the indicator of x = 0. -/
private theorem eqz_float (x : BitVec 32) :
    (FloatOps.uitofp (F := Ideal) .f32 (IntOp.cmpi .eq x 0#32) : EReal) = Cert.Spec.ind (x = 0#32) := by
  show ((((IntOp.cmpi .eq x 0#32).toNat : ℕ) : ℝ) : EReal) = _
  by_cases hx : x = 0#32
  · rw [Cert.Spec.ind_true hx, hx]
    show (((1 : ℕ) : ℝ) : EReal) = 1
    simp
  · rw [Cert.Spec.ind_false hx]
    have hb : IntOp.cmpi .eq x 0#32 = 0#1 := by
      have h2 : (x == 0#32) = false := beq_eq_false_iff_ne.mpr hx
      show BitVec.ofBool (x == 0#32) = 0#1
      rw [h2]; rfl
    rw [hb]
    show (((0 : ℕ) : ℝ) : EReal) = 0
    simp

variable (x0 : FVec Ideal S100000x128 .f32) (x1 : IVec S2x1600000 32) (x2 : FVec Ideal S1600000x128 .f32)
  (x3 x4 : IVec S100000 32) (x5 : FVec Ideal S128x128 .f32) (x6 : FVec Ideal S128 .f32) (x7 : FVec Ideal S128x128 .f32)
  (x8 : FVec Ideal S128 .f32)

/-- The reference's hidden unit k of row r, after the rectifier. -/
private theorem ref_hid (r : Fin 100000) (k : Fin 128) :
    val_main_v20 (F := Ideal) x0 x1 x2 x5 x6 (ix2 r k)
      = Cert.Spec.hid (fun j => x0 (ix2 r j) + val_main_v14 (F := Ideal) x0 x1 x2 (ix2 r j)) x5 (fun k => x6 (ix1 k)) k := by
  rw [val_main_v20_apply, val_main_v19_apply, val_main_v16_apply, val_main_v18_apply, val_main_v17_apply,
    val_main_call0_v0_apply, val_main_call0_cst_apply]
  have e6 : idx_main_v17 (idx_main_v18 (ix2 r k)) = ix1 k := funext fun a => Fin.ext (by match a with | ⟨0, _⟩ => rfl)
  rw [e6]
  unfold Cert.Spec.hid
  simp only [Ideal.maximumf_def, Ideal.addf_def, Ideal.ofBits_def, Ideal.ofBits_zero_f32]
  congr 2
  refine Finset.sum_congr rfl fun j _ => ?_
  have el : lidx_main_v16 (ix2 r k) j = ix2 r j := funext fun a => Fin.ext (by match a with | ⟨0, _⟩ => rfl | ⟨1, _⟩ => rfl)
  have er : ridx_main_v16 (ix2 r k) j = ix2 j k := funext fun a => Fin.ext (by match a with | ⟨0, _⟩ => rfl | ⟨1, _⟩ => rfl)
  rw [el, er, val_main_v15_apply]
  rfl

/-- The reference's node features at (r, d). -/
theorem ref_h (r : Fin 100000) (d : Fin 128) :
    val_main_v24 (F := Ideal) x0 x1 x2 x5 x6 x7 x8 (ix2 r d)
      = Cert.Spec.mlp x0 (val_main_v14 (F := Ideal) x0 x1 x2) x5 (fun k => x6 (ix1 k)) x7 (fun k => x8 (ix1 k)) r d := by
  rw [val_main_v24_apply, val_main_v21_apply, val_main_v23_apply, val_main_v22_apply]
  have e8 : idx_main_v22 (idx_main_v23 (ix2 r d)) = ix1 d := funext fun a => Fin.ext (by match a with | ⟨0, _⟩ => rfl)
  rw [e8]
  unfold Cert.Spec.mlp Cert.Spec.mlpRow
  simp only [Ideal.addf_def]
  congr 1
  refine Finset.sum_congr rfl fun k _ => ?_
  have el : lidx_main_v21 (ix2 r d) k = ix2 r k := funext fun a => Fin.ext (by match a with | ⟨0, _⟩ => rfl | ⟨1, _⟩ => rfl)
  have er : ridx_main_v21 (ix2 r d) k = ix2 k d := funext fun a => Fin.ext (by match a with | ⟨0, _⟩ => rfl | ⟨1, _⟩ => rfl)
  rw [el, er, ref_hid x0 x1 x2 x5 x6 r k]

/-- The 0/1 value "kind of node r is 0" as the reference computes it. -/
private theorem ref_cond (r : Fin 100000) :
    val_main_v27 (F := Ideal) x4 (ix1 r) = Cert.Spec.ind (x4 (ix1 r) = 0#32) := by
  rw [val_main_v27_apply, val_main_v26_apply, val_main_v25_apply, val_main_c_1_apply]
  exact eqz_float (x4 (ix1 r))

/-- The pooled sum of graph g, feature d, from node features h. -/
theorem ref_cs (h : FVec Ideal S100000x128 .f32) (g : Fin 256) (d : Fin 128) :
    csumR (F := Ideal) h x3 x4 (ix2 g d)
      = ∑ r : Fin 100000, (if (x3 (ix1 r)).toInt = (g.val : Int) then h (ix2 r d) * Cert.Spec.ind (x4 (ix1 r) = 0#32) else 0) := by
  unfold csumR
  show val_main_v31 (F := Ideal) (ix2 g d)
      + ∑ j ∈ Finset.univ.filter (fun j => scatter_S256x128_S100000x1_S100000x128_1_0_0_1.resultIdx? j (val_main_v32 (F := Ideal) x3) = some (ix2 g d)),
          mulf h (val_main_v29 (F := Ideal) x4) j = _
  rw [scatter_rows_sum scatter_S256x128_S100000x1_S100000x128_1_0_0_1 (val_main_v32 (F := Ideal) x3)
    (cs_start0 _) (cs_start1 _) cs_window0 cs_window1 (mulf h (val_main_v29 (F := Ideal) x4)) g d,
    val_main_v31_apply, val_main_cst_2_apply]
  simp only [Ideal.ofBits_def, Ideal.ofBits_zero_f32, zero_add]
  refine Finset.sum_congr rfl fun r _ => ?_
  have e3 : idx_main_v32 (ix2 r 0) = ix1 r := funext fun a => Fin.ext (by match a with | ⟨0, _⟩ => rfl)
  have e4 : idx_main_v28 (idx_main_v29 (ix2 r d)) = ix1 r := funext fun a => Fin.ext (by match a with | ⟨0, _⟩ => rfl)
  rw [val_main_v32_apply, e3, mulf_apply, val_main_v29_apply, val_main_v28_apply, e4, ref_cond x4 r]

/-- The count of graph g. -/
theorem ref_cc (g : Fin 256) :
    val_main_v36 (F := Ideal) x3 x4 (ix2 g 0)
      = ∑ r : Fin 100000, (if (x3 (ix1 r)).toInt = (g.val : Int) then Cert.Spec.ind (x4 (ix1 r) = 0#32) else 0) := by
  unfold val_main_v36
  show val_main_v34 (F := Ideal) (ix2 g 0)
      + ∑ j ∈ Finset.univ.filter (fun j => scatter_S256x1_S100000x1_S100000x1_1_0_0_1.resultIdx? j (val_main_v35 (F := Ideal) x3) = some (ix2 g 0)),
          val_main_v28 (F := Ideal) x4 j = _
  rw [scatter_rows_sum scatter_S256x1_S100000x1_S100000x1_1_0_0_1 (val_main_v35 (F := Ideal) x3)
    (cc_start0 _) (cc_start1 _) cc_window0 cc_window1 (val_main_v28 (F := Ideal) x4) g 0,
    val_main_v34_apply, val_main_cst_3_apply]
  simp only [Ideal.ofBits_def, Ideal.ofBits_zero_f32, zero_add]
  refine Finset.sum_congr rfl fun r _ => ?_
  have e3 : idx_main_v35 (ix2 r 0) = ix1 r := funext fun a => Fin.ext (by match a with | ⟨0, _⟩ => rfl)
  have e4 : idx_main_v28 (ix2 r 0) = ix1 r := funext fun a => Fin.ext (by match a with | ⟨0, _⟩ => rfl)
  rw [val_main_v35_apply, e3, val_main_v28_apply, e4, ref_cond x4 r]

end Cert.ReferenceIdeal.RefVal

end
-- ==== Proof.LibRowGather.lean ====
/-
  Taking rows of a table: the gather that x[idx] of an [N × C] array lowers to, read at an entry.

  With the row axis collapsed and start-indexed and the column axis an offset axis of full width, entry (r, q) of
  the result is the table's entry (row, q), where row is start index r read as a signed integer and clamped to
  [0, N − 1].  A start index that already names a row is left as it is.
-/
import Idealize.ShloMosaic.Lib.ValueIdx

noncomputable section

namespace Cert.LibRowGather

open Idealize.ShloMosaic Idealize.ShloMosaic.ValueIdx

/-- Entry (r, q) of a row gather is the table's entry (row, q) for a start index that names the row. -/
theorem gather_rows_apply {α : Type} {N C n : Nat}
    (d : GatherDims ⟨2, ![N, C]⟩ ⟨2, ![n, 1]⟩ ⟨2, ![n, C]⟩)
    (hoff : d.offsetDims = [1]) (hcol : d.collapsedSliceDims = [0]) (hob : d.operandBatchingDims = [])
    (hsb : d.startIndicesBatchingDims = []) (hmap : d.startIndexMap = [0]) (hiv : d.indexVectorDim = 1)
    (hsl : d.sliceSizes = ![1, C])
    (x : (⟨2, ![N, C]⟩ : Shape).Idx → α) (idx : IVec ⟨2, ![n, 1]⟩ 32) (r : Fin n) (q : Fin C) (row : Fin N)
    (hrow : (idx (ix2 r (0 : Fin 1))).toInt = (row.val : Int)) :
    Host.gather d x idx (ix2 r q) = x (ix2 row q) := by
  -- the record's data are the seven printed lists: make them literal so that the axis bookkeeping computes
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the row axis: collapsed and start-indexed, so the operand's row is the clamped start index alone
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    -- the start index is read at (r, 0): r from the result's batch axis, 0 on the index vector's axis
    generalize hX : GatherDims.siIdx _ (ix2 r q) _ = X
    have hX' : X = ix2 r (0 : Fin 1) := by
      rw [← hX]
      funext b
      match b with
      | ⟨0, _⟩ => rfl
      | ⟨1, _⟩ => rfl
    rw [hX', hrow]
    show min ((row.val : Int)).toNat (N - 1) = row.val
    have hlt := row.isLt
    rw [Int.toNat_natCast]
    omega
  | ⟨1, _⟩ =>
    -- the column axis: an offset axis of full width, no start, so the operand's column is the result's
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl

end Cert.LibRowGather

end
-- ==== Proof.RefOut.lean ====
/-
  The reference's assembled result read at one entry.

  Row r of the result belongs to the r-th node in sorted order.  Where that node's kind is 1 the row holds the node's
  features in columns 0 .. 127 and, in columns 128 .. 255, the pooled row of its graph: the row whose number is the
  node's label, when the label is a row number of the 256-row table (a non-negative start index below the extent is
  left alone by the wrap of negative indices and by the clamp).  Elsewhere the row is 0.  A reordered label is one of
  the labels, whatever the order.
-/
import proofs.«411169_j26723286516090_2_alg».proof.Proof.RefShared
import proofs.«411169_j26723286516090_2_alg».proof.Proof.Spec
import proofs.«411169_j26723286516090_2_alg».proof.Proof.LibRowGather
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefOut

open Cert.ReferenceIdeal Cert.ReferenceIdeal.Gen Cert.ReferenceIdeal.ReadP Cert.ReferenceIdeal.Shared Idealize.ShloMosaic Idealize.ShloMosaic.ValueIdx

variable (x0 : FVec Ideal S100000x128 .f32) (x1 : IVec S2x1600000 32) (x2 : FVec Ideal S1600000x128 .f32)
  (x3 x4 : IVec S100000 32) (x5 : FVec Ideal S128x128 .f32) (x6 : FVec Ideal S128 .f32) (x7 : FVec Ideal S128x128 .f32)
  (x8 : FVec Ideal S128 .f32)

/-! ## The three per-row words the assembly depends on, each read at row r -/

/-- The keep bit at (r, cc) is spread from row r: it compares row r's reordered kind with 1. -/
private theorem keep_apply (r : Fin 100000) (cc : Fin 256) :
    val_main_call3_v1 (F := Ideal) x3 x4 (ix2 r cc)
      = IntOp.cmpi .eq (val_main_v76 (F := Ideal) x3 x4 (ix1 r)) 1#32 := by
  have hidx : idx_main_v79 (idx_main_call3_v1 (ix2 r cc)) = ix1 r :=
    funext fun a => match a with | ⟨0, _⟩ => rfl
  rw [val_main_call3_v1_apply, val_main_v79_apply, val_main_v78_apply, val_main_v77_apply, val_main_c_16_apply, hidx]

/-- The fill value is the extended real 0 at every entry. -/
private theorem fill_apply (i : S100000x256.Idx) : val_main_call3_v2 (F := Ideal) i = (0 : EReal) := by
  rw [val_main_call3_v2_apply, val_main_call3_v0_apply, val_main_cst_17_apply]
  exact Ideal.ofBits_zero_f32

/-- The pool gather's start index at row r: a non-negative reordered label is not wrapped, so it is the label. -/
private theorem start_apply (r : Fin 100000) (hb0 : 0 ≤ (val_main_v62 (F := Ideal) x3 x4 (ix1 r)).toInt) :
    val_main_v68 (F := Ideal) x3 x4 (ix2 r (0 : Fin 1)) = val_main_v62 (F := Ideal) x3 x4 (ix1 r) := by
  have hidx : idx_main_v68 (ix2 r (0 : Fin 1)) = ix1 r :=
    funext fun a => match a with | ⟨0, _⟩ => rfl
  rw [val_main_v68_apply, val_main_v67_apply, val_main_v64_apply, val_main_v63_apply, val_main_c_12_apply, hidx]
  generalize val_main_v62 (F := Ideal) x3 x4 (ix1 r) = b at hb0 ⊢
  -- "b < 0" read signed is false, so the select keeps b
  have hlt : IntOp.cmpi .slt b 0#32 = 0#1 := eq_zero_of_ne_one fun h => by
    have h' := IntOp.cmpi_slt.mp h
    rw [show (0#32 : BitVec 32).toInt = 0 from by decide] at h'
    omega
  rw [hlt, select_zero]

/-- A word below 256 reads the same signed and unsigned. -/
private theorem toInt_of_lt_256 (b : BitVec 32) (hn : b.toNat < 256) : b.toInt = (b.toNat : Int) := by
  rw [BitVec.toInt_eq_toNat_cond, if_pos (by have : (2 : Nat) ^ 32 = 4294967296 := by norm_num
                                             omega)]

/-! ## The two statements -/

/-- A reordered label is one of the labels. -/
theorem ref_bo_mem (r : Fin 100000) : ∃ i : S100000.Idx, val_main_v62 (F := Ideal) x3 x4 (ix1 r) = x3 i := by
  unfold val_main_v62
  -- the gather reads the labels at an operand index computed from the start indices, whatever those are
  generalize val_main_v61 (F := Ideal) x3 x4 = idx
  exact ⟨gather_S100000_S100000x1_S100000_n_0_n_n_0_1_1.operandIdx (ix1 r) idx, rfl⟩

/-- The assembled result at (r, cc), from node features h and pooled table pool, when row r's label names a table row. -/
theorem ref_out (h : FVec Ideal S100000x128 .f32) (pool : FVec Ideal S256x128 .f32) (r : Fin 100000) (cc : Fin 256)
    (hb0 : 0 ≤ (val_main_v62 (F := Ideal) x3 x4 (ix1 r)).toInt)
    (hn : (val_main_v62 (F := Ideal) x3 x4 (ix1 r)).toNat < 256) :
    finalR (F := Ideal) h pool x3 x4 (ix2 r cc)
      = if val_main_v76 (F := Ideal) x3 x4 (ix1 r) = 1#32 then
          (if hc : cc.val < 128 then
              Host.gather gather_S100000x128_S100000x1_S100000x128_1_0_n_n_0_1_1128 h (val_main_v54 (F := Ideal) x3 x4)
                (ix2 r ⟨cc.val, hc⟩)
            else pool (ix2 ⟨(val_main_v62 (F := Ideal) x3 x4 (ix1 r)).toNat, hn⟩ ⟨cc.val - 128, by omega⟩))
        else 0 := by
  unfold finalR
  rw [select_apply, keep_apply, fill_apply]
  by_cases hk : val_main_v76 (F := Ideal) x3 x4 (ix1 r) = 1#32
  · -- kind 1: the bit is 1 and the select keeps the concatenated row
    rw [if_pos hk, IntOp.cmpi_eq.mpr hk, select_one]
    by_cases hc : cc.val < 128
    · -- a column of the first piece: the node's features
      rw [dif_pos hc]
      exact concatenate_pair_apply_left (t := S100000x256) (s₁ := S100000x128) (s₂ := S100000x128) (1 : Fin 2) _ _
        concatenates_S100000x128_S100000x128_S100000x256_d1 (ix2 r cc) rfl (ix2 r (⟨cc.val, hc⟩ : Fin 128)) (by
          intro b
          match b with
          | ⟨0, _⟩ => rfl
          | ⟨1, _⟩ => rfl)
    · -- a column of the second piece, the first extent less: the pooled row the start index names
      rw [dif_neg hc]
      refine (concatenate_pair_apply_right (t := S100000x256) (s₁ := S100000x128) (s₂ := S100000x128) (1 : Fin 2) _ _
        concatenates_S100000x128_S100000x128_S100000x256_d1 (ix2 r cc) rfl rfl
        (ix2 r (⟨cc.val - 128, by omega⟩ : Fin 128)) (by
          intro b hb
          match b with
          | ⟨0, _⟩ => rfl
          | ⟨1, _⟩ => exact absurd rfl hb) (by
          show cc.val - 128 + 128 = cc.val; omega)).trans ?_
      refine Cert.LibRowGather.gather_rows_apply gather_S256x128_S100000x1_S100000x128_1_0_n_n_0_1_1128
        rfl rfl rfl rfl rfl rfl rfl pool (val_main_v68 (F := Ideal) x3 x4) r _ _ ?_
      rw [start_apply x3 x4 r hb0]
      exact toInt_of_lt_256 _ hn
  · -- any other kind: the bit is 0 and the select takes the fill value
    rw [if_neg hk, eq_zero_of_ne_one fun hbit => hk (IntOp.cmpi_eq.mp hbit), select_zero]

end Cert.ReferenceIdeal.RefOut

end
-- ==== Proof.R1.lean ====
/-
  Region 1's output array after all 49 grid points, as a whole-array function of the arrays the region finds.

  Point t reads rows 2048 t .. of the permuted features, labels and kinds, and the whole pooled table; it stores the
  features times the "kind is 1" indicator in columns 0 .. 127 and, in columns 128 .. 255, the product of the
  2048 x 256 matrix of indicators "label of row p is g" with the pooled table, times the same indicator.
-/
import proofs.«411169_j26723286516090_2_alg».proof.Proof.Gen.KernelIdeal.Frame
import proofs.«411169_j26723286516090_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.R1

open Cert.KernelIdeal Cert.KernelIdeal.Gen Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

/-- The arrays region 1 finds, each at its literal type. -/
abbrev bHo (c : Dev nD) : Vec Ideal S100352x128 .f32 := V c (Pipeline.arrRef spec1 0)
abbrev bBc (c : Dev nD) : Vec Ideal S100352x1 .i32 := V c (Pipeline.arrRef spec1 1)
abbrev bPc (c : Dev nD) : Vec Ideal S100352x1 .i32 := V c (Pipeline.arrRef spec1 2)
abbrev bPool (c : Dev nD) : Vec Ideal S256x128 .f32 := V c (Pipeline.arrRef spec1 3)

/-! ## The two stored values at explicit coordinates -/

/-- The one-bit word "x equals y", widened to 32 bits and converted, is the indicator of x = y. -/
theorem ind_word (x y : BitVec 32) :
    (FloatOps.sitofp (F := Ideal) .f32 ((IntOp.cmpi .eq x y).setWidth 32) : EReal) = Cert.Spec.ind (x = y) := by
  show ((((IntOp.cmpi .eq x y).setWidth 32).toInt : ℝ) : EReal) = _
  by_cases h : x = y
  · rw [Cert.Spec.ind_true h]
    have e : ((IntOp.cmpi .eq x y).setWidth 32).toInt = 1 := by subst h; simp [IntOp.cmpi]
    rw [e]; simp
  · rw [Cert.Spec.ind_false h]
    have hb : (x == y) = false := beq_eq_false_iff_ne.mpr h
    have e : ((IntOp.cmpi .eq x y).setWidth 32).toInt = 0 := by simp [IntOp.cmpi, hb]
    rw [e]; simp

/-- The "kind is 1" column at row p. -/
theorem pay1_apply (v11 : Vec Ideal S2048x1 .i32) (i : S2048x1.Idx) :
    k1_pay1 (F := Ideal) v11 i = Cert.Spec.ind (v11 i = 1#32) := by
  unfold k1_pay1
  rw [shapeCast_self]
  exact ind_word _ _

/-- Columns 0 .. 127 of the staged block: the features times the indicator. -/
theorem pay2_apply (v11 : Vec Ideal S2048x1 .i32) (v17 : Vec Ideal S2048x128 .f32) (p : Fin 2048) (q : Fin 128) :
    k1_pay2 (F := Ideal) v11 v17 (ix2 p q) = v17 (ix2 p q) * Cert.Spec.ind (v11 (ix2 p 0) = 1#32) := by
  unfold k1_pay2
  rw [mulf_apply, shapeCast_self,
    broadcastTo_apply (k1_pay1 (F := Ideal) v11) broadcasts_S2048x1_S2048x128 (ix2 p q) (ix2 p 0)
      (fun a => by match a with | ⟨0, _⟩ => rfl | ⟨1, _⟩ => rfl),
    pay1_apply]

/-- The indicator matrix "label of row p is g" at an entry. -/
theorem onehot_apply (v0 : Vec Ideal S2048x1 .i32) (p : Fin 2048) (g : Fin 256) :
    (sitofp (F := Ideal) .f32 (extui 32 (cmpi .eq (iota .tc S2048x256 32 [1] iota_S2048x256_d1_w32)
        (broadcastTo S2048x256 (shapeCast S2048x1 (shapeCast S2048x1 v0 shapeCasts_S2048x1_S2048x1) shapeCasts_S2048x1_S2048x1)
          broadcasts_S2048x1_S2048x256)) natLt_1_32) : FVec Ideal S2048x256 .f32) (ix2 p g)
      = Cert.Spec.ind (BitVec.ofNat 32 g.val = v0 (ix2 p 0)) := by
  rw [shapeCast_self, shapeCast_self]
  show FloatOps.sitofp (F := Ideal) .f32 ((IntOp.cmpi .eq (iota .tc S2048x256 32 [1] iota_S2048x256_d1_w32 (ix2 p g))
      (broadcastTo S2048x256 v0 broadcasts_S2048x1_S2048x256 (ix2 p g))).setWidth 32) = _
  rw [iota_single_apply,
    broadcastTo_apply v0 broadcasts_S2048x1_S2048x256 (ix2 p g) (ix2 p 0)
      (fun a => by match a with | ⟨0, _⟩ => rfl | ⟨1, _⟩ => rfl)]
  exact ind_word _ _

/-! ### The product of a 2048 x 256 and a 256 x 128 matrix, read at an entry -/

theorem lhs_dot_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_dot_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs_dot_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs_dot_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- Accumulated into the zero splat, entry (p, q) of the product is the sum over g of left (p, g) times right (g, q). -/
theorem matmul_entry (l : FVec Ideal S2048x256 .f32) (r : FVec Ideal S256x128 .f32) (p : Fin 2048) (q : Fin 128) :
    matmul dot_S2048x256_S256x128_S2048x128_1_0_0_1_n_n (some .fp32) l r (constant S2048x128 .f32 0x00000000#32) (ix2 p q)
      = ∑ g : Fin 256, l (ix2 p g) * r (ix2 g q) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p q) ((contrEquiv1 dot_S2048x256_S256x128_S2048x128_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S2048x256_S256x128_S2048x128_1_0_0_1_n_n.rhsIdx (ix2 p q) ((contrEquiv1 dot_S2048x256_S256x128_S2048x128_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-- Columns 128 .. 255 of the staged block: the pooled row of the label, picked by the indicator matrix, times the indicator. -/
theorem pay3_apply (v0 : Vec Ideal S2048x1 .i32) (v8 : Vec Ideal S256x128 .f32) (v11 : Vec Ideal S2048x1 .i32)
    (p : Fin 2048) (q : Fin 128) :
    k1_pay3 (F := Ideal) v0 v8 v11 (ix2 p q)
      = (∑ g : Fin 256, Cert.Spec.ind (BitVec.ofNat 32 g.val = v0 (ix2 p 0)) * v8 (ix2 g q))
          * Cert.Spec.ind (v11 (ix2 p 0) = 1#32) := by
  unfold k1_pay3
  rw [mulf_apply, matmul_entry,
    broadcastTo_apply (k1_pay1 (F := Ideal) v11) broadcasts_S2048x1_S2048x128 (ix2 p q) (ix2 p 0)
      (fun a => by match a with | ⟨0, _⟩ => rfl | ⟨1, _⟩ => rfl),
    pay1_apply]
  congr 1
  refine Finset.sum_congr rfl fun g _ => ?_
  rw [onehot_apply, shapeCast_self]

/-! ## One staged block as a function of the four blocks read -/

theorem hz : (![0, 0] : Fin 2 → Nat) = fun _ => 0 := funext fun a => by fin_cases a <;> rfl

/-- Below column 128 the assembled row holds the features times the indicator. -/
theorem outRow_lo (ho : Fin 128 → EReal) (b p : BitVec 32) (pool : Fin 256 → Fin 128 → EReal) (cc : Fin 256) (q : Fin 128)
    (h : cc.val = q.val) : Cert.Spec.outRow ho b p pool cc = ho q * Cert.Spec.ind (p = 1#32) := by
  have hq := q.isLt
  unfold Cert.Spec.outRow
  rw [dif_pos (by omega)]
  congr 2
  exact Fin.ext h

/-- From column 128 on it holds the pooled row picked by the label times the indicator. -/
theorem outRow_hi (ho : Fin 128 → EReal) (b p : BitVec 32) (pool : Fin 256 → Fin 128 → EReal) (cc : Fin 256) (q : Fin 128)
    (h : cc.val = 128 + q.val) :
    Cert.Spec.outRow ho b p pool cc
      = (∑ g : Fin 256, Cert.Spec.ind (BitVec.ofNat 32 g.val = b) * pool g q) * Cert.Spec.ind (p = 1#32) := by
  unfold Cert.Spec.outRow
  rw [dif_neg (by omega)]
  have e : (⟨cc.val - 128, by have := cc.isLt; omega⟩ : Fin 128) = q := Fin.ext (by show cc.val - 128 = q.val; omega)
  rw [e]

/-- Row p, column cc of the staged block, from the four blocks the point reads. -/
def rowOf (x0 : Vec Ideal S2048x128 .f32) (x1 x2 : Vec Ideal S2048x1 .i32) (x3 : Vec Ideal S256x128 .f32)
    (p : Fin 2048) (cc : Fin 256) : EReal :=
  Cert.Spec.outRow (fun q => x0 (ix2 p q)) (x1 (ix2 p 0)) (x2 (ix2 p 0)) (fun g q => x3 (ix2 g q)) cc

theorem rowOf_of (x0 : Vec Ideal S2048x128 .f32) (x1 x2 : Vec Ideal S2048x1 .i32) (x3 : Vec Ideal S256x128 .f32)
    (y : S2048x256.Idx) (p : Fin 2048) (cc : Fin 256) (h0 : (y 0).val = p.val) (h1 : (y 1).val = cc.val) :
    rowOf x0 x1 x2 x3 ⟨(y 0).val, idx2_lt0 y⟩ ⟨(y 1).val, idx2_lt1 y⟩ = rowOf x0 x1 x2 x3 p cc := by
  have e0 : (⟨(y 0).val, idx2_lt0 y⟩ : Fin 2048) = p := Fin.ext h0
  have e1 : (⟨(y 1).val, idx2_lt1 y⟩ : Fin 256) = cc := Fin.ext h1
  rw [e0, e1]

/-- The two stores together: the staged block at any index is the assembled row. The store over columns 128 .. 255 holds
    the pooled part, the one over columns 0 .. 127 the feature part, and the two rectangles tile the block. -/
theorem out_at (x0 : Vec Ideal S2048x128 .f32) (x1 x2 : Vec Ideal S2048x1 .i32) (x3 : Vec Ideal S256x128 .f32)
    (y : S2048x256.Idx) :
    out1_4 (F := Ideal) x0 x1 x2 x3 y = rowOf x0 x1 x2 x3 ⟨(y 0).val, idx2_lt0 y⟩ ⟨(y 1).val, idx2_lt1 y⟩ := by
  unfold out1_4
  simp only [View.ld_unit_zero (S := S2048x1) hz, View.ld_unit_zero (S := S256x128) hz, View.ld_unit_zero (S := S2048x128) hz]
  refine View.canon_apply_of_pieces (Val := Elt Ideal) (S := S2048x256) (e := .f32) (fun y : S2048x256.Idx => rowOf x0 x1 x2 x3 ⟨(y 0).val, idx2_lt0 y⟩ ⟨(y 1).val, idx2_lt1 y⟩)
    _ ?_ y (cover1_4 _ _ y)
  intro pc hpc x
  simp only [List.mem_cons, List.not_mem_nil, or_false] at hpc
  rcases hpc with rfl | rfl
  · obtain ⟨p, q, rfl⟩ : ∃ (p : Fin 2048) (q : Fin 128), x = ix2 p q := ⟨x 0, x 1, eq_ix2 x⟩
    show k1_pay3 (F := Ideal) x1 x3 x2 (ix2 p q) = rowOf x0 x1 x2 x3 ⟨((r1_4.emb (ix2 p q)) 0).val, _⟩ ⟨((r1_4.emb (ix2 p q)) 1).val, _⟩
    rw [rowOf_of x0 x1 x2 x3 (r1_4.emb (ix2 p q)) p ⟨128 + q.val, by have := q.isLt; omega⟩
        (by show 0 + 1 * p.val = p.val; omega) (by show 128 + 1 * q.val = 128 + q.val; omega),
      pay3_apply]
    unfold rowOf
    rw [outRow_hi _ _ _ _ _ q rfl]
  · obtain ⟨p, q, rfl⟩ : ∃ (p : Fin 2048) (q : Fin 128), x = ix2 p q := ⟨x 0, x 1, eq_ix2 x⟩
    show k1_pay2 (F := Ideal) x2 x0 (ix2 p q) = rowOf x0 x1 x2 x3 ⟨((r1_3.emb (ix2 p q)) 0).val, _⟩ ⟨((r1_3.emb (ix2 p q)) 1).val, _⟩
    rw [rowOf_of x0 x1 x2 x3 (r1_3.emb (ix2 p q)) p ⟨q.val, by have := q.isLt; omega⟩
        (by show 0 + 1 * p.val = p.val; omega) (by show 0 + 1 * q.val = q.val; omega),
      pay2_apply]
    unfold rowOf
    rw [outRow_lo _ _ _ _ _ q rfl]

/-! ## From the 49 blocks to the array -/

/-- The index maps, decided over the 49 points: the features, labels, kinds and the output move by row blocks, block
    row t at point t; the pooled table is one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Point t's block of features is rows 2048 t .. of the features. -/
theorem blk0_apply (c : Dev nD) (t : Fin cfg1.N) (p : Fin 2048) (q : Fin 128) (r : Fin 100352)
    (hr : r.val = t.val * 2048 + p.val) :
    (iblk1 V c 0 t : Vec Ideal S2048x128 .f32) (ix2 p q) = bHo V c (ix2 r q) := by
  obtain ⟨e0, e1, -⟩ := idx_facts t
  unfold iblk1
  show bHo V c (((cfg1.win 0).blk t).view.emb (ix2 p q)) = bHo V c (ix2 r q)
  refine congrArg (bHo V c) ?_
  funext a; apply Fin.ext
  match a with
  | ⟨0, _⟩ => show win1_0.index t (0 : Fin 2) * 2048 + 1 * p.val = r.val; omega
  | ⟨1, _⟩ => show win1_0.index t (1 : Fin 2) * 128 + 1 * q.val = q.val; omega

/-- Point t's block of labels is rows 2048 t .. of the labels. -/
theorem blk1_apply (c : Dev nD) (t : Fin cfg1.N) (p : Fin 2048) (r : Fin 100352)
    (hr : r.val = t.val * 2048 + p.val) :
    (iblk1 V c 1 t : Vec Ideal S2048x1 .i32) (ix2 p 0) = bBc V c (ix2 r 0) := by
  obtain ⟨-, -, e0, e1, -⟩ := idx_facts t
  unfold iblk1
  show bBc V c (((cfg1.win 1).blk t).view.emb (ix2 p 0)) = bBc V c (ix2 r 0)
  refine congrArg (bBc V c) ?_
  funext a; apply Fin.ext
  match a with
  | ⟨0, _⟩ => show win1_1.index t (0 : Fin 2) * 2048 + 1 * p.val = r.val; omega
  | ⟨1, _⟩ => show win1_1.index t (1 : Fin 2) * 1 + 1 * 0 = 0; omega

/-- Point t's block of kinds is rows 2048 t .. of the kinds. -/
theorem blk2_apply (c : Dev nD) (t : Fin cfg1.N) (p : Fin 2048) (r : Fin 100352)
    (hr : r.val = t.val * 2048 + p.val) :
    (iblk1 V c 2 t : Vec Ideal S2048x1 .i32) (ix2 p 0) = bPc V c (ix2 r 0) := by
  obtain ⟨-, -, -, -, e0, e1, -⟩ := idx_facts t
  unfold iblk1
  show bPc V c (((cfg1.win 2).blk t).view.emb (ix2 p 0)) = bPc V c (ix2 r 0)
  refine congrArg (bPc V c) ?_
  funext a; apply Fin.ext
  match a with
  | ⟨0, _⟩ => show win1_2.index t (0 : Fin 2) * 2048 + 1 * p.val = r.val; omega
  | ⟨1, _⟩ => show win1_2.index t (1 : Fin 2) * 1 + 1 * 0 = 0; omega

/-- Every point's block of the pooled table is the whole table. -/
theorem blk3_apply (c : Dev nD) (t : Fin cfg1.N) (g : Fin 256) (q : Fin 128) :
    (iblk1 V c 3 t : Vec Ideal S256x128 .f32) (ix2 g q) = bPool V c (ix2 g q) := by
  obtain ⟨-, -, -, -, -, -, e0, e1, -⟩ := idx_facts t
  unfold iblk1
  show bPool V c (((cfg1.win 3).blk t).view.emb (ix2 g q)) = bPool V c (ix2 g q)
  refine congrArg (bPool V c) ?_
  funext a; apply Fin.ext
  match a with
  | ⟨0, _⟩ => show win1_3.index t (0 : Fin 2) * 256 + 1 * g.val = g.val; omega
  | ⟨1, _⟩ => show win1_3.index t (1 : Fin 2) * 128 + 1 * q.val = q.val; omega

/-- Row r, column cc of the assembled array, from the four arrays the region finds. -/
def rowArr (c : Dev nD) (r : Fin 100352) (cc : Fin 256) : EReal :=
  Cert.Spec.outRow (fun q => bHo V c (ix2 r q)) (bBc V c (ix2 r 0)) (bPc V c (ix2 r 0)) (fun g q => bPool V c (ix2 g q)) cc

/-- The whole assembled array. -/
def arrG (c : Dev nD) : Vec Ideal S100352x256 .f32 :=
  fun i => rowArr V c ⟨(i 0).val, idx2_lt0 i⟩ ⟨(i 1).val, idx2_lt1 i⟩

/-- Row p of point t's staged block is row 2048 t + p of the assembled array. -/
theorem rowOf_blk (c : Dev nD) (t : Fin cfg1.N) (p : Fin 2048) (cc : Fin 256) (r : Fin 100352)
    (hr : r.val = t.val * 2048 + p.val) :
    rowOf (iblk1 V c 0 t) (iblk1 V c 1 t) (iblk1 V c 2 t) (iblk1 V c 3 t) p cc = rowArr V c r cc := by
  have h0 : (fun q => (iblk1 V c 0 t : Vec Ideal S2048x128 .f32) (ix2 p q)) = fun q => bHo V c (ix2 r q) :=
    funext fun q => blk0_apply V c t p q r hr
  have h3 : (fun g q => (iblk1 V c 3 t : Vec Ideal S256x128 .f32) (ix2 g q)) = fun g q => bPool V c (ix2 g q) :=
    funext fun g => funext fun q => blk3_apply V c t g q
  unfold rowOf rowArr
  rw [h0, h3, blk1_apply V c t p r hr, blk2_apply V c t p r hr]

/-- What point t writes back is block t of the assembled array. -/
theorem flushed_eq (c : Dev nD) (t : Fin cfg1.N) :
    (dat1 (F := Ideal) V c).flushed 4 t = ((cfg1.win 4).blk t).view.read (Elt Ideal) (arrG V c) := by
  show (cfg1.win 4).cut (grid1.coords t) ((dat1 (F := Ideal) V c).after 4 t) = _
  rw [after1_4]
  obtain ⟨-, -, -, -, -, -, -, -, e0, e1⟩ := idx_facts t
  funext j
  show out1_4 (iblk1 V c 0 t) (iblk1 V c 1 t) (iblk1 V c 2 t) (iblk1 V c 3 t) j = arrG V c (((cfg1.win 4).blk t).view.emb j)
  refine (out_at _ _ _ _ j).trans ?_
  unfold arrG
  refine (rowOf_blk V c t _ _ ⟨(((cfg1.win 4).blk t).view.emb j 0).val, (((cfg1.win 4).blk t).view.emb j 0).isLt⟩ ?_).trans ?_
  · show win1_4.index t (0 : Fin 2) * 2048 + 1 * (j 0).val = t.val * 2048 + (j 0).val; omega
  · have e : (⟨(j 1).val, idx2_lt1 j⟩ : Fin 256) = ⟨(((cfg1.win 4).blk t).view.emb j 1).val, idx2_lt1 _⟩ :=
      Fin.ext (by show (j 1).val = win1_4.index t (1 : Fin 2) * 256 + 1 * (j 1).val; omega)
    rw [e]

/-- An index of the array is in point t's block iff each coordinate is in the block's range on its axis. -/
theorem mem_blk (t : Fin cfg1.N) (i : S100352x256.Idx) :
    i ∈ ((cfg1.win 4).blk t).view.set ↔ ∀ a : Fin 2, win1_4.index t a * S2048x256.size a ≤ (i a).val ∧ (i a).val < win1_4.index t a * S2048x256.size a + S2048x256.size a := by
  show i ∈ ((View.whole main_v69).slice (win1_4.rect t)).set ↔ _
  rw [View.set_slice_whole, Rect.mem_set_unit]
  exact Iff.rfl

/-- Row r is covered by point r / 2048. -/
theorem covered (i : S100352x256.Idx) :
    ∃ t : Fin cfg1.N, (cfg1.win 4).flush t = true ∧ i ∈ ((cfg1.win 4).blk t).view.set := by
  have hi0 : (i 0).val < 100352 := (i 0).isLt
  have hi1 : (i 1).val < 256 := (i 1).isLt
  obtain ⟨t, ht⟩ : ∃ t : Fin cfg1.N, t.val = (i 0).val / 2048 :=
    ⟨⟨(i 0).val / 2048, by rw [show cfg1.N = 49 from N_1]; omega⟩, rfl⟩
  obtain ⟨-, -, -, -, -, -, -, -, e0, e1⟩ := idx_facts t
  refine ⟨t, flush1_4 t, ?_⟩
  rw [mem_blk]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 256 ≤ (i 1).val ∧ (i 1).val < win1_4.index t (1 : Fin 2) * 256 + 256; omega

/-- The array after the region is the assembled array. -/
theorem arr4_eq (c : Dev nD) : (dat1 (F := Ideal) V c).arrAt 4 cfg1.N = arrG V c :=
  (dat1 (F := Ideal) V c).arrAt_eq_of_cover 4 (arrG V c) (fun t _ => flushed_eq V c t) covered

/-- The assembled array after the region, entry (r, cc). -/
theorem arr4 (c : Dev nD) (r : Fin 100352) (cc : Fin 256) :
    ((dat1 (F := Ideal) V c).arrAt 4 cfg1.N : Vec Ideal S100352x256 .f32) (ix2 r cc)
      = Cert.Spec.outRow (fun q => bHo V c (ix2 r q)) (bBc V c (ix2 r 0)) (bPc V c (ix2 r 0))
          (fun g q => bPool V c (ix2 g q)) cc := by
  rw [arr4_eq V c]
  rfl

end Cert.KernelIdeal.R1

end
-- ==== Proof.HostMidB.lean ====
/-
  Between the two regions, the padding: the kernel's program pads the reordered node features with 352 zero rows,
  the reordered labels with -1 and the reordered kinds with 0, lays labels and kinds out as columns of 100352 rows,
  and hands the pooled means to the second region as they are.
-/
import proofs.«411169_j26723286516090_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.PureOps.Ideal.Laws

set_option maxRecDepth 16384

noncomputable section

open scoped BigOperators

namespace Cert.KernelIdeal.HostP

open Cert.KernelIdeal Cert.KernelIdeal.Gen Idealize.ShloMosaic Idealize.ShloMosaic.ValueIdx Idealize.ShloMosaic.TcCoe Idealize.SL.Sem
open Idealize.ShloMosaic.Pipeline (Dat Cfg Window)

/-! ## A padded array read at an entry -/

/-- 100000 rows of 128 followed by 352 rows of the converted integer 0: row r is the operand's row r while
    r < 100000, and 0 after. -/
private theorem pad_rows_apply (x : Vec Ideal S100000x128 .f32) (r : Fin 100352) (q : Fin 128) :
    pad S100352x128 ![0, 0] ![352, 0] ![0, 0] x (sitofp (F := Ideal) .f32 (constantI S_ 32 0#32) : FVec Ideal S_ .f32)
        Facts₀.pads_S100000x128_S100352x128_03520_000 Facts₀.h_S_ (ix2 r q)
      = if h : r.val < 100000 then x (ix2 ⟨r.val, h⟩ q) else 0 := by
  by_cases h : r.val < 100000
  · rw [dif_pos h]
    refine pad_apply_of_inside _ _ _ x _ _ _ (ix2 r q) (ix2 (⟨r.val, h⟩ : Fin 100000) q) fun a => ?_
    match a with
    | ⟨0, _⟩ => show r.val = 0 + r.val * (0 + 1); omega
    | ⟨1, _⟩ => show q.val = 0 + q.val * (0 + 1); omega
  · rw [dif_neg h]
    refine (pad_apply_of_not_inside _ _ _ x _ _ _ (ix2 r q) (0 : Fin 2) fun hin => ?_).trans ?_
    · have h3 : (r.val - 0) / (0 + 1) < 100000 := hin.2.2
      omega
    · exact sitofp_zero (φ := .f32)

/-- A vector of 100000 words followed by 352 copies of the word v, laid out as a column: row r is the operand's
    entry r while r < 100000, and v after. -/
private theorem pad_col_apply (x : Vec Ideal S100000 .i32) (v : BitVec 32) (r : Fin 100352) :
    shapeCast S100352x1 (pad S100352 ![0] ![352] ![0] x (constantI S_ 32 v) Facts₀.pads_S100000_S100352_03520 Facts₀.h_S_)
        Facts₀.shapeCasts_S100352_S100352x1 (ix2 r 0)
      = if h : r.val < 100000 then x (ix1 ⟨r.val, h⟩) else v := by
  rw [shapeCast_apply _ Facts₀.shapeCasts_S100352_S100352x1 (ix2 r 0) (ix1 r) (by
    rw [Shape.rowMajor_val_one, Shape.rowMajor_val_two]
    show r.val = r.val * 1 + 0
    omega)]
  by_cases h : r.val < 100000
  · rw [dif_pos h]
    refine pad_apply_of_inside _ _ _ x _ _ _ (ix1 r) (ix1 (⟨r.val, h⟩ : Fin 100000)) fun a => ?_
    have ha : a = 0 := Subsingleton.elim _ _
    subst ha
    show r.val = 0 + r.val * (0 + 1)
    omega
  · rw [dif_neg h]
    refine (pad_apply_of_not_inside _ _ _ x _ _ _ (ix1 r) (0 : Fin 1) fun hin => ?_).trans rfl
    have h3 : (r.val - 0) / (0 + 1) < 100000 := hin.2.2
    omega

/-! ## The last stretches of host operations before the second region, from any contents -/

/-- The padded features after the last six stretches: the pad of the reordered features by the converted constant. -/
private theorem v64_of (X : Valuation τ sig (Elt Ideal)) :
    (StableHlo.after (hostOps1_10 (F := Ideal)) (StableHlo.after hostOps1_9 (StableHlo.after hostOps1_8 (StableHlo.after hostOps1_7
        (StableHlo.after hostOps1_6 (StableHlo.after hostOps1_5 X))))) (Proc.devRef .tc main_v64) : Vec Ideal S100352x128 .f32)
      = pad S100352x128 ![0, 0] ![352, 0] ![0, 0] (X (Proc.devRef .tc main_v49) : Vec Ideal S100000x128 .f32)
          (sitofp (F := Ideal) .f32 (X (Proc.devRef .tc main_c_18) : IVec S_ 32) : FVec Ideal S_ .f32)
          Facts₀.pads_S100000x128_S100352x128_03520_000 Facts₀.h_S_ := by
  after_results
  rfl

/-- The reordered features are not written by the last six stretches. -/
private theorem v49_of (X : Valuation τ sig (Elt Ideal)) :
    StableHlo.after (hostOps1_10 (F := Ideal)) (StableHlo.after hostOps1_9 (StableHlo.after hostOps1_8 (StableHlo.after hostOps1_7
        (StableHlo.after hostOps1_6 (StableHlo.after hostOps1_5 X))))) (Proc.devRef .tc main_v49) = X (Proc.devRef .tc main_v49) := by
  after_results

/-- The constant the feature padding converts is the integer 0. -/
private theorem c18_of (X : Valuation τ sig (Elt Ideal)) :
    (StableHlo.after (hostOps1_4 (F := Ideal)) X (Proc.devRef .tc main_c_18) : IVec S_ 32) = constantI S_ 32 0#32 := by
  after_results

/-- The label column after the last five stretches: the labels padded by -1, as a column. -/
private theorem v66_of (X : Valuation τ sig (Elt Ideal)) :
    (StableHlo.after (hostOps1_10 (F := Ideal)) (StableHlo.after hostOps1_9 (StableHlo.after hostOps1_8 (StableHlo.after hostOps1_7
        (StableHlo.after hostOps1_6 X)))) (Proc.devRef .tc main_v66) : Vec Ideal S100352x1 .i32)
      = shapeCast S100352x1 (pad S100352 ![0] ![352] ![0] (X (Proc.devRef .tc main_v56) : Vec Ideal S100000 .i32)
          (constantI S_ 32 4294967295#32) Facts₀.pads_S100000_S100352_03520 Facts₀.h_S_) Facts₀.shapeCasts_S100352_S100352x1 := by
  after_results
  rfl

/-- The reordered labels are not written by the last five stretches. -/
private theorem v56_of (X : Valuation τ sig (Elt Ideal)) :
    StableHlo.after (hostOps1_10 (F := Ideal)) (StableHlo.after hostOps1_9 (StableHlo.after hostOps1_8 (StableHlo.after hostOps1_7
        (StableHlo.after hostOps1_6 X)))) (Proc.devRef .tc main_v56) = X (Proc.devRef .tc main_v56) := by
  after_results

/-- The kind column after the last three stretches: the kinds padded by 0, as a column. -/
private theorem v68_of (X : Valuation τ sig (Elt Ideal)) :
    (StableHlo.after (hostOps1_10 (F := Ideal)) (StableHlo.after hostOps1_9 (StableHlo.after hostOps1_8 X))
        (Proc.devRef .tc main_v68) : Vec Ideal S100352x1 .i32)
      = shapeCast S100352x1 (pad S100352 ![0] ![352] ![0] (X (Proc.devRef .tc main_v63) : Vec Ideal S100000 .i32)
          (constantI S_ 32 0#32) Facts₀.pads_S100000_S100352_03520 Facts₀.h_S_) Facts₀.shapeCasts_S100352_S100352x1 := by
  after_results
  rfl

/-- The reordered kinds are not written by the last three stretches. -/
private theorem v63_of (X : Valuation τ sig (Elt Ideal)) :
    StableHlo.after (hostOps1_10 (F := Ideal)) (StableHlo.after hostOps1_9 (StableHlo.after hostOps1_8 X))
        (Proc.devRef .tc main_v63) = X (Proc.devRef .tc main_v63) := by
  after_results

variable (m : (ℓ : Loc nD τ sig) → Buf (Elt Ideal) ℓ) (ρ : Dev nD → PrngReg)

/-- The reordered features, labels and kinds, and the node features they are taken from, each at its literal type. -/
abbrev kHo (c : Dev nD) : Vec Ideal S100000x128 .f32 := W21 m ρ c (Proc.devRef .tc main_v49)
abbrev kBo (c : Dev nD) : Vec Ideal S100000 .i32 := W21 m ρ c (Proc.devRef .tc main_v56)
abbrev kPo (c : Dev nD) : Vec Ideal S100000 .i32 := W21 m ρ c (Proc.devRef .tc main_v63)

/-- The second region's feature array: the reordered features, then zero rows. -/
theorem mid_Ho (c : Dev nD) (r : Fin 100352) (q : Fin 128) :
    (V21 m ρ c (Pipeline.arrRef spec1 0) : Vec Ideal S100352x128 .f32) (ix2 r q)
      = if h : r.val < 100000 then kHo m ρ c (ix2 ⟨r.val, h⟩ q) else 0 := by
  have e49 : kHo m ρ c = W15 m ρ c (Proc.devRef .tc main_v49) := v49_of (W15 m ρ c)
  have e18 : (W15 m ρ c (Proc.devRef .tc main_c_18) : IVec S_ 32) = constantI S_ 32 0#32 := c18_of (W14 m ρ c)
  rw [e49]
  refine (congrFun (v64_of (W15 m ρ c)) (ix2 r q)).trans ?_
  rw [e18]
  exact pad_rows_apply _ r q

/-- The second region's label column: the reordered labels, then -1. -/
theorem mid_Bc (c : Dev nD) (r : Fin 100352) :
    (V21 m ρ c (Pipeline.arrRef spec1 1) : Vec Ideal S100352x1 .i32) (ix2 r 0)
      = if h : r.val < 100000 then kBo m ρ c (ix1 ⟨r.val, h⟩) else 4294967295#32 := by
  have e56 : kBo m ρ c = W16 m ρ c (Proc.devRef .tc main_v56) := v56_of (W16 m ρ c)
  rw [e56]
  refine (congrFun (v66_of (W16 m ρ c)) (ix2 r 0)).trans ?_
  exact pad_col_apply _ _ r

/-- The second region's kind column: the reordered kinds, then 0. -/
theorem mid_Pc (c : Dev nD) (r : Fin 100352) :
    (V21 m ρ c (Pipeline.arrRef spec1 2) : Vec Ideal S100352x1 .i32) (ix2 r 0)
      = if h : r.val < 100000 then kPo m ρ c (ix1 ⟨r.val, h⟩) else 0#32 := by
  have e63 : kPo m ρ c = W18 m ρ c (Proc.devRef .tc main_v63) := v63_of (W18 m ρ c)
  rw [e63]
  refine (congrFun (v68_of (W18 m ρ c)) (ix2 r 0)).trans ?_
  exact pad_col_apply _ _ r

/-- The second region's pooled table is the pooled means. -/
theorem mid_Pool (c : Dev nD) :
    (V21 m ρ c (Pipeline.arrRef spec1 3) : Vec Ideal S256x128 .f32) = W21 m ρ c (Proc.devRef .tc main_v34) := by
  rfl

end Cert.KernelIdeal.HostP

end
-- ==== Proof.Sums.lean ====
/-
  Regrouping a sum over 100352 padded rows.

  The padded rows split into 49 tiles of 2048 consecutive rows, so a sum over all of them in a commutative monoid is
  the sum over the tiles of the sums inside each tile; and when the summand vanishes on the 352 padding rows the sum
  over all padded rows is the sum over the first 100000.  Likewise 12544 = 49 * 256 block rows.
-/
import proofs.«411169_j26723286516090_2_alg».proof.Proof.Spec

noncomputable section

open scoped BigOperators

namespace Cert.Sums

open Cert.Spec

/-- Rows are numbered tile by tile: row r is row r % 2048 of tile r / 2048, and (t, j) ↦ 2048 t + j is a bijection
    from the pairs (tile, row inside the tile) onto the padded rows. -/
private def tileEquiv : Fin 49 × Fin 2048 ≃ Fin 100352 where
  toFun p := tileRow p.1 p.2
  invFun r := (⟨r.val / 2048, by have := r.isLt; omega⟩, ⟨r.val % 2048, by omega⟩)
  left_inv p := by
    obtain ⟨t, j⟩ := p
    have hj := j.isLt
    refine Prod.ext (Fin.ext ?_) (Fin.ext ?_)
    · show (t.val * 2048 + j.val) / 2048 = t.val
      omega
    · show (t.val * 2048 + j.val) % 2048 = j.val
      omega
  right_inv r := by
    apply Fin.ext
    show r.val / 2048 * 2048 + r.val % 2048 = r.val
    omega

/-- The sum over the tiles of the sums inside each tile is the sum over all padded rows. -/
theorem sum_tiles {M : Type} [AddCommMonoid M] (f : Fin 100352 → M) :
    (∑ t : Fin 49, ∑ j : Fin 2048, f (tileRow t j)) = ∑ r : Fin 100352, f r := by
  rw [← Fintype.sum_prod_type' (fun t j => f (tileRow t j))]
  exact Equiv.sum_comp tileEquiv f

/-- A summand that vanishes on the padding rows: only the first 100000 rows count. -/
theorem sum_pad {M : Type} [AddCommMonoid M] (f : Fin 100352 → M)
    (h0 : ∀ r : Fin 100352, 100000 ≤ r.val → f r = 0) :
    (∑ r : Fin 100352, f r) = ∑ r : Fin 100000, f ⟨r.val, by omega⟩ := by
  -- 100352 = 100000 + 352: the first 100000 rows, then the padding rows, on which f is 0
  have e : (∑ r : Fin 100352, f r) = ∑ r : Fin (100000 + 352), f r := rfl
  have hz : (∑ i : Fin 352, f (Fin.natAdd 100000 i)) = 0 :=
    Finset.sum_eq_zero (fun i _ => h0 (Fin.natAdd 100000 i) (Nat.le_add_right _ _))
  rw [e, Fin.sum_univ_add, hz, add_zero]
  rfl

/-- Both together. -/
theorem sum_tiles_pad {M : Type} [AddCommMonoid M] (f : Fin 100352 → M)
    (h0 : ∀ r : Fin 100352, 100000 ≤ r.val → f r = 0) :
    (∑ t : Fin 49, ∑ j : Fin 2048, f (tileRow t j)) = ∑ r : Fin 100000, f ⟨r.val, by omega⟩ :=
  (sum_tiles f).trans (sum_pad f h0)

end Cert.Sums

end
-- ==== Proof.Bridge.lean ====
/-
  The kernel's node features, pooled sums, counts and pooled means are the reference's.

  Features: on each of the first 100000 rows the first region applies the two-layer network to the row of the padded
  features plus the padded aggregate, which on those rows are the features and the aggregate themselves, and the
  aggregate is the reference's.  Pooled sums: the 49 tiles' shares add up to a sum over all 100352 padded rows; the 352
  padding rows carry the label -1, which is no graph number, so they contribute nothing; on the other rows "the label is
  the 32-bit word of g and the kind is 0" is the reference's "the label read as a signed integer is g" times its 0/1
  value "kind is 0".  Counts likewise.  The pooled means are the same function of sums and counts on both sides.
-/
import proofs.«411169_j26723286516090_2_alg».proof.Proof.R0Arr
import proofs.«411169_j26723286516090_2_alg».proof.Proof.HostPre
import proofs.«411169_j26723286516090_2_alg».proof.Proof.HostMidA
import proofs.«411169_j26723286516090_2_alg».proof.Proof.HostMidC
import proofs.«411169_j26723286516090_2_alg».proof.Proof.RefVal
import proofs.«411169_j26723286516090_2_alg».proof.Proof.RefOut
import proofs.«411169_j26723286516090_2_alg».proof.Proof.R1
import proofs.«411169_j26723286516090_2_alg».proof.Proof.HostMidB
import proofs.«411169_j26723286516090_2_alg».proof.Proof.PreRange
import proofs.«411169_j26723286516090_2_alg».proof.Proof.Sums
import proofs.«411169_j26723286516090_2_alg».proof.Proof.Spec

set_option maxRecDepth 16384

noncomputable section

open scoped BigOperators

namespace Cert.Bridge

open Cert.KernelIdeal Cert.KernelIdeal.Gen Idealize.ShloMosaic Idealize.ShloMosaic.ValueIdx Idealize.ShloMosaic.TcCoe Idealize.SL.Sem
open Cert.KernelIdeal.HostK (gX gEI gEA gB gP gW1 gB1 gW2 gB2 gAgg)
open Cert.Spec

variable (m : (ℓ : Loc nD τ sig) → Buf (Elt Ideal) ℓ) (ρ : Dev nD → PrngReg)

/-- The reference's node features, pooled sums, counts and pooled means of the kernel's launch contents. -/
abbrev rH (c : Dev nD) : FVec Ideal Cert.ReferenceIdeal.S100000x128 .f32 :=
  Cert.ReferenceIdeal.ReadP.val_main_v24 (F := Ideal) (gX m c) (gEI m c) (gEA m c) (gW1 m c) (gB1 m c) (gW2 m c) (gB2 m c)
abbrev rCs (c : Dev nD) : FVec Ideal Cert.ReferenceIdeal.S256x128 .f32 :=
  Cert.ReferenceIdeal.ReadP.val_main_v33 (F := Ideal) (gX m c) (gEI m c) (gEA m c) (gB m c) (gP m c) (gW1 m c) (gB1 m c) (gW2 m c) (gB2 m c)
abbrev rCc (c : Dev nD) : FVec Ideal Cert.ReferenceIdeal.S256x1 .f32 :=
  Cert.ReferenceIdeal.ReadP.val_main_v36 (F := Ideal) (gB m c) (gP m c)
abbrev rPool (c : Dev nD) : FVec Ideal Cert.ReferenceIdeal.S256x128 .f32 :=
  Cert.ReferenceIdeal.ReadP.val_main_v43 (F := Ideal) (gX m c) (gEI m c) (gEA m c) (gB m c) (gP m c) (gW1 m c) (gB1 m c) (gW2 m c) (gB2 m c)

/-- A graph number below 256, as a 32-bit word, equals a label word exactly when the label reads, signed, as that number. -/
theorem ofNat_eq_iff_toInt (g : Fin 256) (b : BitVec 32) : BitVec.ofNat 32 g.val = b ↔ b.toInt = (g.val : Int) := by
  have hg := g.isLt
  constructor
  · intro e
    subst e
    rw [BitVec.toInt_eq_toNat_of_lt (by rw [BitVec.toNat_ofNat]; omega), BitVec.toNat_ofNat]
    omega
  · intro e
    have h1 : b.toNat = g.val := by
      have := BitVec.toInt_eq_toNat_cond (x := b)
      split at this <;> omega
    apply BitVec.eq_of_toNat_eq
    rw [BitVec.toNat_ofNat, h1]
    omega

/-- The padding label -1 is no graph number. -/
theorem sel_pad (g : Fin 256) (p : BitVec 32) : sel g 4294967295#32 p = 0 := by
  unfold sel
  apply ind_false
  rintro ⟨e, -⟩
  have := congrArg BitVec.toNat e
  rw [BitVec.toNat_ofNat] at this
  have hg := g.isLt
  simp at this
  omega

/-- The kernel's indicator times a value is the reference's conditional product. -/
theorem sel_mul (g : Fin 256) (b p : BitVec 32) (v : EReal) :
    sel g b p * v = if b.toInt = (g.val : Int) then v * ind (p = 0#32) else 0 := by
  unfold sel
  by_cases hb : b.toInt = (g.val : Int)
  · rw [if_pos hb]
    by_cases hp : p = 0#32
    · rw [ind_true ⟨(ofNat_eq_iff_toInt g b).mpr hb, hp⟩, ind_true hp, one_mul, mul_one]
    · rw [ind_false (fun h => hp h.2), ind_false hp, zero_mul, mul_zero]
  · rw [if_neg hb, ind_false (fun h => hb ((ofNat_eq_iff_toInt g b).mp h.1)), zero_mul]

/-- The same for the count. -/
theorem sel_eq (g : Fin 256) (b p : BitVec 32) :
    sel g b p = if b.toInt = (g.val : Int) then ind (p = 0#32) else 0 := by
  have := sel_mul g b p 1
  rw [mul_one] at this
  rw [this]
  split
  · rw [one_mul]
  · rfl

/-- Equal arguments give equal network outputs. -/
theorem mlpRow_congr {z z' : Fin 128 → EReal} {A A' : FM 128 128} {b b' : Fin 128 → EReal} {B B' : FM 128 128}
    {e e' : Fin 128 → EReal} (hz : z = z') (hA : A = A') (hb : b = b') (hB : B = B') (he : e = e') (d : Fin 128) :
    mlpRow z A b B e d = mlpRow z' A' b' B' e' d := by
  subst hz hA hb hB he; rfl

/-- A label word that reads, signed, inside [0, 256) is below 256 unsigned. -/
theorem toNat_lt_of_toInt (b : BitVec 32) (h0 : 0 ≤ b.toInt) (h1 : b.toInt < 256) : b.toNat < 256 := by
  have := BitVec.toInt_eq_toNat_cond (x := b)
  split at this <;> omega

open Cert.KernelIdeal.R0 in
/-- On the first 100000 rows the first region's network output is the reference's node features. -/
theorem net_eq (c : Dev nD) (r : Fin 100000) (d : Fin 128) :
    netP (V9 m ρ) c ⟨r.val, by omega⟩ d = rH m c (ix2 r d) := by
  have hr : r.val < 100000 := r.isLt
  refine Eq.trans ?_ (Cert.ReferenceIdeal.RefVal.ref_h (gX m c) (gEI m c) (gEA m c) (gW1 m c) (gB1 m c) (gW2 m c) (gB2 m c) r d).symm
  unfold netP Cert.Spec.mlp
  refine mlpRow_congr (funext fun j => ?_) (HostK.pre_W1 m ρ c) (funext fun k => HostK.pre_B1 m ρ c k)
    (HostK.pre_W2 m ρ c) (funext fun k => HostK.pre_B2 m ρ c k) d
  have h1 := HostK.pre_X m ρ c ⟨r.val, by omega⟩ j
  have h2 := HostK.pre_A m ρ c ⟨r.val, by omega⟩ j
  rw [dif_pos hr] at h1 h2
  have h3 := congrFun (HostC.agg_eq m ρ c) (ix2 r j)
  exact congrArg₂ (· + ·) h1 (h2.trans h3)

/-- The kernel's node features are the reference's. -/
theorem h_eq (c : Dev nD) : HostC.kH m ρ c = rH m c := by
  funext i
  rw [eq_ix2 i]
  refine (HostS.mid_h m ρ c (i 0) (i 1)).trans ?_
  refine (R0.arr8 (V9 m ρ) c ⟨(i 0).val, by have := idx2_lt0 i; omega⟩ (i 1)).trans ?_
  exact net_eq m ρ c (i 0) (i 1)

open Cert.KernelIdeal.R0 in
/-- The kernel's pooled sums are the reference's. -/
theorem cs_eq (c : Dev nD) (g : Fin 256) (d : Fin 128) : HostS.kCs m ρ c (ix2 g d) = rCs m c (ix2 g d) := by
  refine (HostS.mid_cs m ρ c g d).trans ?_
  have h9 : (∑ t : Fin 49, (HostS.csP m ρ c (ix2 (blockRow t g) d) : EReal))
      = ∑ t : Fin 49, csumTile (fun r => aBt (V9 m ρ) c (ix2 0 r)) (fun r => aPm (V9 m ρ) c (ix2 0 r)) (netP (V9 m ρ) c) t g d :=
    Finset.sum_congr rfl fun t _ => R0.arr9 (V9 m ρ) c t g d
  refine h9.trans ?_
  unfold csumTile
  refine (Cert.Sums.sum_tiles_pad
    (fun r => sel g (aBt (V9 m ρ) c (ix2 0 r)) (aPm (V9 m ρ) c (ix2 0 r)) * netP (V9 m ρ) c r d) ?_).trans ?_
  · intro r hr
    have hb := HostK.pre_Bt m ρ c r
    rw [dif_neg (by omega)] at hb
    show sel g (aBt (V9 m ρ) c (ix2 0 r)) _ * _ = 0
    rw [show aBt (V9 m ρ) c (ix2 0 r) = 4294967295#32 from hb, sel_pad, zero_mul]
  · refine Eq.trans ?_ (congrFun (Cert.ReferenceIdeal.Shared.val_main_v33_eq (F := Ideal) (gX m c) (gEI m c) (gEA m c) (gB m c) (gP m c)
      (gW1 m c) (gB1 m c) (gW2 m c) (gB2 m c)) (ix2 g d)).symm
    refine Eq.trans ?_ (Cert.ReferenceIdeal.RefVal.ref_cs (gB m c) (gP m c) (rH m c) g d).symm
    refine Finset.sum_congr rfl fun r _ => ?_
    have hb := HostK.pre_Bt m ρ c ⟨r.val, by omega⟩
    have hp := HostK.pre_Pm m ρ c ⟨r.val, by omega⟩
    rw [dif_pos r.isLt] at hb hp
    show sel g (aBt (V9 m ρ) c (ix2 0 ⟨r.val, _⟩)) (aPm (V9 m ρ) c (ix2 0 ⟨r.val, _⟩)) * netP (V9 m ρ) c ⟨r.val, _⟩ d = _
    rw [show aBt (V9 m ρ) c (ix2 0 ⟨r.val, _⟩) = gB m c (ix1 r) from hb,
      show aPm (V9 m ρ) c (ix2 0 ⟨r.val, _⟩) = gP m c (ix1 r) from hp, net_eq m ρ c r d, sel_mul]

open Cert.KernelIdeal.R0 in
/-- The kernel's counts are the reference's. -/
theorem cc_eq (c : Dev nD) (g : Fin 256) : HostS.kCc m ρ c (ix2 g 0) = rCc m c (ix2 g 0) := by
  refine (HostS.mid_cc m ρ c g).trans ?_
  have h10 : (∑ t : Fin 49, (HostS.ccP m ρ c (ix2 (blockRow t g) 0) : EReal))
      = ∑ t : Fin 49, ccntTile (fun r => aBt (V9 m ρ) c (ix2 0 r)) (fun r => aPm (V9 m ρ) c (ix2 0 r)) t g :=
    Finset.sum_congr rfl fun t _ => R0.arr10 (V9 m ρ) c t g
  refine h10.trans ?_
  unfold ccntTile
  refine (Cert.Sums.sum_tiles_pad
    (fun r => sel g (aBt (V9 m ρ) c (ix2 0 r)) (aPm (V9 m ρ) c (ix2 0 r))) ?_).trans ?_
  · intro r hr
    have hb := HostK.pre_Bt m ρ c r
    rw [dif_neg (by omega)] at hb
    show sel g (aBt (V9 m ρ) c (ix2 0 r)) _ = 0
    rw [show aBt (V9 m ρ) c (ix2 0 r) = 4294967295#32 from hb, sel_pad]
  · refine Eq.trans ?_ (Cert.ReferenceIdeal.RefVal.ref_cc (gB m c) (gP m c) g).symm
    refine Finset.sum_congr rfl fun r _ => ?_
    have hb := HostK.pre_Bt m ρ c ⟨r.val, by omega⟩
    have hp := HostK.pre_Pm m ρ c ⟨r.val, by omega⟩
    rw [dif_pos r.isLt] at hb hp
    show sel g (aBt (V9 m ρ) c (ix2 0 ⟨r.val, _⟩)) (aPm (V9 m ρ) c (ix2 0 ⟨r.val, _⟩)) = _
    rw [show aBt (V9 m ρ) c (ix2 0 ⟨r.val, _⟩) = gB m c (ix1 r) from hb,
      show aPm (V9 m ρ) c (ix2 0 ⟨r.val, _⟩) = gP m c (ix1 r) from hp, sel_eq]

/-- The kernel's pooled means are the reference's. -/
theorem pool_eq (c : Dev nD) : HostC.kPool m ρ c = rPool m c := by
  refine (HostC.mid_pool m ρ c).trans ?_
  refine Eq.trans ?_ (Cert.ReferenceIdeal.Shared.val_main_v43_eq (F := Ideal) (gX m c) (gEI m c) (gEA m c) (gB m c) (gP m c)
    (gW1 m c) (gB1 m c) (gW2 m c) (gB2 m c)).symm
  have e1 : HostC.kCs m ρ c = rCs m c := by
    funext i; rw [eq_ix2 i]; exact cs_eq m ρ c (i 0) (i 1)
  have e2 : HostC.kCc m ρ c = rCc m c := by
    funext i; rw [eq_ix2 i]
    have h1 : i 1 = (0 : Fin 1) := Fin.ext (by have := idx2_lt1 i; show (i 1).val = 0; omega)
    rw [h1]; exact cc_eq m ρ c (i 0)
  rw [e1, e2]

/-- The result of the kernel's program is the reference's result of the same inputs, when every label is a graph number. -/
theorem out_eq (c : Dev nD)
    (hrange : ∀ i : Fin 100000, 0 ≤ (gB m c (ix1 i)).toInt ∧ (gB m c (ix1 i)).toInt < 256) :
    (W23 m ρ c (Proc.devRef .tc main_v70) : Vec Ideal S100000x256 .f32)
      = Cert.ReferenceIdeal.ReadP.val_main_v81 (F := Ideal) (gX m c) (gEI m c) (gEA m c) (gB m c) (gP m c)
          (gW1 m c) (gB1 m c) (gW2 m c) (gB2 m c) := by
  funext i
  obtain ⟨r, cc, rfl⟩ : ∃ (r : Fin 100000) (cc : Fin 256), i = ix2 r cc := ⟨i 0, i 1, eq_ix2 i⟩
  have hrlt : r.val < 100000 := r.isLt
  -- the reordered label of row r is one of the labels, so it is a graph number
  obtain ⟨i0, hi0⟩ := Cert.ReferenceIdeal.RefOut.ref_bo_mem (gB m c) (gP m c) r
  have hb : Cert.ReferenceIdeal.ReadP.val_main_v62 (F := Ideal) (gB m c) (gP m c) (ix1 r) = gB m c (ix1 (i0 0)) :=
    hi0.trans (congrArg (gB m c) (eq_ix1 i0))
  have hlab : 0 ≤ (Cert.ReferenceIdeal.ReadP.val_main_v62 (F := Ideal) (gB m c) (gP m c) (ix1 r)).toInt
      ∧ (Cert.ReferenceIdeal.ReadP.val_main_v62 (F := Ideal) (gB m c) (gP m c) (ix1 r)).toInt < 256 := by
    rw [hb]; exact hrange (i0 0)
  have hn := toNat_lt_of_toInt _ hlab.1 hlab.2
  -- the kernel's side
  refine (HostK.post_out m ρ c r cc).trans ?_
  refine (R1.arr4 (V21 m ρ) c ⟨r.val, by omega⟩ cc).trans ?_
  -- the reference's side
  refine Eq.trans ?_ (congrFun (Cert.ReferenceIdeal.Shared.val_main_v81_eq' (F := Ideal) (gX m c) (gEI m c) (gEA m c) (gB m c) (gP m c)
    (gW1 m c) (gB1 m c) (gW2 m c) (gB2 m c)) (ix2 r cc)).symm
  refine Eq.trans ?_ (Cert.ReferenceIdeal.RefOut.ref_out (gB m c) (gP m c) (rH m c) (rPool m c) r cc hlab.1 hn).symm
  -- the arrays the second region finds, on row r
  have e_ho : ∀ q : Fin 128, R1.bHo (V21 m ρ) c (ix2 ⟨r.val, by omega⟩ q)
      = Host.gather Cert.ReferenceIdeal.gather_S100000x128_S100000x1_S100000x128_1_0_n_n_0_1_1128 (rH m c)
          (Cert.ReferenceIdeal.ReadP.val_main_v54 (F := Ideal) (gB m c) (gP m c)) (ix2 r q) := by
    intro q
    have h1 := HostP.mid_Ho m ρ c ⟨r.val, by omega⟩ q
    rw [dif_pos hrlt] at h1
    refine h1.trans ?_
    have h2 := congrFun (HostC.mid_ho m ρ c) (ix2 r q)
    rw [h_eq m ρ c] at h2
    exact h2
  have e_b : R1.bBc (V21 m ρ) c (ix2 ⟨r.val, by omega⟩ 0)
      = Cert.ReferenceIdeal.ReadP.val_main_v62 (F := Ideal) (gB m c) (gP m c) (ix1 r) := by
    have h1 := HostP.mid_Bc m ρ c ⟨r.val, by omega⟩
    rw [dif_pos hrlt] at h1
    exact h1.trans (congrFun (HostC.mid_bo m ρ c) (ix1 r))
  have e_p : R1.bPc (V21 m ρ) c (ix2 ⟨r.val, by omega⟩ 0)
      = Cert.ReferenceIdeal.ReadP.val_main_v76 (F := Ideal) (gB m c) (gP m c) (ix1 r) := by
    have h1 := HostP.mid_Pc m ρ c ⟨r.val, by omega⟩
    rw [dif_pos hrlt] at h1
    exact h1.trans (congrFun (HostC.mid_po m ρ c) (ix1 r))
  have e_pool : ∀ (g : Fin 256) (q : Fin 128), R1.bPool (V21 m ρ) c (ix2 g q) = rPool m c (ix2 g q) := by
    intro g q
    exact (congrFun (HostP.mid_Pool m ρ c) (ix2 g q)).trans (congrFun (pool_eq m ρ c) (ix2 g q))
  rw [e_b, e_p]
  simp only [e_ho, e_pool]
  unfold outRow
  by_cases hp : Cert.ReferenceIdeal.ReadP.val_main_v76 (F := Ideal) (gB m c) (gP m c) (ix1 r) = 1#32
  · rw [if_pos hp, ind_true hp]
    by_cases hc : cc.val < 128
    · rw [dif_pos hc, dif_pos hc, mul_one]
    · rw [dif_neg hc, dif_neg hc, mul_one,
        sum_ind_pick _ hn (fun g => rPool m c (ix2 g ⟨cc.val - 128, by have := cc.isLt; omega⟩))]
  · rw [if_neg hp, ind_false hp]
    by_cases hc : cc.val < 128
    · rw [dif_pos hc, mul_zero]
    · rw [dif_neg hc, mul_zero]

end Cert.Bridge

end
-- ==== Proof.lean ====
/-
  The certificate's claim.

  Both programs compute, for each node in the order sorted by (graph label, kind), the node's two-layer network
  output beside the mean over its graph's "condition" nodes of that output, kept only for "primary" nodes.  The kernel
  does the network and the per-graph sums tile by tile in its first region and the table lookup by an indicator
  product in its second; the reference does the sums by scatter-add and the lookup by a row gather.  On the exact
  extended reals the two agree whenever every graph label is a row number of the 256-row table, which is the
  precondition's last conjunct: a label outside the range selects nothing in the kernel but is wrapped and clamped
  to some row by the reference's gather.

  The three frames: the two kernel programs' are the generated frame certificates; the reference's is its run with
  the result dropped.  The idealization ledger is empty.  The value claim: the kernel's run ends with its result
  buffer at the last host stretch's contents, which the bridge identifies, entry by entry, with the reference's
  result of the same inputs; the reference's run ends at that stage of its own inputs, which agree with the kernel's.
-/
import proofs.«411169_j26723286516090_2_alg».proof.Defs
import proofs.«411169_j26723286516090_2_alg».proof.Proof.Gen.Kernel
import proofs.«411169_j26723286516090_2_alg».proof.Proof.Gen.Kernel.Frame
import proofs.«411169_j26723286516090_2_alg».proof.Proof.Gen.KernelIdeal
import proofs.«411169_j26723286516090_2_alg».proof.Proof.Gen.KernelIdeal.Frame
import proofs.«411169_j26723286516090_2_alg».proof.Proof.Gen.ReferenceIdeal
import proofs.«411169_j26723286516090_2_alg».proof.Proof.Gen.Pre_finite_inputs
import proofs.«411169_j26723286516090_2_alg».proof.Proof.RunValue
import proofs.«411169_j26723286516090_2_alg».proof.Proof.RefRead
import proofs.«411169_j26723286516090_2_alg».proof.Proof.PreRange
import proofs.«411169_j26723286516090_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with what it says of the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Under the precondition both idealized programs end with the same result. -/
theorem algebraic : Cert.algebraic_KernelIdeal_ReferenceIdeal := by
  intro m ρ m' ρ' hpre hagree
  refine ⟨fun c => Cert.ReferenceIdeal.ReadP.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.RunValue.run_value (F := Ideal) m ρ)
    exact Cert.Bridge.out_eq m ρ c (fun i => Cert.PreRange.batch_range _ _ _ _ _ _ _ _ _ (hpre c) i)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v81_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
